-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x5 : Shape := ⟨2, ![2000000, 5]⟩
abbrev S2000000 : Shape := ⟨1, ![2000000]⟩
abbrev S2x16000 : Shape := ⟨2, ![2, 16000]⟩
abbrev S4x128 : Shape := ⟨2, ![4, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S2000000x5 : S_.BroadcastsInDim S2000000x5 (![] : Fin 0 → Fin S2000000x5.rank)
  reducesTo_S2000000x5_S_d0_1 : S2000000x5.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x16000 : S_.BroadcastsInDim S2x16000 (![] : Fin 0 → Fin S2x16000.rank)
  reducesTo_S2x16000_S_d0_1 : S2x16000.ReducesTo [0, 1] S_

variable [Facts]

def fn_part1 {F : FTy → Type} [FloatOps F] (main_arg2 : IVec S2x16000 32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x16000 32 := broadcastInDim S2x16000 ![] bcast_S_S2x16000 main_c_8
  let main_v25 : IVec S2x16000 1 := cmpi .sge main_arg2 main_v24
  let main_c_9 : IVec S_ 1 := constantI S_ 1 1#1
  let main_v26 : IVec S_ 1 := (fun x v => Host.reduce IntOp.andi x v reducesTo_S2x16000_S_d0_1 h_S_) main_v25 main_c_9
  let main_v27 : IVec S_ 1 := andi main_v23 main_v26
  let main_c_10 : IVec S_ 32 := constantI S_ 32 2000#32
  let main_v28 : IVec S2x16000 32 := broadcastInDim S2x16000 ![] bcast_S_S2x16000 main_c_10
  let main_v29 : IVec S2x16000 1 := cmpi .slt main_arg2 main_v28
  let main_c_11 : IVec S_ 1 := constantI S_ 1 1#1
  let main_v30 : IVec S_ 1 := (fun x v => Host.reduce IntOp.andi x v reducesTo_S2x16000_S_d0_1 h_S_) main_v29 main_c_11
  let main_v31 : IVec S_ 1 := andi main_v27 main_v30
  main_v31

def fn {F : FTy → Type} [FloatOps F] (main_arg0 : FVec F S2000000x5 .f32) (main_arg1 : IVec S2000000 32) (main_arg2 : IVec S2x16000 32) (main_arg3 : FVec F S4x128 .f32) (main_arg4 : FVec F S128 .f32) (main_arg5 : FVec F S128x64 .f32) (main_arg6 : FVec F S64 .f32) : IVec S_ 1 :=
  let main_v0 : FVec F S2000000x5 .f32 := Host.absf main_arg0
  let main_cst : FVec F S_ .f32 := constant S_ .f32 0x7F800000#32
  let main_v1 : FVec F S2000000x5 .f32 := broadcastInDim S2000000x5 ![] bcast_S_S2000000x5 main_cst
  let main_v2 : IVec S2000000x5 1 := cmpf .olt main_v0 main_v1
  let main_c : IVec S_ 1 := constantI S_ 1 1#1
  let main_v3 : IVec S_ 1 := (fun x v => Host.reduce IntOp.andi x v reducesTo_S2000000x5_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg2 main_arg6 main_v13 main_v16
-- ==== Kernel.lean ====
abbrev S2000000x5 : Shape := ⟨2, ![2000000, 5]⟩
abbrev S2000000 : Shape := ⟨1, ![2000000]⟩
abbrev S2x16000 : Shape := ⟨2, ![2, 16000]⟩
abbrev S4x128 : Shape := ⟨2, ![4, 128]⟩
abbrev S128 : Shape := ⟨1, ![128]⟩
abbrev S128x64 : Shape := ⟨2, ![128, 64]⟩
abbrev S64 : Shape := ⟨1, ![64]⟩
abbrev S1x16000 : Shape := ⟨2, ![1, 16000]⟩
abbrev S16000 : Shape := ⟨1, ![16000]⟩
abbrev S_ : Shape := ⟨0, ![]⟩
abbrev S2000896x5 : Shape := ⟨2, ![2000896, 5]⟩
abbrev S1 : Shape := ⟨1, ![1]⟩
abbrev S2000896 : Shape := ⟨1, ![2000896]⟩
abbrev S2x5x2048 : Shape := ⟨3, ![2, 5, 2048]⟩
abbrev S1024x5 : Shape := ⟨2, ![1024, 5]⟩
abbrev S1024 : Shape := ⟨1, ![1024]⟩
abbrev S1x5x2048 : Shape := ⟨3, ![1, 5, 2048]⟩
abbrev S5x2048 : Shape := ⟨2, ![5, 2048]⟩
abbrev S1024x2048 : Shape := ⟨2, ![1024, 2048]⟩
abbrev S1024x1 : Shape := ⟨2, ![1024, 1]⟩
abbrev S2048x5 : Shape := ⟨2, ![2048, 5]⟩
abbrev S2048x1 : Shape := ⟨2, ![2048, 1]⟩
abbrev S2048 : Shape := ⟨1, ![2048]⟩
abbrev S2048x4 : Shape := ⟨2, ![2048, 4]⟩
abbrev S2048x10 : Shape := ⟨2, ![2048, 10]⟩
abbrev S16384 : Shape := ⟨1, ![16384]⟩
abbrev S16384x64 : Shape := ⟨2, ![16384, 64]⟩
abbrev S512 : Shape := ⟨1, ![512]⟩
abbrev S512x64 : Shape := ⟨2, ![512, 64]⟩
abbrev S512x2048 : Shape := ⟨2, ![512, 2048]⟩
abbrev S512x1 : Shape := ⟨2, ![512, 1]⟩
abbrev S512x10 : Shape := ⟨2, ![512, 10]⟩
abbrev S512x4 : Shape := ⟨2, ![512, 4]⟩
abbrev S512x128 : Shape := ⟨2, ![512, 128]⟩
abbrev S1x128 : Shape := ⟨2, ![1, 128]⟩
abbrev S1x64 : Shape := ⟨2, ![1, 64]⟩
abbrev S16000x64 : Shape := ⟨2, ![16000, 64]⟩

abbrev nBuf : Space → Nat
  | .hbm => 57
  | .vmem => 19
  | .smem => 0
  | _ => 0

abbrev bufTy : (tb : Table) → Fin (tcTables nBuf tb) → BufTy
  | .hbm, ⟨0, _⟩ => ⟨S2000000x5, .f32⟩
  | .hbm, ⟨1, _⟩ => ⟨S2000000, .i32⟩
  | .hbm, ⟨2, _⟩ => ⟨S2x16000, .i32⟩
  | .hbm, ⟨3, _⟩ => ⟨S4x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x16000, .i32⟩
  | .hbm, ⟨8, _⟩ => ⟨S16000, .i32⟩
  | .hbm, ⟨9, _⟩ => ⟨S1x16000, .i32⟩
  | .hbm, ⟨10, _⟩ => ⟨S16000, .i32⟩
  | .hbm, ⟨11, _⟩ => ⟨S_, .i32⟩
  | .hbm, ⟨12, _⟩ => ⟨S_, .f32⟩
  | .hbm, ⟨13, _⟩ => ⟨S2000896x5, .f32⟩
  | .hbm, ⟨14, _⟩ => ⟨S_, .i32⟩
  | .hbm, ⟨15, _⟩ => ⟨S1, .i32⟩
  | .hbm, ⟨16, _⟩ => ⟨S_, .f32⟩
  | .hbm, ⟨17, _⟩ => ⟨S2000896, .f32⟩
  | .hbm, ⟨18, _⟩ => ⟨S2000896x5, .f32⟩
  | .hbm, ⟨19, _⟩ => ⟨S_, .i32⟩
  | .hbm, ⟨20, _⟩ => ⟨S_, .i32⟩
  | .hbm, ⟨21, _⟩ => ⟨S2000896, .i32⟩
  | .hbm, ⟨22, _⟩ => ⟨S2x5x2048, .f32⟩
  | .hbm, ⟨23, _⟩ => ⟨S1x5x2048, .f32⟩
  | .hbm, ⟨24, _⟩ => ⟨S5x2048, .f32⟩
  | .hbm, ⟨25, _⟩ => ⟨S1x5x2048, .f32⟩
  | .hbm, ⟨26, _⟩ => ⟨S5x2048, .f32⟩
  | .hbm, ⟨27, _⟩ => ⟨S5x2048, .f32⟩
  | .hbm, ⟨28, _⟩ => ⟨S2048x5, .f32⟩
  | .hbm, ⟨29, _⟩ => ⟨S2048x1, .f32⟩
  | .hbm, ⟨30, _⟩ => ⟨S2048, .f32⟩
  | .hbm, ⟨31, _⟩ => ⟨S2048x4, .f32⟩
  | .hbm, ⟨32, _⟩ => ⟨S2048x4, .bf16⟩
  | .hbm, ⟨33, _⟩ => ⟨S2048x4, .f32⟩
  | .hbm, ⟨34, _⟩ => ⟨S2048x4, .f32⟩
  | .hbm, ⟨35, _⟩ => ⟨S2048x4, .bf16⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048x4, .f32⟩
  | .hbm, ⟨45, _⟩ => ⟨S2048x4, .f32⟩
  | .hbm, ⟨46, _⟩ => ⟨S2048x1, .f32⟩
  | .hbm, ⟨47, _⟩ => ⟨S2048x1, .f32⟩
  | .hbm, ⟨48, _⟩ => ⟨S2048x10, .f32⟩
  | .hbm, ⟨49, _⟩ => ⟨S_, .i32⟩
  | .hbm, ⟨50, _⟩ => ⟨S_, .i32⟩
  | .hbm, ⟨51, _⟩ => ⟨S16384, .i32⟩
  | .hbm, ⟨52, _⟩ => ⟨S_, .i32⟩
  | .hbm, ⟨53, _⟩ => ⟨S_, .i32⟩
  | .hbm, ⟨54, _⟩ => ⟨S16384, .i32⟩
  | .hbm, ⟨55, _⟩ => ⟨S16384x64, .f32⟩
  | .hbm, ⟨56, _⟩ => ⟨S16000x64, .f32⟩
  | .local _ .vmem, ⟨0, _⟩ => ⟨S1024x5, .f32⟩
  | .local _ .vmem, ⟨1, _⟩ => ⟨S1024x5, .f32⟩
  | .local _ .vmem, ⟨2, _⟩ => ⟨S1024, .i32⟩
  | .local _ .vmem, ⟨3, _⟩ => ⟨S1024, .i32⟩
  | .local _ .vmem, ⟨4, _⟩ => ⟨S1x5x2048, .f32⟩
  | .local _ .vmem, ⟨5, _⟩ => ⟨S1x5x2048, .f32⟩
  | .local _ .vmem, ⟨6, _⟩ => ⟨S5x2048, .f32⟩
  | .local _ .vmem, ⟨7, _⟩ => ⟨S1024x2048, .i32⟩
  | .local _ .vmem, ⟨8, _⟩ => ⟨S512, .i32⟩
  | .local _ .vmem, ⟨9, _⟩ => ⟨S512, .i32⟩
  | .local _ .vmem, ⟨10, _⟩ => ⟨S512, .i32⟩
  | .local _ .vmem, ⟨11, _⟩ => ⟨S512, .i32⟩
  | .local _ .vmem, ⟨12, _⟩ => ⟨S2048x10, .f32⟩
  | .local _ .vmem, ⟨13, _⟩ => ⟨S4x128, .f32⟩
  | .local _ .vmem, ⟨14, _⟩ => ⟨S128, .f32⟩
  | .local _ .vmem, ⟨15, _⟩ => ⟨S128x64, .f32⟩
  | .local _ .vmem, ⟨16, _⟩ => ⟨S64, .f32⟩
  | .local _ .vmem, ⟨17, _⟩ => ⟨S512x64, .f32⟩
  | .local _ .vmem, ⟨18, _⟩ => ⟨S512x64, .f32⟩
  | _, _ => ⟨S2000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_call2_v0 : Ref sig .tc := ⟨.hbm, 50, rfl⟩
abbrev main_v34 : Ref sig .tc := ⟨.hbm, 51, rfl⟩
abbrev main_c_5 : Ref sig .tc := ⟨.hbm, 52, rfl⟩
abbrev main_call3_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨2, ![2, 977], ![false, false]⟩

def k0_cond2 (i : grid0.Coords) : BitVec 1 :=
  let arg1 : BitVec 32 := BitVec.ofNat 32 (i 1).val
  let c976_i32 : BitVec 32 := 976#32
  let v21 : BitVec 1 := Scalar.cmpi .eq arg1 c976_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let arg1 : BitVec 32 := BitVec.ofNat 32 (i 1).val
  let c977_i32 : BitVec 32 := 977#32
  let v0 : BitVec 32 := Scalar.muli arg0 c977_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c977_i32 : BitVec 32 := 977#32
  let v0 : BitVec 32 := Scalar.muli arg0 c977_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x16000_S1x16000_0_0 : S2x16000.Slices ![0, 0] S1x16000
  shapeCasts_S1x16000_S16000 : S1x16000.ShapeCasts S16000
  slices_S2x16000_S1x16000_1_0 : S2x16000.Slices ![1, 0] S1x16000
  pads_S2000000x5_S2000896x5_08960_000 : S2000000x5.Pads (![0, 0] : Fin 2 → Nat) ![896, 0] ![0, 0] S2000896x5
  h_S_ : 0 < S_.numel
  bcast_S_S1 : S_.BroadcastsInDim S1 (![] : Fin 0 → Fin S1.rank)
  bcast_S_S2000896 : S_.BroadcastsInDim S2000896 (![] : Fin 0 → Fin S2000896.rank)
  pads_S2000000_S2000896_08960 : S2000000.Pads (![0] : Fin 1 → Nat) ![896] ![0] S2000896
  inb_S5x2048_S5x2048_0_0 : ∀ a, (![0, 0] : Fin 2 → Nat) a + S5x2048.size a ≤ S5x2048.size a
  h_S5x2048 : 0 < S5x2048.numel
  shapeCasts_S5x2048_S5x2048 : S5x2048.ShapeCasts S5x2048
  iota_S1024x2048_d1_w32 : S1024x2048.Iotas .tc 32 [1]
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  broadcasts_S1024x1_S1024x2048 : S1024x1.Broadcasts S1024x2048
  natLt_1_32 : 1 < 32
  inb_S1x5x2048_S1x5x2048_0_0_0 : ∀ a, (![0, 0, 0] : Fin 3 → Nat) a + S1x5x2048.size a ≤ S1x5x2048.size a
  h_S1x5x2048 : 0 < S1x5x2048.numel
  shapeCasts_S1x5x2048_S5x2048 : S1x5x2048.ShapeCasts S5x2048
  shapeCasts_S5x2048_S1x5x2048 : S5x2048.ShapeCasts S1x5x2048
  slices_S2x5x2048_S1x5x2048_0_0_0 : S2x5x2048.Slices ![0, 0, 0] S1x5x2048
  slices_S2x5x2048_S1x5x2048_1_0_0 : S2x5x2048.Slices ![1, 0, 0] S1x5x2048
  transposes_S5x2048_S2048x5_1_0 : S5x2048.Transposes [1, 0] S2048x5
  slices_S2048x5_S2048x1_0_0 : S2048x5.Slices ![0, 0] S2048x1
  shapeCasts_S2048x1_S2048 : S2048x1.ShapeCasts S2048
  slices_S2048x5_S2048x4_0_1 : S2048x5.Slices ![0, 1] S2048x4
  bcast_S_S2048 : S_.BroadcastsInDim S2048 (![] : Fin 0 → Fin S2048.rank)
  bcast_S2048_S2048x1_0 : S2048.BroadcastsInDim S2048x1 (![0] : Fin 1 → Fin S2048x1.rank)
  concatenates_S2048x4_S2048x4_S2048x1_S2048x1_S2048x10_d1 : Shape.Concatenates [S2048x4, S2048x4, S2048x1, S2048x1] S2048x10 1
  pads_S16000_S16384_03840 : S16000.Pads (![0] : Fin 1 → Nat) ![384] ![0] S16384
  inb_S512_S512_0 : ∀ a, (![0] : Fin 1 → Nat) a + S512.size a ≤ S512.size a
  h_S512 : 0 < S512.numel
  shapeCasts_S512_S512 : S512.ShapeCasts S512
  iota_S512x2048_d1_w32 : S512x2048.Iotas .tc 32 [1]
  shapeCasts_S512_S512x1 : S512.ShapeCasts S512x1
  broadcasts_S512x1_S512x2048 : S512x1.Broadcasts S512x2048
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  slices_S512x10_o0_0_S512x4 : S512x10.Slices ![0, 0] S512x4
  slices_S512x10_o0_4_S512x4 : S512x10.Slices ![0, 4] S512x4
  slices_S512x10_o0_8_S512x1 : S512x10.Slices ![0, 8] S512x1
  shapeCasts_S512x1_S512 : S512x1.ShapeCasts S512
  slices_S512x10_o0_9_S512x1 : S512x10.Slices ![0, 9] S512x1
  broadcasts_S512x1_S512x4 : S512x1.Broadcasts S512x4
  inb_S4x128_S4x128_0_0 : ∀ a, (![0, 0] : Fin 2 → Nat) a + S4x128.size a ≤ S4x128.size a
  h_S4x128 : 0 < S4x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  slices_S16384x64_S16000x64_0_0 : S16384x64.Slices ![0, 0] S16000x64
  scatter_S2000896x5_S1_S2000896_0_1_1_0_wf : ScatterDims.WF S2000896x5 S1 S2000896 [0] [1] [1] 0
  dot_S1024x5_S1024x2048_S5x2048_0_0_1_1_n_n_wf : DotDims.WF S1024x5 S1024x2048 S5x2048 [0] [0] [1] [1] [] []
  dot_S512x2048_S2048x10_S512x10_1_0_0_1_n_n_wf : DotDims.WF S512x2048 S2048x10 S512x10 [1] [0] [0] [1] [] []
  dot_S512x4_S4x128_S512x128_1_0_0_1_n_n_wf : DotDims.WF S512x4 S4x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5.size a ≤ S2000896x5.size a
  hwx0_0 : ∀ i : grid0.Coords, EltTy.bits .f32 = 32 ∨ (Rect.block (s := S2000896x5) S1024x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S2000896.size a
  hwx0_1 : ∀ i : grid0.Coords, EltTy.bits .i32 = 32 ∨ (Rect.block (s := S2000896) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x2048.size a ≤ S2x5x2048.size a
  hwx0_2 : ∀ i : grid0.Coords, EltTy.bits .f32 = 32 ∨ (Rect.block (s := S2x5x2048) S1x5x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S16384.size a
  hwx1_0 : ∀ i : grid1.Coords, EltTy.bits .i32 = 32 ∨ (Rect.block (s := S16384) S512.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S16384.size a
  hwx1_1 : ∀ i : grid1.Coords, EltTy.bits .i32 = 32 ∨ (Rect.block (s := S16384) S512.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x10.size a ≤ S2048x10.size a
  hwx1_2 : ∀ i : grid1.Coords, EltTy.bits .f32 = 32 ∨ (Rect.block (s := S2048x10) S2048x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x64.size a ≤ S16384x64.size a
  hwx1_7 : ∀ i : grid1.Coords, EltTy.bits .f32 = 32 ∨ (Rect.block (s := S16384x64) S512x64.size (cc1_transform_7 i) (hinb1_7 i)).WholeWords (EltTy.packing .f32)

variable [Facts₀]

def scatter_S2000896x5_S1_S2000896_0_1_1_0 : ScatterDims S2000896x5 S1 S2000896 where
  updateWindowDims := [0]
  insertedWindowDims := [1]
  scatterDimsToOperandDims := [1]
  indexVectorDim := 0
  wf := scatter_S2000896x5_S1_S2000896_0_1_1_0_wf
def dot_S1024x5_S1024x2048_S5x2048_0_0_1_1_n_n : DotDims S1024x5 S1024x2048 S5x2048 where
  lhsContracting := [0]
  rhsContracting := [0]
  lhsNonContracting := [1]
  rhsNonContracting := [1]
  lhsBatch := []
  rhsBatch := []
  wf := dot_S1024x5_S1024x2048_S5x2048_0_0_1_1_n_n_wf
def dot_S512x2048_S2048x10_S512x10_1_0_0_1_n_n : DotDims S512x2048 S2048x10 S512x10 where
  lhsContracting := [1]
  rhsContracting := [0]
  lhsNonContracting := [0]
  rhsNonContracting := [1]
  lhsBatch := []
  rhsBatch := []
  wf := dot_S512x2048_S2048x10_S512x10_1_0_0_1_n_n_wf
def dot_S512x4_S4x128_S512x128_1_0_0_1_n_n : DotDims S512x4 S4x128 S512x128 where
  lhsContracting := [1]
  rhsContracting := [0]
  lhsNonContracting := [0]
  rhsNonContracting := [1]
  lhsBatch := []
  rhsBatch := []
  wf := dot_S512x4_S4x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_v7) S1024x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x5x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v34) S512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2048x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S512x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2000000x5 : Shape := ⟨2, ![2000000, 5]⟩
abbrev S2000000 : Shape := ⟨1, ![2000000]⟩
abbrev S2x16000 : Shape := ⟨2, ![2, 16000]⟩
abbrev S4x128 : Shape := ⟨2, ![4, 128]⟩
abbrev S128 : Shape := ⟨1, ![128]⟩
abbrev S128x64 : Shape := ⟨2, ![128, 64]⟩
abbrev S64 : Shape := ⟨1, ![64]⟩
abbrev S2000000x4 : Shape := ⟨2, ![2000000, 4]⟩
abbrev S_ : Shape := ⟨0, ![]⟩
abbrev S2000x4 : Shape := ⟨2, ![2000, 4]⟩
abbrev S2000000x1 : Shape := ⟨2, ![2000000, 1]⟩
abbrev S2000 : Shape := ⟨1, ![2000]⟩
abbrev S1x16000 : Shape := ⟨2, ![1, 16000]⟩
abbrev S16000 : Shape := ⟨1, ![16000]⟩
abbrev S16000x1 : Shape := ⟨2, ![16000, 1]⟩
abbrev S16000x4 : Shape := ⟨2, ![16000, 4]⟩
abbrev S16000x128 : Shape := ⟨2, ![16000, 128]⟩
abbrev S1x128 : Shape := ⟨2, ![1, 128]⟩
abbrev S16000x64 : Shape := ⟨2, ![16000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S2000000x5, .f32⟩
  | .hbm, ⟨1, _⟩ => ⟨S2000000, .i32⟩
  | .hbm, ⟨2, _⟩ => ⟨S2x16000, .i32⟩
  | .hbm, ⟨3, _⟩ => ⟨S4x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2000000x4, .f32⟩
  | .hbm, ⟨8, _⟩ => ⟨S_, .f32⟩
  | .hbm, ⟨9, _⟩ => ⟨S2000x4, .f32⟩
  | .hbm, ⟨10, _⟩ => ⟨S2000000x1, .i32⟩
  | .hbm, ⟨11, _⟩ => ⟨S2000x4, .f32⟩
  | .hbm, ⟨12, _⟩ => ⟨S_, .f32⟩
  | .hbm, ⟨13, _⟩ => ⟨S2000000, .f32⟩
  | .hbm, ⟨14, _⟩ => ⟨S_, .f32⟩
  | .hbm, ⟨15, _⟩ => ⟨S2000, .f32⟩
  | .hbm, ⟨16, _⟩ => ⟨S2000000x1, .i32⟩
  | .hbm, ⟨17, _⟩ => ⟨S2000, .f32⟩
  | .hbm, ⟨18, _⟩ => ⟨S1x16000, .i32⟩
  | .hbm, ⟨19, _⟩ => ⟨S16000, .i32⟩
  | .hbm, ⟨20, _⟩ => ⟨S1x16000, .i32⟩
  | .hbm, ⟨21, _⟩ => ⟨S16000, .i32⟩
  | .hbm, ⟨22, _⟩ => ⟨S_, .i32⟩
  | .hbm, ⟨23, _⟩ => ⟨S16000, .i32⟩
  | .hbm, ⟨24, _⟩ => ⟨S16000, .i1⟩
  | .hbm, ⟨25, _⟩ => ⟨S_, .i32⟩
  | .hbm, ⟨26, _⟩ => ⟨S16000, .i32⟩
  | .hbm, ⟨27, _⟩ => ⟨S16000, .i32⟩
  | .hbm, ⟨28, _⟩ => ⟨S16000, .i32⟩
  | .hbm, ⟨29, _⟩ => ⟨S16000x1, .i32⟩
  | .hbm, ⟨30, _⟩ => ⟨S16000x4, .f32⟩
  | .hbm, ⟨31, _⟩ => ⟨S_, .i32⟩
  | .hbm, ⟨32, _⟩ => ⟨S16000, .i32⟩
  | .hbm, ⟨33, _⟩ => ⟨S16000, .i1⟩
  | .hbm, ⟨34, _⟩ => ⟨S_, .i32⟩
  | .hbm, ⟨35, _⟩ => ⟨S16000, .i32⟩
  | .hbm, ⟨36, _⟩ => ⟨S16000, .i32⟩
  | .hbm, ⟨37, _⟩ => ⟨S16000, .i32⟩
  | .hbm, ⟨38, _⟩ => ⟨S16000x1, .i32⟩
  | .hbm, ⟨39, _⟩ => ⟨S16000x4, .f32⟩
  | .hbm, ⟨40, _⟩ => ⟨S16000x4, .f32⟩
  | .hbm, ⟨41, _⟩ => ⟨S_, .i32⟩
  | .hbm, ⟨42, _⟩ => ⟨S16000, .i32⟩
  | .hbm, ⟨43, _⟩ => ⟨S16000, .i1⟩
  | .hbm, ⟨44, _⟩ => ⟨S_, .i32⟩
  | .hbm, ⟨45, _⟩ => ⟨S16000, .i32⟩
  | .hbm, ⟨46, _⟩ => ⟨S16000, .i32⟩
  | .hbm, ⟨47, _⟩ => ⟨S16000, .i32⟩
  | .hbm, ⟨48, _⟩ => ⟨S16000x1, .i32⟩
  | .hbm, ⟨49, _⟩ => ⟨S16000, .f32⟩
  | .hbm, ⟨50, _⟩ => ⟨S_, .i32⟩
  | .hbm, ⟨51, _⟩ => ⟨S16000, .i32⟩
  | .hbm, ⟨52, _⟩ => ⟨S16000, .i1⟩
  | .hbm, ⟨53, _⟩ => ⟨S_, .i32⟩
  | .hbm, ⟨54, _⟩ => ⟨S16000, .i32⟩
  | .hbm, ⟨55, _⟩ => ⟨S16000, .i32⟩
  | .hbm, ⟨56, _⟩ => ⟨S16000, .i32⟩
  | .hbm, ⟨57, _⟩ => ⟨S16000x1, .i32⟩
  | .hbm, ⟨58, _⟩ => ⟨S16000, .f32⟩
  | .hbm, ⟨59, _⟩ => ⟨S16000, .f32⟩
  | .hbm, ⟨60, _⟩ => ⟨S_, .f32⟩
  | .hbm, ⟨61, _⟩ => ⟨S16000, .f32⟩
  | .hbm, ⟨62, _⟩ => ⟨S16000, .f32⟩
  | .hbm, ⟨63, _⟩ => ⟨S16000x1, .f32⟩
  | .hbm, ⟨64, _⟩ => ⟨S16000x4, .f32⟩
  | .hbm, ⟨65, _⟩ => ⟨S16000x4, .f32⟩
  | .hbm, ⟨66, _⟩ => ⟨S16000x128, .f32⟩
  | .hbm, ⟨67, _⟩ => ⟨S1x128, .f32⟩
  | .hbm, ⟨68, _⟩ => ⟨S16000x128, .f32⟩
  | .hbm, ⟨69, _⟩ => ⟨S16000x128, .f32⟩
  | .hbm, ⟨70, _⟩ => ⟨S_, .f32⟩
  | .hbm, ⟨71, _⟩ => ⟨S16000x128, .f32⟩
  | .hbm, ⟨72, _⟩ => ⟨S16000x128, .f32⟩
  | .hbm, ⟨73, _⟩ => ⟨S16000x64, .f32⟩
  | .hbm, ⟨74, _⟩ => ⟨S1x64, .f32⟩
  | .hbm, ⟨75, _⟩ => ⟨S16000x64, .f32⟩
  | .hbm, ⟨76, _⟩ => ⟨S16000x64, .f32⟩
  | _, _ => ⟨S2000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_cst : Ref sig .tc := ⟨.hbm, 70, rfl⟩
abbrev main_call0_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  slices_S2000000x5_S2000000x4_0_1 : S2000000x5.Slices ![0, 1] S2000000x4
  bcast_S_S2000x4 : S_.BroadcastsInDim S2000x4 (![] : Fin 0 → Fin S2000x4.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S2000 : S_.BroadcastsInDim S2000 (![] : Fin 0 → Fin S2000.rank)
  slices_S2x16000_S1x16000_0_0 : S2x16000.Slices ![0, 0] S1x16000
  shapeCasts_S1x16000_S16000 : S1x16000.ShapeCasts S16000
  slices_S2x16000_S1x16000_1_0 : S2x16000.Slices ![1, 0] S1x16000
  bcast_S_S16000 : S_.BroadcastsInDim S16000 (![] : Fin 0 → Fin S16000.rank)
  bcast_S16000_S16000x1_0 : S16000.BroadcastsInDim S16000x1 (![0] : Fin 1 → Fin S16000x1.rank)
  bcast_S16000x1_S16000x4_0_1 : S16000x1.BroadcastsInDim S16000x4 (![0, 1] : Fin 2 → Fin S16000x4.rank)
  bcast_S128_S1x128_1 : S128.BroadcastsInDim S1x128 (![1] : Fin 1 → Fin S1x128.rank)
  bcast_S1x128_S16000x128_0_1 : S1x128.BroadcastsInDim S16000x128 (![0, 1] : Fin 2 → Fin S16000x128.rank)
  bcast_S_S16000x128 : S_.BroadcastsInDim S16000x128 (![] : Fin 0 → Fin S16000x128.rank)
  bcast_S64_S1x64_1 : S64.BroadcastsInDim S1x64 (![1] : Fin 1 → Fin S1x64.rank)
  bcast_S1x64_S16000x64_0_1 : S1x64.BroadcastsInDim S16000x64 (![0, 1] : Fin 2 → Fin S16000x64.rank)
  scatter_S2000x4_S2000000x1_S2000000x4_1_0_0_1_wf : ScatterDims.WF S2000x4 S2000000x1 S2000000x4 [1] [0] [0] 1
  scatter_S2000_S2000000x1_S2000000_n_0_0_1_wf : ScatterDims.WF S2000 S2000000x1 S2000000 [] [0] [0] 1
  gather_S2000x4_S16000x1_S16000x4_1_0_n_n_0_1_14_wf : GatherDims.WF S2000x4 S16000x1 S16000x4 [1] [0] [] [0] [] 1 ![1, 4]
  gather_S2000_S16000x1_S16000_n_0_n_n_0_1_1_wf : GatherDims.WF S2000 S16000x1 S16000 [] [0] [] [0] [] 1 ![1]
  dot_S16000x4_S4x128_S16000x128_1_0_0_1_n_n_wf : DotDims.WF S16000x4 S4x128 S16000x128 [1] [0] [0] [1] [] []
  dot_S16000x128_S128x64_S16000x64_1_0_0_1_n_n_wf : DotDims.WF S16000x128 S128x64 S16000x64 [1] [0] [0] [1] [] []

variable [Facts₀]

def scatter_S2000x4_S2000000x1_S2000000x4_1_0_0_1 : ScatterDims S2000x4 S2000000x1 S2000000x4 where
  updateWindowDims := [1]
  insertedWindowDims := [0]
  scatterDimsToOperandDims := [0]
  indexVectorDim := 1
  wf := scatter_S2000x4_S2000000x1_S2000000x4_1_0_0_1_wf
def scatter_S2000_S2000000x1_S2000000_n_0_0_1 : ScatterDims S2000 S2000000x1 S2000000 where
  updateWindowDims := []
  insertedWindowDims := [0]
  scatterDimsToOperandDims := [0]
  indexVectorDim := 1
  wf := scatter_S2000_S2000000x1_S2000000_n_0_0_1_wf
def gather_S2000x4_S16000x1_S16000x4_1_0_n_n_0_1_14 : GatherDims S2000x4 S16000x1 S16000x4 where
  offsetDims := [1]
  collapsedSliceDims := [0]
  operandBatchingDims := []
  startIndicesBatchingDims := []
  startIndexMap := [0]
  indexVectorDim := 1
  sliceSizes := ![1, 4]
  wf := gather_S2000x4_S16000x1_S16000x4_1_0_n_n_0_1_14_wf
def gather_S2000_S16000x1_S16000_n_0_n_n_0_1_1 : GatherDims S2000 S16000x1 S16000 where
  offsetDims := []
  collapsedSliceDims := [0]
  operandBatchingDims := []
  startIndicesBatchingDims := []
  startIndexMap := [0]
  indexVectorDim := 1
  sliceSizes := ![1]
  wf := gather_S2000_S16000x1_S16000_n_0_n_n_0_1_1_wf
def dot_S16000x4_S4x128_S16000x128_1_0_0_1_n_n : DotDims S16000x4 S4x128 S16000x128 where
  lhsContracting := [1]
  rhsContracting := [0]
  lhsNonContracting := [0]
  rhsNonContracting := [1]
  lhsBatch := []
  rhsBatch := []
  wf := dot_S16000x4_S4x128_S16000x128_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf

class Facts : Prop extends Facts₀ where

variable [Facts]
-- ==== Proof.KRegion0Defs.lean ====
/-
  Region 0 (the per-cluster sums): what the region's proof is stated over.

  The grid has 2 x 977 points, point n = h * 977 + t.  At t = 0 the body clears the accumulator scratch and
  stores the lane-index table into the second scratch; at every point it adds to the accumulator the product of
  the transposed 1024 x 5 block of voxel rows with the 1024 x 2048 one-hot table of the block's cluster ids
  (an id equal to the lane index); at t = 976 it copies the accumulator into the output block h.
  `accAt n` is the accumulator after the points below n, by recursion on the point.
-/
import proofs.«408049_j17463337026110_3_alg».proof.Proof.Gen.Kernel.Launch
import proofs.«408049_j17463337026110_3_alg».proof.Proof.Gen.Kernel.Skeleton
import proofs.«408049_j17463337026110_3_alg».proof.Proof.Gen.Kernel.Points
import Idealize.ShloMosaic.Lib.Pipeline.FrameBody
import Idealize.ShloMosaic.Lib.Pipeline.Frame
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

-- the buffers' contents when the region is entered: a parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the points below `n`: a point whose second coordinate is zero starts from the cleared
    accumulator, every other from what the point before left; each adds its block's product. -/
def accAt (c : Dev nD) : ℕ → Vec F S5x2048 .f32
  | 0 => k0_pay1
  | n + 1 =>
    if h : n < cfg0.N then
      k0_pay3 (iblk0 V c 0 ⟨n, h⟩) (iblk0 V c 1 ⟨n, h⟩) k0_pay2 (if n % 977 = 0 then k0_pay1 else accAt c n)
    else accAt c n

/-- Between the points: the two scratch buffers — after any point but one that ends a half's run of 977 the
    accumulator at `accAt` and the lane-index table —, the other scoped buffers at anything, the generator register. -/
def PhiR0 (c : Dev nD) (n : ℕ) : sProp 𝕄 :=
  iprop((∃ (a : Vec F S5x2048 .f32) (i : Vec F S1024x2048 .i32),
            owns (c : Thread nD τ) (Memref.whole cc0_scratch0) fullShare a
          ∗ owns (c : Thread nD τ) (Memref.whole cc0_scratch1) fullShare i
          ∗ ⌜n % 977 ≠ 0 → a = accAt V c n ∧ i = k0_pay2⌝)
      ∗ Pipeline.scopedRestBut (Ix := Unit) (Name := ℕ) (U := UR sig nD τ) (Lvl := ℕ) (Val := Elt F) spec0 c [cc0_scratch0, cc0_scratch1]
      ∗ ∃ r, prngReg c r)

/-- The proof data of pipeline 0 on core `c`: the arrays as the region finds them; after the body each input's
    buffer at its block, the output's at the accumulator just computed (consulted only at the points that write
    the block back: elsewhere the body leaves the output's buffer as it found it); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (accAt V c (t.val + 1))
  Φ t := PhiR0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (accAt V c (t.val + 1)) := by dsimp only [dat0]
theorem Phi0_eq (c : Dev nD) (t : Fin (cfg0.N + 1)) : (dat0 V c).Φ t = PhiR0 V c t.val := rfl

theorem accAt_succ (c : Dev nD) (n : ℕ) (h : n < cfg0.N) :
    accAt V c (n + 1) = k0_pay3 (iblk0 V c 0 ⟨n, h⟩) (iblk0 V c 1 ⟨n, h⟩) k0_pay2 (if n % 977 = 0 then k0_pay1 else accAt V c n) := by
  rw [accAt, dif_pos h]

end Cert.Kernel.Hand

end
-- ==== Proof.KRegion0.lean ====
/-
  Region 0 (the per-cluster sums), the body obligation of its pipeline at every grid point.

  The mathematics. The grid has 2 x 977 points, point n = h * 977 + s; the body branches twice on s. At s = 0 it
  clears the accumulator scratch and stores the lane-index table into the second scratch, whatever they held; at
  every point it loads the two input blocks, the lane table and the accumulator and stores back the accumulator
  plus the product of the transposed block of voxel rows with the one-hot table of the block's cluster ids; at
  s = 976 it reads the accumulator once more and stores it, reshaped, over the whole output buffer. Every load and
  every store is through the rectangle of the whole buffer, so a load reads the contents and a store leaves its
  payload. Hence three cases by n mod 977: at residue 0 the accumulator after the point is the product added to
  the cleared accumulator; at any other residue the scratches hold the accumulator of the points below and the
  lane table (the invariant between the points), and the accumulator after the point is the product added to it;
  in both that is the recursion `accAt` one point on. The output's buffer is left as found except at residue 976,
  the only points that write its block back, where it holds the reshaped accumulator. The inputs are fetched at
  every point, so their buffers hold the point's blocks, and the body leaves them alone.
-/
import proofs.«408049_j17463337026110_3_alg».proof.Proof.KRegion0Defs
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the buffers' contents when the region is entered: a parameter
variable (V : (c : Dev nD) → (b : Ref sig .tc) → Buf (Elt F) ((c : Thread nD τ).loc b))

/-! ## The two conditionals of the body, decided over the grid -/

/-- The first conditional of the body, as the program spells it: the second grid coordinate is zero. -/
abbrev isFirst0 (i : grid0.Coords) : Prop :=
  (Scalar.cmpi .ne (Scalar.extui (Scalar.cmpi .eq (BitVec.ofNat 32 (i 1).val) 0#32)) 0#32) = 1#1
/-- The second: the second grid coordinate is 976, the last of its axis. -/
abbrev isLast0 (i : grid0.Coords) : Prop := k0_cond2 i = 1#1

/-- Point `n = h * 977 + s` has second coordinate `s`: the first conditional holds at the points ≡ 0 (mod 977), -/
theorem isFirst0_iff : ∀ t : Fin cfg0.N, isFirst0 (grid0.coords t) ↔ t.val % 977 = 0 :=
  (by decide +kernel : ∀ t : Fin grid0.N, isFirst0 (grid0.coords t) ↔ t.val % 977 = 0)
/-- the second at the points ≡ 976. -/
theorem isLast0_iff : ∀ t : Fin cfg0.N, isLast0 (grid0.coords t) ↔ t.val % 977 = 976 :=
  (by decide +kernel : ∀ t : Fin grid0.N, isLast0 (grid0.coords t) ↔ t.val % 977 = 976)

/-- The output window is idle exactly where the second conditional fails (the configuration's table says so). -/
theorem idle0_2_of_not_last (i : grid0.Coords) (h : ¬ isLast0 i) : cfg0.idle 2 i = true := by
  show (!(k0_cond2 i == 1#1)) = true
  rw [Bool.not_eq_true', beq_eq_false_iff_ne]; exact h
theorem live0_2_of_last (i : grid0.Coords) (h : isLast0 i) : cfg0.idle 2 i = false := by
  show (!(k0_cond2 i == 1#1)) = false
  rw [Bool.not_eq_false', beq_iff_eq]; exact h
/-- The inputs are never idle. -/
theorem live0_0 (i : grid0.Coords) : cfg0.idle 0 i = false := rfl
theorem live0_1 (i : grid0.Coords) : cfg0.idle 1 i = false := rfl

/-! ## Whole-buffer loads and stores -/

theorem r0_off1_zero : (![0] : Fin 1 → Nat) = fun _ => 0 := by funext a; fin_cases a; rfl
theorem r0_off2_zero : (![0, 0] : Fin 2 → Nat) = fun _ => 0 := by funext a; fin_cases a <;> rfl
theorem r0_off3_zero : (![0, 0, 0] : Fin 3 → Nat) = fun _ => 0 := by funext a; fin_cases a <;> rfl

section Whole
variable {κ : Kind} {sp : Space} {S : Shape} {e : EltTy}

/-- A load through the rectangle of the whole shape reads the buffer as the view reads it. -/
theorem r0_load_whole (v : View sig κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f :=
  (View.readAt_eq_ld v f (Rect.unit off S.size inb)).trans (View.ld_unit_zero hz inb _)

/-- After stores of which the last is over the whole shape the buffer reads as that store's payload. -/
theorem r0_read_stores (v : View sig κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

/-! ## The body's triple, case by case -/

set_option maxHeartbeats 1000000 in
/-- At a point whose second coordinate is neither zero nor the last: the body adds the block's product to the
    accumulator it finds, and leaves the lane table, the inputs and the output's buffer as they were. -/
theorem sound_kernel0_mid (c : Dev nD) (E : Set ℕ) (i : grid0.Coords) (hf : ¬ isFirst0 i) (hl : ¬ isLast0 i)
    (arg2 : Memref sig .tc .vmem S1024x5 .f32) (harg2 : arg2.IsWhole) (arg3 : Memref sig .tc .vmem S1024 .i32) (harg3 : arg3.IsWhole)
    (arg4 : Memref sig .tc .vmem S1x5x2048 .f32) (harg4 : arg4.IsWhole) (arg5 : Memref sig .tc .vmem S5x2048 .f32) (harg5 : arg5.IsWhole)
    (arg6 : Memref sig .tc .vmem S1024x2048 .i32) (harg6 : arg6.IsWhole)
    (x0 : Vec F S1024x5 .f32) (x1 : Vec F S1024 .i32) (xo : Vec F S1x5x2048 .f32) (a : Vec F S5x2048 .f32) (l : Vec F S1024x2048 .i32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare a ∗ owns (c : Thread nD τ) arg6 fullShare l
        ∗ (iprop(owns (c : Thread nD τ) arg2 fullShare x0 ∗ owns (c : Thread nD τ) arg3 fullShare x1 ∗ owns (c : Thread nD τ) arg4 fullShare xo
            ∗ owns (c : Thread nD τ) arg5 fullShare (k0_pay3 x0 x1 l a) ∗ owns (c : Thread nD τ) arg6 fullShare l) -∗ K ⟨⟩))
      ⊢ wp frame (wpE (defs₀ (F := F)) Variants.none c none) E (cc0_seg_sum_kernel i arg2 harg2 arg3 harg3 arg4 harg4 arg5 harg5 arg6 harg6) K := by
  simp only [cc0_seg_sum_kernel_eq_skeleton]; unfold cc0_seg_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [r0_read_stores _ _ r0_off2_zero, r0_load_whole _ _ r0_off2_zero, r0_load_whole _ _ r0_off1_zero,
      r0_load_whole _ _ r0_off2_zero, r0_load_whole _ _ r0_off2_zero]
  iexists f4; isplitr; · ipureintro; rfl
  iexact H4

set_option maxHeartbeats 1000000 in
/-- At a point whose second coordinate is zero (and not the last): whatever the two scratch buffers held, the body
    clears the accumulator and stores the lane table, then adds the block's product to the cleared accumulator. -/
theorem sound_kernel0_first (c : Dev nD) (E : Set ℕ) (i : grid0.Coords) (hf : isFirst0 i) (hl : ¬ isLast0 i)
    (arg2 : Memref sig .tc .vmem S1024x5 .f32) (harg2 : arg2.IsWhole) (arg3 : Memref sig .tc .vmem S1024 .i32) (harg3 : arg3.IsWhole)
    (arg4 : Memref sig .tc .vmem S1x5x2048 .f32) (harg4 : arg4.IsWhole) (arg5 : Memref sig .tc .vmem S5x2048 .f32) (harg5 : arg5.IsWhole)
    (arg6 : Memref sig .tc .vmem S1024x2048 .i32) (harg6 : arg6.IsWhole)
    (x0 : Vec F S1024x5 .f32) (x1 : Vec F S1024 .i32) (xo : Vec F S1x5x2048 .f32) (a : Vec F S5x2048 .f32) (l : Vec F S1024x2048 .i32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare a ∗ owns (c : Thread nD τ) arg6 fullShare l
        ∗ (iprop(owns (c : Thread nD τ) arg2 fullShare x0 ∗ owns (c : Thread nD τ) arg3 fullShare x1 ∗ owns (c : Thread nD τ) arg4 fullShare xo
            ∗ owns (c : Thread nD τ) arg5 fullShare (k0_pay3 x0 x1 k0_pay2 k0_pay1) ∗ owns (c : Thread nD τ) arg6 fullShare k0_pay2) -∗ K ⟨⟩))
      ⊢ wp frame (wpE (defs₀ (F := F)) Variants.none c none) E (cc0_seg_sum_kernel i arg2 harg2 arg3 harg3 arg4 harg4 arg5 harg5 arg6 harg6) K := by
  simp only [cc0_seg_sum_kernel_eq_skeleton]; unfold cc0_seg_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [r0_read_stores _ _ r0_off2_zero, r0_load_whole _ _ r0_off2_zero, r0_load_whole _ _ r0_off1_zero,
      View.readCov_unit_zero _ r0_off2_zero, View.readCov_unit_zero _ r0_off2_zero]
  iexists _; isplitr
  swap; · iexact H4
  ipureintro
  sl_unfold_words
  rw [r0_read_stores _ _ r0_off2_zero]

set_option maxHeartbeats 1000000 in
/-- At a point whose second coordinate is the last (and not zero): the body adds the block's product to the
    accumulator it finds and copies the sum into the output's buffer. -/
theorem sound_kernel0_last (c : Dev nD) (E : Set ℕ) (i : grid0.Coords) (hf : ¬ isFirst0 i) (hl : isLast0 i)
    (arg2 : Memref sig .tc .vmem S1024x5 .f32) (harg2 : arg2.IsWhole) (arg3 : Memref sig .tc .vmem S1024 .i32) (harg3 : arg3.IsWhole)
    (arg4 : Memref sig .tc .vmem S1x5x2048 .f32) (harg4 : arg4.IsWhole) (arg5 : Memref sig .tc .vmem S5x2048 .f32) (harg5 : arg5.IsWhole)
    (arg6 : Memref sig .tc .vmem S1024x2048 .i32) (harg6 : arg6.IsWhole)
    (x0 : Vec F S1024x5 .f32) (x1 : Vec F S1024 .i32) (xo : Vec F S1x5x2048 .f32) (a : Vec F S5x2048 .f32) (l : Vec F S1024x2048 .i32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare a ∗ owns (c : Thread nD τ) arg6 fullShare l
        ∗ (iprop(owns (c : Thread nD τ) arg2 fullShare x0 ∗ owns (c : Thread nD τ) arg3 fullShare x1 ∗ owns (c : Thread nD τ) arg4 fullShare (k0_pay4 (k0_pay3 x0 x1 l a))
            ∗ owns (c : Thread nD τ) arg5 fullShare (k0_pay3 x0 x1 l a) ∗ owns (c : Thread nD τ) arg6 fullShare l) -∗ K ⟨⟩))
      ⊢ wp frame (wpE (defs₀ (F := F)) Variants.none c none) E (cc0_seg_sum_kernel i arg2 harg2 arg3 harg3 arg4 harg4 arg5 harg5 arg6 harg6) K := by
  simp only [cc0_seg_sum_kernel_eq_skeleton]; unfold cc0_seg_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [r0_read_stores _ _ r0_off3_zero, View.readCov_unit_zero _ r0_off2_zero, r0_load_whole _ _ r0_off2_zero,
      r0_load_whole _ _ r0_off1_zero, r0_load_whole _ _ r0_off2_zero, r0_load_whole _ _ r0_off2_zero]
  isplitl [H3]
  · iexists _; isplitr
    swap; · iexact H3
    ipureintro
    sl_unfold_words
    rw [r0_read_stores _ _ r0_off2_zero, r0_load_whole _ _ r0_off2_zero, r0_load_whole _ _ r0_off1_zero,
      r0_load_whole _ _ r0_off2_zero, r0_load_whole _ _ r0_off2_zero]
  iexists f4; isplitr; · ipureintro; rfl
  iexact H4

/-! ## What the body finds in the inputs' buffers, and the accumulator one point on -/

/-- Input window 0 is fetched at every point: its current buffer holds the point's block. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
/-- Input window 1 likewise. -/
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-- After a point whose second coordinate is zero the accumulator is the block's product added to the cleared one; -/
theorem accAt_first (c : Dev nD) (t : Fin cfg0.N) (h : t.val % 977 = 0) :
    accAt V c (t.val + 1) = k0_pay3 (iblk0 V c 0 t) (iblk0 V c 1 t) k0_pay2 k0_pay1 := by
  rw [accAt_succ V c t.val t.isLt, if_pos h]
/-- after any other, added to what the point before left. -/
theorem accAt_next (c : Dev nD) (t : Fin cfg0.N) (h : t.val % 977 ≠ 0) :
    accAt V c (t.val + 1) = k0_pay3 (iblk0 V c 0 t) (iblk0 V c 1 t) k0_pay2 (accAt V c t.val) := by
  rw [accAt_succ V c t.val t.isLt, if_neg h]

/-- The output's block is written back only at the points ≡ 976 (mod 977). -/
theorem noFlush0_2 (t : Fin cfg0.N) (h : t.val % 977 ≠ 976) : (cfg0.win 2).flush t = false :=
  Bool.eq_false_iff.mpr fun hfl => h ((flush0_2 t).mp hfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each window's buffer at what the body leaves there — the output's, at a point that stores
    nothing into it, as it was found. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 1000000 in
/-- The body at any point, by the residue of the point modulo 977. At residue 0 the scratch buffers hold anything and
    the body resets them; at the others they hold the accumulator of the points below and the lane table. In every
    case the accumulator the body leaves is the next point's; at residue 976 the output's buffer takes its copy. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.castSucc = PhiR0 V c t.val from rfl, show (dat0 V c).Φ t.succ = PhiR0 V c (t.val + 1) from rfl,
    show (dat0 V c).leavesExact 0 t = owns (c : Thread nD τ) (st0_0 t) fullShare (iblk0 V c 0 t) from by
      unfold Dat.leavesExact; rw [live0_0, after0_0],
    show (dat0 V c).leavesExact 1 t = owns (c : Thread nD τ) (st0_1 t) fullShare (iblk0 V c 1 t) from by
      unfold Dat.leavesExact; rw [live0_1, after0_1]]
  unfold PhiR0
  by_cases h0 : t.val % 977 = 0
  · -- the first point of a half: reset
    have hf : isFirst0 (grid0.coords t) := (isFirst0_iff t).mpr h0
    have hl : ¬ isLast0 (grid0.coords t) := fun h => by have := (isLast0_iff t).mp h; omega
    rw [Dat.leavesExact_idle (dat0 V c) 2 t (idle0_2_of_not_last _ hl) (noFlush0_2 t (by omega)), accAt_first V c t h0]
    iintro ⟨⟨⟨%a, %l, Ha, Hl, %hal⟩, Hrest, Hr⟩, Ho, ⟨%d0, H0⟩, ⟨%d1, H1⟩, ⟨%d2, H2⟩⟩
    iapply (sound_kernel0_first c Set.univ (grid0.coords t) hf hl _ _ _ _ _ _ _ _ _ _ (iblk0 V c 0 t) (iblk0 V c 1 t)
      ((dat0 V c).before 2 t d2) a l _)
    isplitl [H0]; · iexact H0
    isplitl [H1]; · iexact H1
    isplitl [H2]; · iexact H2
    isplitl [Ha]; · iexact Ha
    isplitl [Hl]; · iexact Hl
    iintro ⟨H0, H1, H2, Ha, Hl⟩
    isplitl [Ha Hl Hrest Hr]
    · isplitl [Ha Hl]
      · iexists _; iexists _
        isplitl [Ha]; · iexact Ha
        isplitl [Hl]; · iexact Hl
        ipureintro; exact fun _ => ⟨rfl, rfl⟩
      isplitl [Hrest]; · iexact Hrest
      iexact Hr
    isplitl [Ho]; · iexact Ho
    isplitl [H0]; · iexact H0
    isplitl [H1]; · iexact H1
    iexists d2; iexact H2
  · have hf : ¬ isFirst0 (grid0.coords t) := fun h => h0 ((isFirst0_iff t).mp h)
    rw [accAt_next V c t h0]
    by_cases h1 : t.val % 977 = 976
    · -- the last point of a half: the sum goes to the output's buffer
      have hl : isLast0 (grid0.coords t) := (isLast0_iff t).mpr h1
      rw [show (dat0 V c).leavesExact 2 t = owns (c : Thread nD τ) (st0_2 t) fullShare (k0_pay4 (accAt V c (t.val + 1))) from by
        unfold Dat.leavesExact; rw [live0_2_of_last _ hl, after0_2], accAt_next V c t h0]
      iintro ⟨⟨⟨%a, %l, Ha, Hl, %hal⟩, Hrest, Hr⟩, Ho, ⟨%d0, H0⟩, ⟨%d1, H1⟩, ⟨%d2, H2⟩⟩
      obtain ⟨rfl, rfl⟩ := hal h0
      iapply (sound_kernel0_last c Set.univ (grid0.coords t) hf hl _ _ _ _ _ _ _ _ _ _ (iblk0 V c 0 t) (iblk0 V c 1 t)
        ((dat0 V c).before 2 t d2) (accAt V c t.val) k0_pay2 _)
      isplitl [H0]; · iexact H0
      isplitl [H1]; · iexact H1
      isplitl [H2]; · iexact H2
      isplitl [Ha]; · iexact Ha
      isplitl [Hl]; · iexact Hl
      iintro ⟨H0, H1, H2, Ha, Hl⟩
      isplitl [Ha Hl Hrest Hr]
      · isplitl [Ha Hl]
        · iexists _; iexists _
          isplitl [Ha]; · iexact Ha
          isplitl [Hl]; · iexact Hl
          ipureintro; exact fun _ => ⟨rfl, rfl⟩
        isplitl [Hrest]; · iexact Hrest
        iexact Hr
      isplitl [Ho]; · iexact Ho
      isplitl [H0]; · iexact H0
      isplitl [H1]; · iexact H1
      iexact H2
    · -- a point inside a half
      have hl : ¬ isLast0 (grid0.coords t) := fun h => h1 ((isLast0_iff t).mp h)
      rw [Dat.leavesExact_idle (dat0 V c) 2 t (idle0_2_of_not_last _ hl) (noFlush0_2 t h1)]
      iintro ⟨⟨⟨%a, %l, Ha, Hl, %hal⟩, Hrest, Hr⟩, Ho, ⟨%d0, H0⟩, ⟨%d1, H1⟩, ⟨%d2, H2⟩⟩
      obtain ⟨rfl, rfl⟩ := hal h0
      iapply (sound_kernel0_mid c Set.univ (grid0.coords t) hf hl _ _ _ _ _ _ _ _ _ _ (iblk0 V c 0 t) (iblk0 V c 1 t)
        ((dat0 V c).before 2 t d2) (accAt V c t.val) k0_pay2 _)
      isplitl [H0]; · iexact H0
      isplitl [H1]; · iexact H1
      isplitl [H2]; · iexact H2
      isplitl [Ha]; · iexact Ha
      isplitl [Hl]; · iexact Hl
      iintro ⟨H0, H1, H2, Ha, Hl⟩
      isplitl [Ha Hl Hrest Hr]
      · isplitl [Ha Hl]
        · iexists _; iexists _
          isplitl [Ha]; · iexact Ha
          isplitl [Hl]; · iexact Hl
          ipureintro; exact fun _ => ⟨rfl, rfl⟩
        isplitl [Hrest]; · iexact Hrest
        iexact Hr
      isplitl [Ho]; · iexact Ho
      isplitl [H0]; · iexact H0
      isplitl [H1]; · iexact H1
      iexists d2; iexact H2

/-- The body obligation of the pipeline's rule, at every point. -/
theorem body_obligation0 (c : Dev nD) : Pipeline.BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1 (the per-edge kernel, grid of 32 points, eight windows: seven inputs and one output), the FRAME half:
  what the body leaves in the output window's staging buffer as a closed function of the seven input blocks, the
  proof data of the pipeline over ANY contents `V` of the core's buffers at the region's entry, and the body
  obligation at every grid point.

  The mathematics. The body loads each input staging buffer whole, computes, and stores ONCE over the whole output
  staging buffer; so after the body the output buffer reads as the stored payload, a function of the loaded
  vectors alone, and every input buffer reads as it did. An input buffer holds its window's block at every point:
  at a point that fetches it, by the fetch; at a point that does not, the block index has not moved since the
  point before, the body left the buffer alone, and the earlier block is the present one.
-/
import proofs.«408049_j17463337026110_3_alg».proof.Proof.Gen.Kernel.Launch
import proofs.«408049_j17463337026110_3_alg».proof.Proof.Gen.Kernel.Skeleton
import proofs.«408049_j17463337026110_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- The contents of core `c`'s buffers when the region is entered: a parameter of everything below.
variable (V : (c : Dev nD) → (b : Ref sig .tc) → Buf (Elt F) ((c : Thread nD τ).loc b))

/-! ## The windows' blocks -/

/-- Window `w`'s block at point `t`: its array, as the region finds it, read through the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The whole-buffer rectangles of the body's accesses -/

/-- A list of zero offsets is the zero function. -/
theorem k1_off1_zero : (![0] : Fin 1 → Nat) = fun _ => 0 := by funext a; fin_cases a; rfl
theorem k1_off2_zero : (![0, 0] : Fin 2 → Nat) = fun _ => 0 := by funext a; fin_cases a <;> rfl

abbrev r1_S512 : Rect S512 := Rect.unit (s := S512) ![0] S512.size inb_S512_S512_0
abbrev r1_S2048x10 : Rect S2048x10 := Rect.unit (s := S2048x10) ![0, 0] S2048x10.size inb_S2048x10_S2048x10_0_0
abbrev r1_S4x128 : Rect S4x128 := Rect.unit (s := S4x128) ![0, 0] S4x128.size inb_S4x128_S4x128_0_0
abbrev r1_S128 : Rect S128 := Rect.unit (s := S128) ![0] S128.size inb_S128_S128_0
abbrev r1_S128x64 : Rect S128x64 := Rect.unit (s := S128x64) ![0, 0] S128x64.size inb_S128x64_S128x64_0_0
abbrev r1_S64 : Rect S64 := Rect.unit (s := S64) ![0] S64.size inb_S64_S64_0
abbrev r1_S512x64 : Rect S512x64 := Rect.unit (s := S512x64) ![0, 0] S512x64.size inb_S512x64_S512x64_0_0

/-! ## What the body leaves in the output window's buffer -/

/-- The output staging buffer after the body, from the seven input blocks: the one store, over the whole buffer, of
    the second matrix product plus bias, computed from the hidden layer the first part returns. Each input is read
    through the rectangle of its load, the whole buffer. -/
def out1_7 (x0 : Vec F S512 .i32) (x1 : Vec F S512 .i32) (x2 : Vec F S2048x10 .f32) (x3 : Vec F S4x128 .f32) (x4 : Vec F S128 .f32) (x5 : Vec F S128x64 .f32) (x6 : Vec F S64 .f32) : Vec F S512x64 .f32 :=
  View.canon [⟨r1_S512x64, k1_pay1 (k1_pay2 (View.ld x0 r1_S512) (View.ld x1 r1_S512) (View.ld x2 r1_S2048x10) (View.ld x3 r1_S4x128) (View.ld x4 r1_S128)) (View.ld x5 r1_S128x64) (View.ld x6 r1_S64)⟩]

/-- A load through the whole buffer reads the contents and the one store over the whole buffer leaves its payload:
    the output buffer holds the payload at the input blocks themselves. -/
theorem out1_7_eq (x0 : Vec F S512 .i32) (x1 : Vec F S512 .i32) (x2 : Vec F S2048x10 .f32) (x3 : Vec F S4x128 .f32) (x4 : Vec F S128 .f32) (x5 : Vec F S128x64 .f32) (x6 : Vec F S64 .f32) :
    out1_7 x0 x1 x2 x3 x4 x5 x6 = k1_pay1 (k1_pay2 x0 x1 x2 x3 x4) x5 x6 := by
  unfold out1_7
  rw [View.canon_unit_zero k1_off2_zero, View.ld_unit_zero k1_off1_zero, View.ld_unit_zero k1_off1_zero,
    View.ld_unit_zero k1_off2_zero, View.ld_unit_zero k1_off2_zero, View.ld_unit_zero k1_off1_zero,
    View.ld_unit_zero k1_off2_zero, View.ld_unit_zero k1_off1_zero]

/-- The one store covers the output buffer. -/
theorem cover1_7 (p : Vec F S512x64 .f32) (y : S512x64.Idx) :
    ∃ pc ∈ ([⟨r1_S512x64, p⟩] : List (View.Piece (Elt F) S512x64 .f32)), y ∈ pc.1.set :=
  ⟨_, List.mem_singleton_self _, View.mem_set_unit_zero k1_off2_zero inb_S512x64_S512x64_0_0 y⟩

/-! ## The body's triple -/

set_option maxHeartbeats 1000000 in
/-- The body on whole staging memrefs — each input's owned at read contents `xW`, the output's at anything — runs to
    the continuation with every input as it was and the output at `out1_7` of the inputs. -/
theorem sound_kernel1 (c : Dev nD) (E : Set ℕ) (i : grid1.Coords) (arg1 : Memref sig .tc .vmem S512 .i32) (harg1 : arg1.IsWhole) (arg2 : Memref sig .tc .vmem S512 .i32) (harg2 : arg2.IsWhole) (arg3 : Memref sig .tc .vmem S2048x10 .f32) (harg3 : arg3.IsWhole) (arg4 : Memref sig .tc .vmem S4x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x64 .f32) (harg8 : arg8.IsWhole)
    (x0 : Vec F S512 .i32) (x1 : Vec F S512 .i32) (x2 : Vec F S2048x10 .f32) (x3 : Vec F S4x128 .f32) (x4 : Vec F S128 .f32) (x5 : Vec F S128x64 .f32) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_edge_kernel i arg1 harg1 arg2 harg2 arg3 harg3 arg4 harg4 arg5 harg5 arg6 harg6 arg7 harg7 arg8 harg8) K := by
  simp only [cc1_edge_kernel_eq_skeleton]; unfold cc1_edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the pipeline on core `c`: the arrays as the region finds them; after the body at point `t`
    each input's buffer at its block and the output's at `out1_7` of the input blocks; the invariant the scoped rest
    and the generator register, untouched; nothing owed; full shares. -/
def dat1 (c : Dev nD) : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! ## Each input's buffer holds its block at every point -/

/-- Input window 0: fetched at the point or not, its current buffer holds the point's block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Input window 1: fetched at the point or not, its current buffer holds the point's block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
/-- Input window 2: fetched at the point or not, its current buffer holds the point's block. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
/-- Input window 3: fetched at the point or not, its current buffer holds the point's block. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
/-- Input window 4: fetched at the point or not, its current buffer holds the point's block. -/
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
/-- Input window 5: fetched at the point or not, its current buffer holds the point's block. -/
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
/-- Input window 6: fetched at the point or not, its current buffer holds the point's block. -/
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline's rule, at every point. -/
theorem body_obligation1 (c : Dev nD) : Pipeline.BodyObligation (dat1 (F := F) V c) (defs₀ (F := F)) Variants.none () Set.univ := fun t => by
  rw [bigSep_W1, bigSep_W1]
  exact sound_body1 V c t

end Cert.Kernel.Hand

end
-- ==== Proof.KFrame.lean ====
/-
  The kernel program's frame from its two regions' records.

  Between @main's items every unscoped buffer is held at a named valuation; the generator register and the
  core owing nothing ride along.  Region 0 is entered from the valuation after the four leading host stretches
  and leaves the per-half sums in its output array; region 1 is entered from the valuation after the table has
  been laid out and leaves the per-edge features.  Each region's arrays are split out of the unscoped buffers at
  its entry and put back at its exit at the valuation updated at the output array; region 0's two scratch
  buffers go into its invariant out of the scoped rest and come back to it at the end.
-/
import proofs.«408049_j17463337026110_3_alg».proof.Proof.Gen.Kernel.Regions
import proofs.«408049_j17463337026110_3_alg».proof.Proof.KRegion0
import proofs.«408049_j17463337026110_3_alg».proof.Proof.KRegion1
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions are entered from, and what they leave -/

/-- Region 0's entry contents, read at the TensorCore's references. -/
abbrev E0 (c : Dev nD) (b : Ref sig .tc) : Buf (Elt F) ((c : Thread nD τ).loc b) := V4 m c b

/-- What region 0 leaves in its output array. -/
def arr9 (c : Dev nD) : Buf (Elt F) ((c : Thread nD τ).loc main_v9) := (dat0 (E0 m) c).arrAt 2 cfg0.N

/-- The regions' results with only region 0's filled in. -/
def outsA : Outs (F := F) := fun _ r c => Function.update (V4 m c) main_v9 (arr9 m c) r

/-- Region 1's entry contents. -/
abbrev E1 (c : Dev nD) (b : Ref sig .tc) : Buf (Elt F) ((c : Thread nD τ).loc b) := V9 m (outsA m) c b

/-- What region 1 leaves in its output array. -/
def arr36 (c : Dev nD) : Buf (Elt F) ((c : Thread nD τ).loc main_v36) := (dat1 (E1 m) c).arrAt 7 cfg1.N

/-- The regions' results. -/
def outs : Outs (F := F) := fun _ r c =>
  Function.update (Function.update (V4 m c) main_v9 (arr9 m c)) main_v36 (arr36 m c) r

theorem outsA_v9 (c : Dev nD) : outsA m 5 main_v9 c = arr9 m c := by
  unfold outsA; exact Function.update_self ..

theorem outs_v9 (c : Dev nD) : outs m 5 main_v9 c = arr9 m c := by
  unfold outs
  rw [Function.update_of_ne (StableHlo.devRef_ne_of_ne (by decide) : (Proc.devRef .tc main_v9 : DevRef τ sig) ≠ Proc.devRef .tc main_v36)]
  exact Function.update_self ..

theorem outs_v36 (c : Dev nD) : outs m 10 main_v36 c = arr36 m c := by
  unfold outs; exact Function.update_self ..

theorem V5_outs (c : Dev nD) : V5 m (outs m) c = V5 m (outsA m) c := by
  show Function.update (V4 m c) main_v9 (outs m 5 main_v9 c) = Function.update (V4 m c) main_v9 (outsA m 5 main_v9 c)
  rw [outs_v9, outsA_v9]

theorem V9_outs (c : Dev nD) : V9 m (outs m) c = V9 m (outsA m) c := by
  show StableHlo.after hostOps1_3 (StableHlo.after hostOps1_2 (StableHlo.after hostOps1_1 (StableHlo.after hostOps1 (V5 m (outs m) c))))
    = StableHlo.after hostOps1_3 (StableHlo.after hostOps1_2 (StableHlo.after hostOps1_1 (StableHlo.after hostOps1 (V5 m (outsA m) c))))
  rw [V5_outs]

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev L0 : GSem nD τ sig → Finset Unit := fun _ => ∅
abbrev lv0 : GSem nD τ sig → Unit → ℕ := fun _ _ => 0

/-- Beside the buffers: the generator register at some state, the core owing nothing. -/
abbrev Rst (c : Dev nD) : sProp 𝕄 :=
  iprop((∃ r, prngReg c r) ∗ ∃ W, owes (c : Thread nD τ) (0 : CellTallies nD τ sig Unit) W)

/-! ## Region 0 -/

theorem scratch_mem0 : ([cc0_scratch0, cc0_scratch1] : List (Ref sig .tc)).Forall fun b =>
    b.isScoped = true ∧ ∀ (w : Fin 3) (s : Fin (spec0 w).nbuf), ((spec0 w).stage s).view.ref ≠ b := by decide

/-- The scoped rest as region 0's invariant wants it: the two scratch buffers, then everything else. -/
theorem scopedRest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ Pipeline.scopedRestBut (Ix := Unit) (Name := ℕ) (U := UR sig nD τ) (Lvl := ℕ) (Val := Elt F) spec0 c [cc0_scratch0, cc0_scratch1]) := by
  rw [Pipeline.scopedRest_split_of_list spec0 c [cc0_scratch0, cc0_scratch1] scratch_mem0 (by decide)]
  rfl

theorem hin0 (V : (c : Dev nD) → (b : Ref sig .tc) → Buf (Elt F) ((c : Thread nD τ).loc b)) (c : Dev nD) :
    iprop((∃ r, prngReg c r) ∗ Pipeline.scopedRest (Ix := Unit) (Name := ℕ) (U := UR sig nD τ) (Lvl := ℕ) (Val := Elt F) spec0 c)
      ⊢ (PhiR0 V c 0 : sProp 𝕄) := by
  rw [scopedRest0_split]; unfold PhiR0
  iintro ⟨Hp, ⟨⟨%f0, H0⟩, ⟨%f1, H1⟩⟩, Hb⟩
  isplitl [H0 H1]
  · iexists f0, f1
    rw [owns_whole, owns_whole]
    isplitl [H0]; · iexact H0
    isplitl [H1]; · iexact H1
    ipureintro; intro h; exact absurd rfl h
  isplitl [Hb]; · iexact Hb
  iexact Hp

theorem hout0 (V : (c : Dev nD) → (b : Ref sig .tc) → Buf (Elt F) ((c : Thread nD τ).loc b)) (c : Dev nD) (n : ℕ) :
    (PhiR0 V c n : sProp 𝕄)
      ⊢ iprop((∃ r, prngReg c r) ∗ Pipeline.scopedRest (Ix := Unit) (Name := ℕ) (U := UR sig nD τ) (Lvl := ℕ) (Val := Elt F) spec0 c) := by
  rw [scopedRest0_split]; unfold PhiR0
  simp only [owns_whole]
  iintro ⟨⟨%a, %i, H0, H1, -⟩, Hb, Hp⟩
  isplitl [Hp]; · iexact Hp
  isplitl [H0 H1]
  · isplitl [H0]; · iexists _; iexact H0
    iexists _; iexact H1
  iexact Hb

/-! ## What the regions' exits hand back -/

theorem hF0 (c : Dev nD) : ∀ w : Fin cfg0.W, (pdats m 0 c).arrAt w cfg0.N = V5 m (outs m) c (Pipeline.arrRef spec0 w)
  | ⟨0, _⟩ => ((pdats m 0 c).arrAt_in 0 rfl _).trans ((A_eq0 (E0 m) c 0).trans (V5_of m (outs m) c main_v7 (by decide)).symm)
  | ⟨1, _⟩ => ((pdats m 0 c).arrAt_in 1 rfl _).trans ((A_eq0 (E0 m) c 1).trans (V5_of m (outs m) c main_v8 (by decide)).symm)
  | ⟨2, _⟩ => by
    show arr9 m c = Function.update (V4 m c) main_v9 (outs m 5 main_v9 c) main_v9
    rw [Function.update_self, outs_v9]

theorem hrest0 (c : Dev nD) (b : Ref sig .tc) (hb : b ∉ Finset.univ.image (Pipeline.arrRef spec0)) :
    V5 m (outs m) c b = V4 m c b :=
  V5_of m (outs m) c b (by
    intro h
    have : b = main_v9 := by simpa using h
    exact hb (Finset.mem_image.mpr ⟨2, Finset.mem_univ _, this.symm⟩))

set_option maxHeartbeats 1000000 in
theorem hF1_0 (c : Dev nD) : (pdats m 1 c).arrAt 0 cfg1.N = V10 m (outs m) c main_v34 :=
  ((pdats m 1 c).arrAt_in 0 rfl _).trans ((A_eq1 (E1 m) c 0).trans ((congrFun (V9_outs m c) _).symm.trans (V10_of m (outs m) c main_v34 (by decide)).symm))
set_option maxHeartbeats 1000000 in
theorem hF1_1 (c : Dev nD) : (pdats m 1 c).arrAt 1 cfg1.N = V10 m (outs m) c main_v35 :=
  ((pdats m 1 c).arrAt_in 1 rfl _).trans ((A_eq1 (E1 m) c 1).trans ((congrFun (V9_outs m c) _).symm.trans (V10_of m (outs m) c main_v35 (by decide)).symm))
set_option maxHeartbeats 1000000 in
theorem hF1_2 (c : Dev nD) : (pdats m 1 c).arrAt 2 cfg1.N = V10 m (outs m) c main_v33 :=
  ((pdats m 1 c).arrAt_in 2 rfl _).trans ((A_eq1 (E1 m) c 2).trans ((congrFun (V9_outs m c) _).symm.trans (V10_of m (outs m) c main_v33 (by decide)).symm))
set_option maxHeartbeats 1000000 in
theorem hF1_3 (c : Dev nD) : (pdats m 1 c).arrAt 3 cfg1.N = V10 m (outs m) c main_arg3 :=
  ((pdats m 1 c).arrAt_in 3 rfl _).trans ((A_eq1 (E1 m) c 3).trans ((congrFun (V9_outs m c) _).symm.trans (V10_of m (outs m) c main_arg3 (by decide)).symm))
set_option maxHeartbeats 1000000 in
theorem hF1_4 (c : Dev nD) : (pdats m 1 c).arrAt 4 cfg1.N = V10 m (outs m) c main_arg4 :=
  ((pdats m 1 c).arrAt_in 4 rfl _).trans ((A_eq1 (E1 m) c 4).trans ((congrFun (V9_outs m c) _).symm.trans (V10_of m (outs m) c main_arg4 (by decide)).symm))
set_option maxHeartbeats 1000000 in
theorem hF1_5 (c : Dev nD) : (pdats m 1 c).arrAt 5 cfg1.N = V10 m (outs m) c main_arg5 :=
  ((pdats m 1 c).arrAt_in 5 rfl _).trans ((A_eq1 (E1 m) c 5).trans ((congrFun (V9_outs m c) _).symm.trans (V10_of m (outs m) c main_arg5 (by decide)).symm))
set_option maxHeartbeats 1000000 in
theorem hF1_6 (c : Dev nD) : (pdats m 1 c).arrAt 6 cfg1.N = V10 m (outs m) c main_arg6 :=
  ((pdats m 1 c).arrAt_in 6 rfl _).trans ((A_eq1 (E1 m) c 6).trans ((congrFun (V9_outs m c) _).symm.trans (V10_of m (outs m) c main_arg6 (by decide)).symm))
theorem hF1_7 (c : Dev nD) : (pdats m 1 c).arrAt 7 cfg1.N = V10 m (outs m) c main_v36 := by
  show arr36 m c = Function.update (V9 m (outs m) c) main_v36 (outs m 10 main_v36 c) main_v36
  rw [Function.update_self, outs_v36]

theorem hF1 (c : Dev nD) : ∀ w : Fin cfg1.W, (pdats m 1 c).arrAt w cfg1.N = V10 m (outs m) c (Pipeline.arrRef spec1 w)
  | ⟨0, _⟩ => hF1_0 m c | ⟨1, _⟩ => hF1_1 m c | ⟨2, _⟩ => hF1_2 m c | ⟨3, _⟩ => hF1_3 m c
  | ⟨4, _⟩ => hF1_4 m c | ⟨5, _⟩ => hF1_5 m c | ⟨6, _⟩ => hF1_6 m c | ⟨7, _⟩ => hF1_7 m c

theorem hrest1 (c : Dev nD) (b : Ref sig .tc) (hb : b ∉ Finset.univ.image (Pipeline.arrRef spec1)) :
    V10 m (outs m) c b = V9 m (outs m) c b :=
  V10_of m (outs m) c b (by
    intro h
    have : b = main_v36 := by simpa using h
    exact hb (Finset.mem_image.mpr ⟨7, Finset.mem_univ _, this.symm⟩))

theorem hA1 (c : Dev nD) (w : Fin cfg1.W) : (pdats m 1 c).A w = V9 m (outs m) c (Pipeline.arrRef spec1 w) :=
  (A_eq1 (E1 m) c w).trans (congrFun (V9_outs m c) _).symm

/-! ## The regions as segments -/

set_option backward.isDefEq.respectTransparency.types false in
/-- Region 0 over the thread state: entered with every unscoped buffer at the contents after the leading host
    stretches, left with the output array replaced by the per-half sums. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L0 lv0 0 fun _ _ => rfl
  pre c := iprop(StableHlo.held (c : Thread nD τ) (Pipeline.ucRefs τ sig) (V4 m c) ∗ Rst c)
  post c := iprop(StableHlo.held (c : Thread nD τ) (Pipeline.ucRefs τ sig) (V5 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiR0 (E0 m) c 0 from rfl]
    iintro ⟨Hp, -, Hr⟩
    iapply (hin0 (E0 m) c)
    isplitl [Hp]; · iexact Hp
    iexact Hr
  hout c := by
    rw [Pipeline.ownSems0_none, show (pdats m 0 c).Φ (Fin.last _) = PhiR0 (E0 m) c cfg0.N from rfl]
    iintro H
    ihave H' := (hout0 (E0 m) c cfg0.N) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents after the table has been
    laid out, left with the output array replaced by the per-edge features. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L0 lv0 1 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V9 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V9 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V9 m (outs m) c b) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: what every core starts with, and what the last item must give back -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L0 lv0)
      ⊢ (|={Set.univ}=> bigSep Finset.univ (fun c : Dev nD => Rst (F := F) c) : sProp 𝕄) := by
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => Rst (F := F) c) : sProp 𝕄) :=
    bigSep_mono fun c _ => by
      show (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ (Rst (F := F) c : sProp 𝕄)
      iintro ⟨-, HO, -, Hp, -⟩
      isplitl [Hp]; · iexists _; iexact Hp
      iexists ∅; iexact HO
  iintro ⟨H, -⟩
  imodintro
  iapply h1
  iexact H

/-! ## The frame -/

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m emb₁ () Variants.none L0 lv0 (fun _ _ => rfl) ρ (outs m) (pdats m) (fun _ => 0) (fun _ => BI.emp)
    (initOf (Pipeline.cells cfgs cellOf_inj) (Pipeline.launchToks cfgs cellOf_inj)) (hu₀ (F := F))
    (fun _ c => Rst c) (hE0 ρ) (fun c => by iintro ⟨-, H⟩; iexact H)
    (reg0 m) (fun c => .rfl) (fun c => .rfl) (reg1 m) (fun c => .rfl) (fun c => .rfl)

end Cert.Kernel.Hand

end
-- ==== Proof.KIRegion0Defs.lean ====
/-
  Region 0 (the per-cluster sums): what the region's proof is stated over.

  The grid has 2 x 977 points, point n = h * 977 + t.  At t = 0 the body clears the accumulator scratch and
  stores the lane-index table into the second scratch; at every point it adds to the accumulator the product of
  the transposed 1024 x 5 block of voxel rows with the 1024 x 2048 one-hot table of the block's cluster ids
  (an id equal to the lane index); at t = 976 it copies the accumulator into the output block h.
  `accAt n` is the accumulator after the points below n, by recursion on the point.
-/
import proofs.«408049_j17463337026110_3_alg».proof.Proof.Gen.KernelIdeal.Launch
import proofs.«408049_j17463337026110_3_alg».proof.Proof.Gen.KernelIdeal.Skeleton
import proofs.«408049_j17463337026110_3_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

-- the buffers' contents when the region is entered: a parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the points below `n`: a point whose second coordinate is zero starts from the cleared
    accumulator, every other from what the point before left; each adds its block's product. -/
def accAt (c : Dev nD) : ℕ → Vec F S5x2048 .f32
  | 0 => k0_pay1
  | n + 1 =>
    if h : n < cfg0.N then
      k0_pay3 (iblk0 V c 0 ⟨n, h⟩) (iblk0 V c 1 ⟨n, h⟩) k0_pay2 (if n % 977 = 0 then k0_pay1 else accAt c n)
    else accAt c n

/-- Between the points: the two scratch buffers — after any point but one that ends a half's run of 977 the
    accumulator at `accAt` and the lane-index table —, the other scoped buffers at anything, the generator register. -/
def PhiR0 (c : Dev nD) (n : ℕ) : sProp 𝕄 :=
  iprop((∃ (a : Vec F S5x2048 .f32) (i : Vec F S1024x2048 .i32),
            owns (c : Thread nD τ) (Memref.whole cc0_scratch0) fullShare a
          ∗ owns (c : Thread nD τ) (Memref.whole cc0_scratch1) fullShare i
          ∗ ⌜n % 977 ≠ 0 → a = accAt V c n ∧ i = k0_pay2⌝)
      ∗ Pipeline.scopedRestBut (Ix := Unit) (Name := ℕ) (U := UR sig nD τ) (Lvl := ℕ) (Val := Elt F) spec0 c [cc0_scratch0, cc0_scratch1]
      ∗ ∃ r, prngReg c r)

/-- The proof data of pipeline 0 on core `c`: the arrays as the region finds them; after the body each input's
    buffer at its block, the output's at the accumulator just computed (consulted only at the points that write
    the block back: elsewhere the body leaves the output's buffer as it found it); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (accAt V c (t.val + 1))
  Φ t := PhiR0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (accAt V c (t.val + 1)) := by dsimp only [dat0]
theorem Phi0_eq (c : Dev nD) (t : Fin (cfg0.N + 1)) : (dat0 V c).Φ t = PhiR0 V c t.val := rfl

theorem accAt_succ (c : Dev nD) (n : ℕ) (h : n < cfg0.N) :
    accAt V c (n + 1) = k0_pay3 (iblk0 V c 0 ⟨n, h⟩) (iblk0 V c 1 ⟨n, h⟩) k0_pay2 (if n % 977 = 0 then k0_pay1 else accAt V c n) := by
  rw [accAt, dif_pos h]

end Cert.KernelIdeal.Hand

end
-- ==== Proof.KIRegion0.lean ====
/-
  Region 0 (the per-cluster sums), the body obligation of its pipeline at every grid point.

  The mathematics. The grid has 2 x 977 points, point n = h * 977 + s; the body branches twice on s. At s = 0 it
  clears the accumulator scratch and stores the lane-index table into the second scratch, whatever they held; at
  every point it loads the two input blocks, the lane table and the accumulator and stores back the accumulator
  plus the product of the transposed block of voxel rows with the one-hot table of the block's cluster ids; at
  s = 976 it reads the accumulator once more and stores it, reshaped, over the whole output buffer. Every load and
  every store is through the rectangle of the whole buffer, so a load reads the contents and a store leaves its
  payload. Hence three cases by n mod 977: at residue 0 the accumulator after the point is the product added to
  the cleared accumulator; at any other residue the scratches hold the accumulator of the points below and the
  lane table (the invariant between the points), and the accumulator after the point is the product added to it;
  in both that is the recursion `accAt` one point on. The output's buffer is left as found except at residue 976,
  the only points that write its block back, where it holds the reshaped accumulator. The inputs are fetched at
  every point, so their buffers hold the point's blocks, and the body leaves them alone.
-/
import proofs.«408049_j17463337026110_3_alg».proof.Proof.KIRegion0Defs
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- the buffers' contents when the region is entered: a parameter
variable (V : (c : Dev nD) → (b : Ref sig .tc) → Buf (Elt F) ((c : Thread nD τ).loc b))

/-! ## The two conditionals of the body, decided over the grid -/

/-- The first conditional of the body, as the program spells it: the second grid coordinate is zero. -/
abbrev isFirst0 (i : grid0.Coords) : Prop :=
  (Scalar.cmpi .ne (Scalar.extui (Scalar.cmpi .eq (BitVec.ofNat 32 (i 1).val) 0#32)) 0#32) = 1#1
/-- The second: the second grid coordinate is 976, the last of its axis. -/
abbrev isLast0 (i : grid0.Coords) : Prop := k0_cond2 i = 1#1

/-- Point `n = h * 977 + s` has second coordinate `s`: the first conditional holds at the points ≡ 0 (mod 977), -/
theorem isFirst0_iff : ∀ t : Fin cfg0.N, isFirst0 (grid0.coords t) ↔ t.val % 977 = 0 :=
  (by decide +kernel : ∀ t : Fin grid0.N, isFirst0 (grid0.coords t) ↔ t.val % 977 = 0)
/-- the second at the points ≡ 976. -/
theorem isLast0_iff : ∀ t : Fin cfg0.N, isLast0 (grid0.coords t) ↔ t.val % 977 = 976 :=
  (by decide +kernel : ∀ t : Fin grid0.N, isLast0 (grid0.coords t) ↔ t.val % 977 = 976)

/-- The output window is idle exactly where the second conditional fails (the configuration's table says so). -/
theorem idle0_2_of_not_last (i : grid0.Coords) (h : ¬ isLast0 i) : cfg0.idle 2 i = true := by
  show (!(k0_cond2 i == 1#1)) = true
  rw [Bool.not_eq_true', beq_eq_false_iff_ne]; exact h
theorem live0_2_of_last (i : grid0.Coords) (h : isLast0 i) : cfg0.idle 2 i = false := by
  show (!(k0_cond2 i == 1#1)) = false
  rw [Bool.not_eq_false', beq_iff_eq]; exact h
/-- The inputs are never idle. -/
theorem live0_0 (i : grid0.Coords) : cfg0.idle 0 i = false := rfl
theorem live0_1 (i : grid0.Coords) : cfg0.idle 1 i = false := rfl

/-! ## Whole-buffer loads and stores -/

theorem r0_off1_zero : (![0] : Fin 1 → Nat) = fun _ => 0 := by funext a; fin_cases a; rfl
theorem r0_off2_zero : (![0, 0] : Fin 2 → Nat) = fun _ => 0 := by funext a; fin_cases a <;> rfl
theorem r0_off3_zero : (![0, 0, 0] : Fin 3 → Nat) = fun _ => 0 := by funext a; fin_cases a <;> rfl

section Whole
variable {κ : Kind} {sp : Space} {S : Shape} {e : EltTy}

/-- A load through the rectangle of the whole shape reads the buffer as the view reads it. -/
theorem r0_load_whole (v : View sig κ sp S e) (f : v.ty.Contents (Elt F)) {off : Fin S.rank → Nat} (hz : off = fun _ => 0)
    (inb : ∀ a, off a + S.size a ≤ S.size a) :
    v.readAt (Elt F) (Rect.unit off S.size inb).toLoadRect f = v.read (Elt F) f :=
  (View.readAt_eq_ld v f (Rect.unit off S.size inb)).trans (View.ld_unit_zero hz inb _)

/-- After stores of which the last is over the whole shape the buffer reads as that store's payload. -/
theorem r0_read_stores (v : View sig κ sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

/-! ## The body's triple, case by case -/

set_option maxHeartbeats 1000000 in
/-- At a point whose second coordinate is neither zero nor the last: the body adds the block's product to the
    accumulator it finds, and leaves the lane table, the inputs and the output's buffer as they were. -/
theorem sound_kernel0_mid (c : Dev nD) (E : Set ℕ) (i : grid0.Coords) (hf : ¬ isFirst0 i) (hl : ¬ isLast0 i)
    (arg2 : Memref sig .tc .vmem S1024x5 .f32) (harg2 : arg2.IsWhole) (arg3 : Memref sig .tc .vmem S1024 .i32) (harg3 : arg3.IsWhole)
    (arg4 : Memref sig .tc .vmem S1x5x2048 .f32) (harg4 : arg4.IsWhole) (arg5 : Memref sig .tc .vmem S5x2048 .f32) (harg5 : arg5.IsWhole)
    (arg6 : Memref sig .tc .vmem S1024x2048 .i32) (harg6 : arg6.IsWhole)
    (x0 : Vec F S1024x5 .f32) (x1 : Vec F S1024 .i32) (xo : Vec F S1x5x2048 .f32) (a : Vec F S5x2048 .f32) (l : Vec F S1024x2048 .i32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare a ∗ owns (c : Thread nD τ) arg6 fullShare l
        ∗ (iprop(owns (c : Thread nD τ) arg2 fullShare x0 ∗ owns (c : Thread nD τ) arg3 fullShare x1 ∗ owns (c : Thread nD τ) arg4 fullShare xo
            ∗ owns (c : Thread nD τ) arg5 fullShare (k0_pay3 x0 x1 l a) ∗ owns (c : Thread nD τ) arg6 fullShare l) -∗ K ⟨⟩))
      ⊢ wp frame (wpE (defs₀ (F := F)) Variants.none c none) E (cc0_seg_sum_kernel i arg2 harg2 arg3 harg3 arg4 harg4 arg5 harg5 arg6 harg6) K := by
  simp only [cc0_seg_sum_kernel_eq_skeleton]; unfold cc0_seg_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [r0_read_stores _ _ r0_off2_zero, r0_load_whole _ _ r0_off2_zero, r0_load_whole _ _ r0_off1_zero,
      r0_load_whole _ _ r0_off2_zero, r0_load_whole _ _ r0_off2_zero]
  iexists f4; isplitr; · ipureintro; rfl
  iexact H4

set_option maxHeartbeats 1000000 in
/-- At a point whose second coordinate is zero (and not the last): whatever the two scratch buffers held, the body
    clears the accumulator and stores the lane table, then adds the block's product to the cleared accumulator. -/
theorem sound_kernel0_first (c : Dev nD) (E : Set ℕ) (i : grid0.Coords) (hf : isFirst0 i) (hl : ¬ isLast0 i)
    (arg2 : Memref sig .tc .vmem S1024x5 .f32) (harg2 : arg2.IsWhole) (arg3 : Memref sig .tc .vmem S1024 .i32) (harg3 : arg3.IsWhole)
    (arg4 : Memref sig .tc .vmem S1x5x2048 .f32) (harg4 : arg4.IsWhole) (arg5 : Memref sig .tc .vmem S5x2048 .f32) (harg5 : arg5.IsWhole)
    (arg6 : Memref sig .tc .vmem S1024x2048 .i32) (harg6 : arg6.IsWhole)
    (x0 : Vec F S1024x5 .f32) (x1 : Vec F S1024 .i32) (xo : Vec F S1x5x2048 .f32) (a : Vec F S5x2048 .f32) (l : Vec F S1024x2048 .i32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare a ∗ owns (c : Thread nD τ) arg6 fullShare l
        ∗ (iprop(owns (c : Thread nD τ) arg2 fullShare x0 ∗ owns (c : Thread nD τ) arg3 fullShare x1 ∗ owns (c : Thread nD τ) arg4 fullShare xo
            ∗ owns (c : Thread nD τ) arg5 fullShare (k0_pay3 x0 x1 k0_pay2 k0_pay1) ∗ owns (c : Thread nD τ) arg6 fullShare k0_pay2) -∗ K ⟨⟩))
      ⊢ wp frame (wpE (defs₀ (F := F)) Variants.none c none) E (cc0_seg_sum_kernel i arg2 harg2 arg3 harg3 arg4 harg4 arg5 harg5 arg6 harg6) K := by
  simp only [cc0_seg_sum_kernel_eq_skeleton]; unfold cc0_seg_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [r0_read_stores _ _ r0_off2_zero, r0_load_whole _ _ r0_off2_zero, r0_load_whole _ _ r0_off1_zero,
      View.readCov_unit_zero _ r0_off2_zero, View.readCov_unit_zero _ r0_off2_zero]
  iexists _; isplitr
  swap; · iexact H4
  ipureintro
  sl_unfold_words
  rw [r0_read_stores _ _ r0_off2_zero]

set_option maxHeartbeats 1000000 in
/-- At a point whose second coordinate is the last (and not zero): the body adds the block's product to the
    accumulator it finds and copies the sum into the output's buffer. -/
theorem sound_kernel0_last (c : Dev nD) (E : Set ℕ) (i : grid0.Coords) (hf : ¬ isFirst0 i) (hl : isLast0 i)
    (arg2 : Memref sig .tc .vmem S1024x5 .f32) (harg2 : arg2.IsWhole) (arg3 : Memref sig .tc .vmem S1024 .i32) (harg3 : arg3.IsWhole)
    (arg4 : Memref sig .tc .vmem S1x5x2048 .f32) (harg4 : arg4.IsWhole) (arg5 : Memref sig .tc .vmem S5x2048 .f32) (harg5 : arg5.IsWhole)
    (arg6 : Memref sig .tc .vmem S1024x2048 .i32) (harg6 : arg6.IsWhole)
    (x0 : Vec F S1024x5 .f32) (x1 : Vec F S1024 .i32) (xo : Vec F S1x5x2048 .f32) (a : Vec F S5x2048 .f32) (l : Vec F S1024x2048 .i32)
    (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare a ∗ owns (c : Thread nD τ) arg6 fullShare l
        ∗ (iprop(owns (c : Thread nD τ) arg2 fullShare x0 ∗ owns (c : Thread nD τ) arg3 fullShare x1 ∗ owns (c : Thread nD τ) arg4 fullShare (k0_pay4 (k0_pay3 x0 x1 l a))
            ∗ owns (c : Thread nD τ) arg5 fullShare (k0_pay3 x0 x1 l a) ∗ owns (c : Thread nD τ) arg6 fullShare l) -∗ K ⟨⟩))
      ⊢ wp frame (wpE (defs₀ (F := F)) Variants.none c none) E (cc0_seg_sum_kernel i arg2 harg2 arg3 harg3 arg4 harg4 arg5 harg5 arg6 harg6) K := by
  simp only [cc0_seg_sum_kernel_eq_skeleton]; unfold cc0_seg_sum_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [r0_read_stores _ _ r0_off3_zero, View.readCov_unit_zero _ r0_off2_zero, r0_load_whole _ _ r0_off2_zero,
      r0_load_whole _ _ r0_off1_zero, r0_load_whole _ _ r0_off2_zero, r0_load_whole _ _ r0_off2_zero]
  isplitl [H3]
  · iexists _; isplitr
    swap; · iexact H3
    ipureintro
    sl_unfold_words
    rw [r0_read_stores _ _ r0_off2_zero, r0_load_whole _ _ r0_off2_zero, r0_load_whole _ _ r0_off1_zero,
      r0_load_whole _ _ r0_off2_zero, r0_load_whole _ _ r0_off2_zero]
  iexists f4; isplitr; · ipureintro; rfl
  iexact H4

/-! ## What the body finds in the inputs' buffers, and the accumulator one point on -/

/-- Input window 0 is fetched at every point: its current buffer holds the point's block. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
/-- Input window 1 likewise. -/
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-- After a point whose second coordinate is zero the accumulator is the block's product added to the cleared one; -/
theorem accAt_first (c : Dev nD) (t : Fin cfg0.N) (h : t.val % 977 = 0) :
    accAt V c (t.val + 1) = k0_pay3 (iblk0 V c 0 t) (iblk0 V c 1 t) k0_pay2 k0_pay1 := by
  rw [accAt_succ V c t.val t.isLt, if_pos h]
/-- after any other, added to what the point before left. -/
theorem accAt_next (c : Dev nD) (t : Fin cfg0.N) (h : t.val % 977 ≠ 0) :
    accAt V c (t.val + 1) = k0_pay3 (iblk0 V c 0 t) (iblk0 V c 1 t) k0_pay2 (accAt V c t.val) := by
  rw [accAt_succ V c t.val t.isLt, if_neg h]

/-- The output's block is written back only at the points ≡ 976 (mod 977). -/
theorem noFlush0_2 (t : Fin cfg0.N) (h : t.val % 977 ≠ 976) : (cfg0.win 2).flush t = false :=
  Bool.eq_false_iff.mpr fun hfl => h ((flush0_2 t).mp hfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each window's buffer at what the body leaves there — the output's, at a point that stores
    nothing into it, as it was found. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 1000000 in
/-- The body at any point, by the residue of the point modulo 977. At residue 0 the scratch buffers hold anything and
    the body resets them; at the others they hold the accumulator of the points below and the lane table. In every
    case the accumulator the body leaves is the next point's; at residue 976 the output's buffer takes its copy. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.castSucc = PhiR0 V c t.val from rfl, show (dat0 V c).Φ t.succ = PhiR0 V c (t.val + 1) from rfl,
    show (dat0 V c).leavesExact 0 t = owns (c : Thread nD τ) (st0_0 t) fullShare (iblk0 V c 0 t) from by
      unfold Dat.leavesExact; rw [live0_0, after0_0],
    show (dat0 V c).leavesExact 1 t = owns (c : Thread nD τ) (st0_1 t) fullShare (iblk0 V c 1 t) from by
      unfold Dat.leavesExact; rw [live0_1, after0_1]]
  unfold PhiR0
  by_cases h0 : t.val % 977 = 0
  · -- the first point of a half: reset
    have hf : isFirst0 (grid0.coords t) := (isFirst0_iff t).mpr h0
    have hl : ¬ isLast0 (grid0.coords t) := fun h => by have := (isLast0_iff t).mp h; omega
    rw [Dat.leavesExact_idle (dat0 V c) 2 t (idle0_2_of_not_last _ hl) (noFlush0_2 t (by omega)), accAt_first V c t h0]
    iintro ⟨⟨⟨%a, %l, Ha, Hl, %hal⟩, Hrest, Hr⟩, Ho, ⟨%d0, H0⟩, ⟨%d1, H1⟩, ⟨%d2, H2⟩⟩
    iapply (sound_kernel0_first c Set.univ (grid0.coords t) hf hl _ _ _ _ _ _ _ _ _ _ (iblk0 V c 0 t) (iblk0 V c 1 t)
      ((dat0 V c).before 2 t d2) a l _)
    isplitl [H0]; · iexact H0
    isplitl [H1]; · iexact H1
    isplitl [H2]; · iexact H2
    isplitl [Ha]; · iexact Ha
    isplitl [Hl]; · iexact Hl
    iintro ⟨H0, H1, H2, Ha, Hl⟩
    isplitl [Ha Hl Hrest Hr]
    · isplitl [Ha Hl]
      · iexists _; iexists _
        isplitl [Ha]; · iexact Ha
        isplitl [Hl]; · iexact Hl
        ipureintro; exact fun _ => ⟨rfl, rfl⟩
      isplitl [Hrest]; · iexact Hrest
      iexact Hr
    isplitl [Ho]; · iexact Ho
    isplitl [H0]; · iexact H0
    isplitl [H1]; · iexact H1
    iexists d2; iexact H2
  · have hf : ¬ isFirst0 (grid0.coords t) := fun h => h0 ((isFirst0_iff t).mp h)
    rw [accAt_next V c t h0]
    by_cases h1 : t.val % 977 = 976
    · -- the last point of a half: the sum goes to the output's buffer
      have hl : isLast0 (grid0.coords t) := (isLast0_iff t).mpr h1
      rw [show (dat0 V c).leavesExact 2 t = owns (c : Thread nD τ) (st0_2 t) fullShare (k0_pay4 (accAt V c (t.val + 1))) from by
        unfold Dat.leavesExact; rw [live0_2_of_last _ hl, after0_2], accAt_next V c t h0]
      iintro ⟨⟨⟨%a, %l, Ha, Hl, %hal⟩, Hrest, Hr⟩, Ho, ⟨%d0, H0⟩, ⟨%d1, H1⟩, ⟨%d2, H2⟩⟩
      obtain ⟨rfl, rfl⟩ := hal h0
      iapply (sound_kernel0_last c Set.univ (grid0.coords t) hf hl _ _ _ _ _ _ _ _ _ _ (iblk0 V c 0 t) (iblk0 V c 1 t)
        ((dat0 V c).before 2 t d2) (accAt V c t.val) k0_pay2 _)
      isplitl [H0]; · iexact H0
      isplitl [H1]; · iexact H1
      isplitl [H2]; · iexact H2
      isplitl [Ha]; · iexact Ha
      isplitl [Hl]; · iexact Hl
      iintro ⟨H0, H1, H2, Ha, Hl⟩
      isplitl [Ha Hl Hrest Hr]
      · isplitl [Ha Hl]
        · iexists _; iexists _
          isplitl [Ha]; · iexact Ha
          isplitl [Hl]; · iexact Hl
          ipureintro; exact fun _ => ⟨rfl, rfl⟩
        isplitl [Hrest]; · iexact Hrest
        iexact Hr
      isplitl [Ho]; · iexact Ho
      isplitl [H0]; · iexact H0
      isplitl [H1]; · iexact H1
      iexact H2
    · -- a point inside a half
      have hl : ¬ isLast0 (grid0.coords t) := fun h => h1 ((isLast0_iff t).mp h)
      rw [Dat.leavesExact_idle (dat0 V c) 2 t (idle0_2_of_not_last _ hl) (noFlush0_2 t h1)]
      iintro ⟨⟨⟨%a, %l, Ha, Hl, %hal⟩, Hrest, Hr⟩, Ho, ⟨%d0, H0⟩, ⟨%d1, H1⟩, ⟨%d2, H2⟩⟩
      obtain ⟨rfl, rfl⟩ := hal h0
      iapply (sound_kernel0_mid c Set.univ (grid0.coords t) hf hl _ _ _ _ _ _ _ _ _ _ (iblk0 V c 0 t) (iblk0 V c 1 t)
        ((dat0 V c).before 2 t d2) (accAt V c t.val) k0_pay2 _)
      isplitl [H0]; · iexact H0
      isplitl [H1]; · iexact H1
      isplitl [H2]; · iexact H2
      isplitl [Ha]; · iexact Ha
      isplitl [Hl]; · iexact Hl
      iintro ⟨H0, H1, H2, Ha, Hl⟩
      isplitl [Ha Hl Hrest Hr]
      · isplitl [Ha Hl]
        · iexists _; iexists _
          isplitl [Ha]; · iexact Ha
          isplitl [Hl]; · iexact Hl
          ipureintro; exact fun _ => ⟨rfl, rfl⟩
        isplitl [Hrest]; · iexact Hrest
        iexact Hr
      isplitl [Ho]; · iexact Ho
      isplitl [H0]; · iexact H0
      isplitl [H1]; · iexact H1
      iexists d2; iexact H2

/-- The body obligation of the pipeline's rule, at every point. -/
theorem body_obligation0 (c : Dev nD) : Pipeline.BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  Region 1 (the per-edge kernel, grid of 32 points, eight windows: seven inputs and one output), the FRAME half:
  what the body leaves in the output window's staging buffer as a closed function of the seven input blocks, the
  proof data of the pipeline over ANY contents `V` of the core's buffers at the region's entry, and the body
  obligation at every grid point.

  The mathematics. The body loads each input staging buffer whole, computes, and stores ONCE over the whole output
  staging buffer; so after the body the output buffer reads as the stored payload, a function of the loaded
  vectors alone, and every input buffer reads as it did. An input buffer holds its window's block at every point:
  at a point that fetches it, by the fetch; at a point that does not, the block index has not moved since the
  point before, the body left the buffer alone, and the earlier block is the present one.
-/
import proofs.«408049_j17463337026110_3_alg».proof.Proof.Gen.KernelIdeal.Launch
import proofs.«408049_j17463337026110_3_alg».proof.Proof.Gen.KernelIdeal.Skeleton
import proofs.«408049_j17463337026110_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

-- The contents of core `c`'s buffers when the region is entered: a parameter of everything below.
variable (V : (c : Dev nD) → (b : Ref sig .tc) → Buf (Elt F) ((c : Thread nD τ).loc b))

/-! ## The windows' blocks -/

/-- Window `w`'s block at point `t`: its array, as the region finds it, read through the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The whole-buffer rectangles of the body's accesses -/

/-- A list of zero offsets is the zero function. -/
theorem k1_off1_zero : (![0] : Fin 1 → Nat) = fun _ => 0 := by funext a; fin_cases a; rfl
theorem k1_off2_zero : (![0, 0] : Fin 2 → Nat) = fun _ => 0 := by funext a; fin_cases a <;> rfl

abbrev r1_S512 : Rect S512 := Rect.unit (s := S512) ![0] S512.size inb_S512_S512_0
abbrev r1_S2048x10 : Rect S2048x10 := Rect.unit (s := S2048x10) ![0, 0] S2048x10.size inb_S2048x10_S2048x10_0_0
abbrev r1_S4x128 : Rect S4x128 := Rect.unit (s := S4x128) ![0, 0] S4x128.size inb_S4x128_S4x128_0_0
abbrev r1_S128 : Rect S128 := Rect.unit (s := S128) ![0] S128.size inb_S128_S128_0
abbrev r1_S128x64 : Rect S128x64 := Rect.unit (s := S128x64) ![0, 0] S128x64.size inb_S128x64_S128x64_0_0
abbrev r1_S64 : Rect S64 := Rect.unit (s := S64) ![0] S64.size inb_S64_S64_0
abbrev r1_S512x64 : Rect S512x64 := Rect.unit (s := S512x64) ![0, 0] S512x64.size inb_S512x64_S512x64_0_0

/-! ## What the body leaves in the output window's buffer -/

/-- The output staging buffer after the body, from the seven input blocks: the one store, over the whole buffer, of
    the second matrix product plus bias, computed from the hidden layer the first part returns. Each input is read
    through the rectangle of its load, the whole buffer. -/
def out1_7 (x0 : Vec F S512 .i32) (x1 : Vec F S512 .i32) (x2 : Vec F S2048x10 .f32) (x3 : Vec F S4x128 .f32) (x4 : Vec F S128 .f32) (x5 : Vec F S128x64 .f32) (x6 : Vec F S64 .f32) : Vec F S512x64 .f32 :=
  View.canon [⟨r1_S512x64, k1_pay1 (k1_pay2 (View.ld x0 r1_S512) (View.ld x1 r1_S512) (View.ld x2 r1_S2048x10) (View.ld x3 r1_S4x128) (View.ld x4 r1_S128)) (View.ld x5 r1_S128x64) (View.ld x6 r1_S64)⟩]

/-- A load through the whole buffer reads the contents and the one store over the whole buffer leaves its payload:
    the output buffer holds the payload at the input blocks themselves. -/
theorem out1_7_eq (x0 : Vec F S512 .i32) (x1 : Vec F S512 .i32) (x2 : Vec F S2048x10 .f32) (x3 : Vec F S4x128 .f32) (x4 : Vec F S128 .f32) (x5 : Vec F S128x64 .f32) (x6 : Vec F S64 .f32) :
    out1_7 x0 x1 x2 x3 x4 x5 x6 = k1_pay1 (k1_pay2 x0 x1 x2 x3 x4) x5 x6 := by
  unfold out1_7
  rw [View.canon_unit_zero k1_off2_zero, View.ld_unit_zero k1_off1_zero, View.ld_unit_zero k1_off1_zero,
    View.ld_unit_zero k1_off2_zero, View.ld_unit_zero k1_off2_zero, View.ld_unit_zero k1_off1_zero,
    View.ld_unit_zero k1_off2_zero, View.ld_unit_zero k1_off1_zero]

/-- The one store covers the output buffer. -/
theorem cover1_7 (p : Vec F S512x64 .f32) (y : S512x64.Idx) :
    ∃ pc ∈ ([⟨r1_S512x64, p⟩] : List (View.Piece (Elt F) S512x64 .f32)), y ∈ pc.1.set :=
  ⟨_, List.mem_singleton_self _, View.mem_set_unit_zero k1_off2_zero inb_S512x64_S512x64_0_0 y⟩

/-! ## The body's triple -/

set_option maxHeartbeats 1000000 in
/-- The body on whole staging memrefs — each input's owned at read contents `xW`, the output's at anything — runs to
    the continuation with every input as it was and the output at `out1_7` of the inputs. -/
theorem sound_kernel1 (c : Dev nD) (E : Set ℕ) (i : grid1.Coords) (arg1 : Memref sig .tc .vmem S512 .i32) (harg1 : arg1.IsWhole) (arg2 : Memref sig .tc .vmem S512 .i32) (harg2 : arg2.IsWhole) (arg3 : Memref sig .tc .vmem S2048x10 .f32) (harg3 : arg3.IsWhole) (arg4 : Memref sig .tc .vmem S4x128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S512x64 .f32) (harg8 : arg8.IsWhole)
    (x0 : Vec F S512 .i32) (x1 : Vec F S512 .i32) (x2 : Vec F S2048x10 .f32) (x3 : Vec F S4x128 .f32) (x4 : Vec F S128 .f32) (x5 : Vec F S128x64 .f32) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1_edge_kernel i arg1 harg1 arg2 harg2 arg3 harg3 arg4 harg4 arg5 harg5 arg6 harg6 arg7 harg7 arg8 harg8) K := by
  simp only [cc1_edge_kernel_eq_skeleton]; unfold cc1_edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the pipeline on core `c`: the arrays as the region finds them; after the body at point `t`
    each input's buffer at its block and the output's at `out1_7` of the input blocks; the invariant the scoped rest
    and the generator register, untouched; nothing owed; full shares. -/
def dat1 (c : Dev nD) : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! ## Each input's buffer holds its block at every point -/

/-- Input window 0: fetched at the point or not, its current buffer holds the point's block. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Input window 1: fetched at the point or not, its current buffer holds the point's block. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
/-- Input window 2: fetched at the point or not, its current buffer holds the point's block. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
/-- Input window 3: fetched at the point or not, its current buffer holds the point's block. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
/-- Input window 4: fetched at the point or not, its current buffer holds the point's block. -/
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
/-- Input window 5: fetched at the point or not, its current buffer holds the point's block. -/
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
/-- Input window 6: fetched at the point or not, its current buffer holds the point's block. -/
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and
    what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline's rule, at every point. -/
theorem body_obligation1 (c : Dev nD) : Pipeline.BodyObligation (dat1 (F := F) V c) (defs₀ (F := F)) Variants.none () Set.univ := fun t => by
  rw [bigSep_W1, bigSep_W1]
  exact sound_body1 V c t

end Cert.KernelIdeal.Hand

end
-- ==== Proof.KIFrame.lean ====
/-
  The kernel program's frame from its two regions' records.

  Between @main's items every unscoped buffer is held at a named valuation; the generator register and the
  core owing nothing ride along.  Region 0 is entered from the valuation after the four leading host stretches
  and leaves the per-half sums in its output array; region 1 is entered from the valuation after the table has
  been laid out and leaves the per-edge features.  Each region's arrays are split out of the unscoped buffers at
  its entry and put back at its exit at the valuation updated at the output array; region 0's two scratch
  buffers go into its invariant out of the scoped rest and come back to it at the end.
-/
import proofs.«408049_j17463337026110_3_alg».proof.Proof.Gen.KernelIdeal.Regions
import proofs.«408049_j17463337026110_3_alg».proof.Proof.KIRegion0
import proofs.«408049_j17463337026110_3_alg».proof.Proof.KIRegion1
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the regions are entered from, and what they leave -/

/-- Region 0's entry contents, read at the TensorCore's references. -/
abbrev E0 (c : Dev nD) (b : Ref sig .tc) : Buf (Elt F) ((c : Thread nD τ).loc b) := V4 m c b

/-- What region 0 leaves in its output array. -/
def arr9 (c : Dev nD) : Buf (Elt F) ((c : Thread nD τ).loc main_v9) := (dat0 (E0 m) c).arrAt 2 cfg0.N

/-- The regions' results with only region 0's filled in. -/
def outsA : Outs (F := F) := fun _ r c => Function.update (V4 m c) main_v9 (arr9 m c) r

/-- Region 1's entry contents. -/
abbrev E1 (c : Dev nD) (b : Ref sig .tc) : Buf (Elt F) ((c : Thread nD τ).loc b) := V9 m (outsA m) c b

/-- What region 1 leaves in its output array. -/
def arr36 (c : Dev nD) : Buf (Elt F) ((c : Thread nD τ).loc main_v36) := (dat1 (E1 m) c).arrAt 7 cfg1.N

/-- The regions' results. -/
def outs : Outs (F := F) := fun _ r c =>
  Function.update (Function.update (V4 m c) main_v9 (arr9 m c)) main_v36 (arr36 m c) r

theorem outsA_v9 (c : Dev nD) : outsA m 5 main_v9 c = arr9 m c := by
  unfold outsA; exact Function.update_self ..

theorem outs_v9 (c : Dev nD) : outs m 5 main_v9 c = arr9 m c := by
  unfold outs
  rw [Function.update_of_ne (StableHlo.devRef_ne_of_ne (by decide) : (Proc.devRef .tc main_v9 : DevRef τ sig) ≠ Proc.devRef .tc main_v36)]
  exact Function.update_self ..

theorem outs_v36 (c : Dev nD) : outs m 10 main_v36 c = arr36 m c := by
  unfold outs; exact Function.update_self ..

theorem V5_outs (c : Dev nD) : V5 m (outs m) c = V5 m (outsA m) c := by
  show Function.update (V4 m c) main_v9 (outs m 5 main_v9 c) = Function.update (V4 m c) main_v9 (outsA m 5 main_v9 c)
  rw [outs_v9, outsA_v9]

theorem V9_outs (c : Dev nD) : V9 m (outs m) c = V9 m (outsA m) c := by
  show StableHlo.after hostOps1_3 (StableHlo.after hostOps1_2 (StableHlo.after hostOps1_1 (StableHlo.after hostOps1 (V5 m (outs m) c))))
    = StableHlo.after hostOps1_3 (StableHlo.after hostOps1_2 (StableHlo.after hostOps1_1 (StableHlo.after hostOps1 (V5 m (outsA m) c))))
  rw [V5_outs]

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev L0 : GSem nD τ sig → Finset Unit := fun _ => ∅
abbrev lv0 : GSem nD τ sig → Unit → ℕ := fun _ _ => 0

/-- Beside the buffers: the generator register at some state, the core owing nothing. -/
abbrev Rst (c : Dev nD) : sProp 𝕄 :=
  iprop((∃ r, prngReg c r) ∗ ∃ W, owes (c : Thread nD τ) (0 : CellTallies nD τ sig Unit) W)

/-! ## Region 0 -/

theorem scratch_mem0 : ([cc0_scratch0, cc0_scratch1] : List (Ref sig .tc)).Forall fun b =>
    b.isScoped = true ∧ ∀ (w : Fin 3) (s : Fin (spec0 w).nbuf), ((spec0 w).stage s).view.ref ≠ b := by decide

/-- The scoped rest as region 0's invariant wants it: the two scratch buffers, then everything else. -/
theorem scopedRest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f))
        ∗ Pipeline.scopedRestBut (Ix := Unit) (Name := ℕ) (U := UR sig nD τ) (Lvl := ℕ) (Val := Elt F) spec0 c [cc0_scratch0, cc0_scratch1]) := by
  rw [Pipeline.scopedRest_split_of_list spec0 c [cc0_scratch0, cc0_scratch1] scratch_mem0 (by decide)]
  rfl

theorem hin0 (V : (c : Dev nD) → (b : Ref sig .tc) → Buf (Elt F) ((c : Thread nD τ).loc b)) (c : Dev nD) :
    iprop((∃ r, prngReg c r) ∗ Pipeline.scopedRest (Ix := Unit) (Name := ℕ) (U := UR sig nD τ) (Lvl := ℕ) (Val := Elt F) spec0 c)
      ⊢ (PhiR0 V c 0 : sProp 𝕄) := by
  rw [scopedRest0_split]; unfold PhiR0
  iintro ⟨Hp, ⟨⟨%f0, H0⟩, ⟨%f1, H1⟩⟩, Hb⟩
  isplitl [H0 H1]
  · iexists f0, f1
    rw [owns_whole, owns_whole]
    isplitl [H0]; · iexact H0
    isplitl [H1]; · iexact H1
    ipureintro; intro h; exact absurd rfl h
  isplitl [Hb]; · iexact Hb
  iexact Hp

theorem hout0 (V : (c : Dev nD) → (b : Ref sig .tc) → Buf (Elt F) ((c : Thread nD τ).loc b)) (c : Dev nD) (n : ℕ) :
    (PhiR0 V c n : sProp 𝕄)
      ⊢ iprop((∃ r, prngReg c r) ∗ Pipeline.scopedRest (Ix := Unit) (Name := ℕ) (U := UR sig nD τ) (Lvl := ℕ) (Val := Elt F) spec0 c) := by
  rw [scopedRest0_split]; unfold PhiR0
  simp only [owns_whole]
  iintro ⟨⟨%a, %i, H0, H1, -⟩, Hb, Hp⟩
  isplitl [Hp]; · iexact Hp
  isplitl [H0 H1]
  · isplitl [H0]; · iexists _; iexact H0
    iexists _; iexact H1
  iexact Hb

/-! ## What the regions' exits hand back -/

theorem hF0 (c : Dev nD) : ∀ w : Fin cfg0.W, (pdats m 0 c).arrAt w cfg0.N = V5 m (outs m) c (Pipeline.arrRef spec0 w)
  | ⟨0, _⟩ => ((pdats m 0 c).arrAt_in 0 rfl _).trans ((A_eq0 (E0 m) c 0).trans (V5_of m (outs m) c main_v7 (by decide)).symm)
  | ⟨1, _⟩ => ((pdats m 0 c).arrAt_in 1 rfl _).trans ((A_eq0 (E0 m) c 1).trans (V5_of m (outs m) c main_v8 (by decide)).symm)
  | ⟨2, _⟩ => by
    show arr9 m c = Function.update (V4 m c) main_v9 (outs m 5 main_v9 c) main_v9
    rw [Function.update_self, outs_v9]

theorem hrest0 (c : Dev nD) (b : Ref sig .tc) (hb : b ∉ Finset.univ.image (Pipeline.arrRef spec0)) :
    V5 m (outs m) c b = V4 m c b :=
  V5_of m (outs m) c b (by
    intro h
    have : b = main_v9 := by simpa using h
    exact hb (Finset.mem_image.mpr ⟨2, Finset.mem_univ _, this.symm⟩))

set_option maxHeartbeats 1000000 in
theorem hF1_0 (c : Dev nD) : (pdats m 1 c).arrAt 0 cfg1.N = V10 m (outs m) c main_v34 :=
  ((pdats m 1 c).arrAt_in 0 rfl _).trans ((A_eq1 (E1 m) c 0).trans ((congrFun (V9_outs m c) _).symm.trans (V10_of m (outs m) c main_v34 (by decide)).symm))
set_option maxHeartbeats 1000000 in
theorem hF1_1 (c : Dev nD) : (pdats m 1 c).arrAt 1 cfg1.N = V10 m (outs m) c main_v35 :=
  ((pdats m 1 c).arrAt_in 1 rfl _).trans ((A_eq1 (E1 m) c 1).trans ((congrFun (V9_outs m c) _).symm.trans (V10_of m (outs m) c main_v35 (by decide)).symm))
set_option maxHeartbeats 1000000 in
theorem hF1_2 (c : Dev nD) : (pdats m 1 c).arrAt 2 cfg1.N = V10 m (outs m) c main_v33 :=
  ((pdats m 1 c).arrAt_in 2 rfl _).trans ((A_eq1 (E1 m) c 2).trans ((congrFun (V9_outs m c) _).symm.trans (V10_of m (outs m) c main_v33 (by decide)).symm))
set_option maxHeartbeats 1000000 in
theorem hF1_3 (c : Dev nD) : (pdats m 1 c).arrAt 3 cfg1.N = V10 m (outs m) c main_arg3 :=
  ((pdats m 1 c).arrAt_in 3 rfl _).trans ((A_eq1 (E1 m) c 3).trans ((congrFun (V9_outs m c) _).symm.trans (V10_of m (outs m) c main_arg3 (by decide)).symm))
set_option maxHeartbeats 1000000 in
theorem hF1_4 (c : Dev nD) : (pdats m 1 c).arrAt 4 cfg1.N = V10 m (outs m) c main_arg4 :=
  ((pdats m 1 c).arrAt_in 4 rfl _).trans ((A_eq1 (E1 m) c 4).trans ((congrFun (V9_outs m c) _).symm.trans (V10_of m (outs m) c main_arg4 (by decide)).symm))
set_option maxHeartbeats 1000000 in
theorem hF1_5 (c : Dev nD) : (pdats m 1 c).arrAt 5 cfg1.N = V10 m (outs m) c main_arg5 :=
  ((pdats m 1 c).arrAt_in 5 rfl _).trans ((A_eq1 (E1 m) c 5).trans ((congrFun (V9_outs m c) _).symm.trans (V10_of m (outs m) c main_arg5 (by decide)).symm))
set_option maxHeartbeats 1000000 in
theorem hF1_6 (c : Dev nD) : (pdats m 1 c).arrAt 6 cfg1.N = V10 m (outs m) c main_arg6 :=
  ((pdats m 1 c).arrAt_in 6 rfl _).trans ((A_eq1 (E1 m) c 6).trans ((congrFun (V9_outs m c) _).symm.trans (V10_of m (outs m) c main_arg6 (by decide)).symm))
theorem hF1_7 (c : Dev nD) : (pdats m 1 c).arrAt 7 cfg1.N = V10 m (outs m) c main_v36 := by
  show arr36 m c = Function.update (V9 m (outs m) c) main_v36 (outs m 10 main_v36 c) main_v36
  rw [Function.update_self, outs_v36]

theorem hF1 (c : Dev nD) : ∀ w : Fin cfg1.W, (pdats m 1 c).arrAt w cfg1.N = V10 m (outs m) c (Pipeline.arrRef spec1 w)
  | ⟨0, _⟩ => hF1_0 m c | ⟨1, _⟩ => hF1_1 m c | ⟨2, _⟩ => hF1_2 m c | ⟨3, _⟩ => hF1_3 m c
  | ⟨4, _⟩ => hF1_4 m c | ⟨5, _⟩ => hF1_5 m c | ⟨6, _⟩ => hF1_6 m c | ⟨7, _⟩ => hF1_7 m c

theorem hrest1 (c : Dev nD) (b : Ref sig .tc) (hb : b ∉ Finset.univ.image (Pipeline.arrRef spec1)) :
    V10 m (outs m) c b = V9 m (outs m) c b :=
  V10_of m (outs m) c b (by
    intro h
    have : b = main_v36 := by simpa using h
    exact hb (Finset.mem_image.mpr ⟨7, Finset.mem_univ _, this.symm⟩))

theorem hA1 (c : Dev nD) (w : Fin cfg1.W) : (pdats m 1 c).A w = V9 m (outs m) c (Pipeline.arrRef spec1 w) :=
  (A_eq1 (E1 m) c w).trans (congrFun (V9_outs m c) _).symm

/-! ## The regions as segments -/

set_option backward.isDefEq.respectTransparency.types false in
/-- Region 0 over the thread state: entered with every unscoped buffer at the contents after the leading host
    stretches, left with the output array replaced by the per-half sums. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L0 lv0 0 fun _ _ => rfl
  pre c := iprop(StableHlo.held (c : Thread nD τ) (Pipeline.ucRefs τ sig) (V4 m c) ∗ Rst c)
  post c := iprop(StableHlo.held (c : Thread nD τ) (Pipeline.ucRefs τ sig) (V5 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiR0 (E0 m) c 0 from rfl]
    iintro ⟨Hp, -, Hr⟩
    iapply (hin0 (E0 m) c)
    isplitl [Hp]; · iexact Hp
    iexact Hr
  hout c := by
    rw [Pipeline.ownSems0_none, show (pdats m 0 c).Φ (Fin.last _) = PhiR0 (E0 m) c cfg0.N from rfl]
    iintro H
    ihave H' := (hout0 (E0 m) c cfg0.N) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V5 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents after the table has been
    laid out, left with the output array replaced by the per-edge features. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L0 lv0 1 fun _ _ => rfl
  pre c := iprop(StableHlo.held (c : Thread nD τ) (Pipeline.ucRefs τ sig) (V9 m (outs m) c) ∗ Rst c)
  post c := iprop(StableHlo.held (c : Thread nD τ) (Pipeline.ucRefs τ sig) (V10 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b => V9 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V9 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V9 m (outs m) c b) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: what every core starts with, and what the last item must give back -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L0 lv0)
      ⊢ (|={Set.univ}=> bigSep Finset.univ (fun c : Dev nD => Rst (F := F) c) : sProp 𝕄) := by
  have h1 : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => Rst (F := F) c) : sProp 𝕄) :=
    bigSep_mono fun c _ => by
      show (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ (Rst (F := F) c : sProp 𝕄)
      iintro ⟨-, HO, -, Hp, -⟩
      isplitl [Hp]; · iexists _; iexact Hp
      iexists ∅; iexact HO
  iintro ⟨H, -⟩
  imodintro
  iapply h1
  iexact H

/-! ## The frame -/

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m emb₁ () Variants.none L0 lv0 (fun _ _ => rfl) ρ (outs m) (pdats m) (fun _ => 0) (fun _ => BI.emp)
    (initOf (Pipeline.cells cfgs cellOf_inj) (Pipeline.launchToks cfgs cellOf_inj)) (hu₀ (F := F))
    (fun _ c => Rst c) (hE0 ρ) (fun c => by iintro ⟨-, H⟩; iexact H)
    (reg0 m) (fun c => .rfl) (fun c => .rfl) (reg1 m) (fun c => .rfl) (fun c => .rfl)

end Cert.KernelIdeal.Hand

end
-- ==== Proof.KSpec.lean ====
/-
  The kernel's own pipeline as pure functions, index by index over the extended reals.

  The voxel rows are padded with zero rows to 2000896 = 2 * 977 * 1024 rows and column 0 is overwritten by
  ones; the ids are padded with the word 2048, which equals no lane index below 2048.  Region 0 leaves, for
  half h, column j and lane c, the sum over the half's rows whose id is the lane index of the row's column j
  (column 0: the count).  Between the regions the two halves are added, and the four feature sums s are laid
  out as s and s - s, the count n as n - 256 * floor (n / 256) and 256 * floor (n / 256), ten columns in all.
  Region 1 multiplies, for an edge, the sum of the one-hot rows of its two ids into that table, adds the
  paired columns back together, divides, and applies the two layers.
-/
import Idealize.ShloMosaic.PureOps.Ideal
import Idealize.ShloMosaic.Lib.ValueIdx

noncomputable section

namespace Cert.KSpec

open Idealize.ShloMosaic Idealize.ShloMosaic.ValueIdx

/-- The voxel rows as region 0 reads them: column 0 all ones, rows past the last voxel zero. -/
def dataPad (data : (⟨2, ![2000000, 5]⟩ : Shape).Idx → EReal) : (⟨2, ![2000896, 5]⟩ : Shape).Idx → EReal := fun i =>
  if (i 1).val = 0 then 1 else if h : (i 0).val < 2000000 then data (ix2 ⟨(i 0).val, h⟩ (i 1)) else 0

/-- The ids as region 0 reads them: past the last voxel the word 2048. -/
def cidPad (cid : (⟨1, ![2000000]⟩ : Shape).Idx → BitVec 32) : (⟨1, ![2000896]⟩ : Shape).Idx → BitVec 32 := fun i =>
  if h : (i 0).val < 2000000 then cid (ix1 ⟨(i 0).val, h⟩) else 2048#32

/-- Row `r` of block `t` of half `h`. -/
def row (h : Fin 2) (t : Fin 977) (r : Fin 1024) : Fin 2000896 :=
  ⟨(h.val * 977 + t.val) * 1024 + r.val, by have := h.isLt; have := t.isLt; have := r.isLt; omega⟩

/-- Region 0's result at (half, column, lane). -/
def segSums (dp : (⟨2, ![2000896, 5]⟩ : Shape).Idx → EReal) (cp : (⟨1, ![2000896]⟩ : Shape).Idx → BitVec 32) :
    (⟨3, ![2, 5, 2048]⟩ : Shape).Idx → EReal := fun i =>
  ∑ t : Fin 977, ∑ r : Fin 1024,
    if cp (ix1 (row (i 0) t r)) = BitVec.ofNat 32 (i 2).val then dp (ix2 (row (i 0) t r) (i 1)) else 0

/-- The two halves added: (lane, column). -/
def both (s : (⟨3, ![2, 5, 2048]⟩ : Shape).Idx → EReal) (c : Fin 2048) (j : Fin 5) : EReal :=
  s (ix3 0 j c) + s (ix3 1 j c)

/-- The multiple of 256 below a count. -/
def countHi (n : EReal) : EReal := Ideal.liftRound Int.floor (Ideal.div n (Ideal.ofBits .f32 0x43800000#32)) * Ideal.ofBits .f32 0x43800000#32

/-- The table region 1 reads: feature sums, their (vanishing) remainders, the count's low and high parts. -/
def table10 (s : (⟨3, ![2, 5, 2048]⟩ : Shape).Idx → EReal) : (⟨2, ![2048, 10]⟩ : Shape).Idx → EReal := fun i =>
  let c : Fin 2048 := i 0
  if h : (i 1).val < 4 then both s c ⟨(i 1).val + 1, by omega⟩
  else if h' : (i 1).val < 8 then both s c ⟨(i 1).val - 3, by omega⟩ - both s c ⟨(i 1).val - 3, by omega⟩
  else if (i 1).val = 8 then both s c 0 - countHi (both s c 0)
  else countHi (both s c 0)

/-- An edge-id row padded to 16384 with the word 2048. -/
def edgePad (eidx : (⟨2, ![2, 16000]⟩ : Shape).Idx → BitVec 32) (a : Fin 2) : (⟨1, ![16384]⟩ : Shape).Idx → BitVec 32 := fun i =>
  if h : (i 0).val < 16000 then eidx (ix2 a ⟨(i 0).val, h⟩) else 2048#32

section Edge

variable (p0 p1 : (⟨1, ![16384]⟩ : Shape).Idx → BitVec 32) (tbl : (⟨2, ![2048, 10]⟩ : Shape).Idx → EReal)
  (W1 : (⟨2, ![4, 128]⟩ : Shape).Idx → EReal) (b1 : (⟨1, ![128]⟩ : Shape).Idx → EReal)
  (W2 : (⟨2, ![128, 64]⟩ : Shape).Idx → EReal) (b2 : (⟨1, ![64]⟩ : Shape).Idx → EReal)

/-- The weight of lane `c` for edge `e`: how many of its two ids are the lane index. -/
def weight (e : Fin 16384) (c : Fin 2048) : EReal :=
  (if p0 (ix1 e) = BitVec.ofNat 32 c.val then (1 : EReal) else 0) + (if p1 (ix1 e) = BitVec.ofNat 32 c.val then (1 : EReal) else 0)

/-- Column `col` of the table gathered for edge `e`. -/
def gathered (e : Fin 16384) (col : Fin 10) : EReal := ∑ c : Fin 2048, weight p0 p1 e c * tbl (ix2 c col)

def pooledK (e : Fin 16384) (k : Fin 4) : EReal :=
  Ideal.div (gathered p0 p1 tbl e ⟨k.val, by omega⟩ + gathered p0 p1 tbl e ⟨k.val + 4, by omega⟩)
    (max (gathered p0 p1 tbl e 8 + gathered p0 p1 tbl e 9) (Ideal.ofBits .f32 0x3F800000#32))

def hiddenK (e : Fin 16384) (h : Fin 128) : EReal :=
  max ((∑ k : Fin 4, pooledK p0 p1 tbl e k * W1 (ix2 k h)) + b1 (ix1 h)) (Ideal.ofBits .f32 0x00000000#32)

/-- Region 1's result. -/
def edgeOut : (⟨2, ![16384, 64]⟩ : Shape).Idx → EReal := fun i =>
  (∑ h : Fin 128, hiddenK p0 p1 tbl W1 b1 (i 0) h * W2 (ix2 h (i 1))) + b2 (ix1 (i 1))

end Edge

/-- The kernel's result as one function of the seven argument arrays. -/
def KOut (data : (⟨2, ![2000000, 5]⟩ : Shape).Idx → EReal) (cid : (⟨1, ![2000000]⟩ : Shape).Idx → BitVec 32)
    (eidx : (⟨2, ![2, 16000]⟩ : Shape).Idx → BitVec 32)
    (W1 : (⟨2, ![4, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![16000, 64]⟩ : Shape).Idx → EReal := fun i =>
  edgeOut (edgePad eidx 0) (edgePad eidx 1) (table10 (segSums (dataPad data) (cidPad cid))) W1 b1 W2 b2
    (ix2 ⟨(i 0).val, by have h : (i 0).val < 16000 := (i 0).isLt; omega⟩ (i 1))

end Cert.KSpec

end
-- ==== Proof.LibDotTN.lean ====
/-
  A transposed matrix times a matrix, read at an index.

  For the dimension numbers of a K × M by K × N product that contracts the FIRST axis of both operands (no batch
  axis: lᵀ · r, both operands stored with the contracted index as their row), the sum over the contraction index that
  a matmul into a zero accumulator or a dot_general denotes at the ideal values is, at row p and column q, the sum
  over k of l (k, p) · r (k, q). General in M, K, N; a program's own record of these dimension numbers is this one up
  to its proof field.
-/
import Idealize.ShloMosaic.PureOps.Ideal
import Idealize.ShloMosaic.PureOps.Ideal.Laws
import Idealize.ShloMosaic.Lib.ValueIdx

noncomputable section

namespace Idealize.ShloMosaic.DotTN

open Idealize.ShloMosaic Idealize.ShloMosaic.ValueIdx

variable {M K N : Nat}

/-- The dimension numbers: contract axis 0 of both operands; the result's axes are the left columns, then the right columns. -/
abbrev dims (w : DotDims.WF (⟨2, ![K, M]⟩ : Shape) ⟨2, ![K, N]⟩ ⟨2, ![M, N]⟩ [0] [0] [1] [1] [] []) :
    DotDims (⟨2, ![K, M]⟩ : Shape) ⟨2, ![K, N]⟩ ⟨2, ![M, N]⟩ := ⟨[0], [0], [1], [1], [], [], w⟩

variable (w : DotDims.WF (⟨2, ![K, M]⟩ : Shape) ⟨2, ![K, N]⟩ ⟨2, ![M, N]⟩ [0] [0] [1] [1] [] [])

theorem contr_rank : (dims w).contr.rank = 1 := rfl
theorem contr_size : (dims w).contr.size ⟨0, by rw [contr_rank]; exact Nat.one_pos⟩ = K := rfl

/-- The contraction index is its one coordinate, a row of either operand. -/
abbrev kEquiv : (dims w).contr.Idx ≃ Fin K := contrEquiv1 (dims w) K (contr_rank w) (contr_size w)

/-- The left operand is read at (k, row of the result): its columns are the result's rows. -/
theorem lhsIdx_eq (j : (⟨2, ![M, N]⟩ : Shape).Idx) (k : Fin K) :
    (dims w).lhsIdx j ((kEquiv w).symm k) = ix2 k (j 0) := by
  funext a
  apply Fin.ext
  match a with
  | ⟨0, _⟩ =>
    exact ((dims w).lhsIdx_val_of_single (cl := 0) rfl j _).trans
      (contrEquiv1_symm_val (dims w) K (contr_rank w) (contr_size w) k)
  | ⟨1, _⟩ => rfl

/-- The right operand is read at (k, column of the result). -/
theorem rhsIdx_eq (j : (⟨2, ![M, N]⟩ : Shape).Idx) (k : Fin K) :
    (dims w).rhsIdx j ((kEquiv w).symm k) = ix2 k (j 1) := by
  funext a
  apply Fin.ext
  match a with
  | ⟨0, _⟩ =>
    exact ((dims w).rhsIdx_val_of_single (cr := 0) rfl j _).trans
      (contrEquiv1_symm_val (dims w) K (contr_rank w) (contr_size w) k)
  | ⟨1, _⟩ => rfl

/-- The contraction sum, over the shared row index. -/
theorem sum_eq (l : (⟨2, ![K, M]⟩ : Shape).Idx → EReal) (r : (⟨2, ![K, N]⟩ : Shape).Idx → EReal) (j : (⟨2, ![M, N]⟩ : Shape).Idx) :
    (∑ kk : (dims w).contr.Idx, l ((dims w).lhsIdx j kk) * r ((dims w).rhsIdx j kk))
      = ∑ k : Fin K, l (ix2 k (j 0)) * r (ix2 k (j 1)) := by
  rw [← Equiv.sum_comp (kEquiv w).symm]
  exact Finset.sum_congr rfl fun k _ =>
    congrArg₂ (· * ·) (congrArg l (lhsIdx_eq w j k)) (congrArg r (rhsIdx_eq w j k))

variable {φ₁ φ₂ : FTy}

/-- A kernel's matmul into the zero accumulator, at (p, q). -/
theorem matmul_zero_apply (prec : Option ContractPrecision) (l : FVec Ideal ⟨2, ![K, M]⟩ φ₁) (r : FVec Ideal ⟨2, ![K, N]⟩ φ₂)
    (p : Fin M) (q : Fin N) :
    matmul (dims w) prec l r (constant ⟨2, ![M, N]⟩ .f32 0x00000000#32) (ix2 p q)
      = ∑ k : Fin K, l (ix2 k p) * r (ix2 k q) :=
  (Ideal.matmul_constant_zero_apply (dims w) prec l r (ix2 p q)).trans (sum_eq w l r (ix2 p q))

/-- The host's dot_general, at (p, q). -/
theorem dotGeneral_apply (prec : Option ContractPrecision) (l : FVec Ideal ⟨2, ![K, M]⟩ φ₁) (r : FVec Ideal ⟨2, ![K, N]⟩ φ₂)
    (p : Fin M) (q : Fin N) :
    Host.dotGeneral (dims w) prec l r (ix2 p q) = ∑ k : Fin K, l (ix2 k p) * r (ix2 k q) :=
  (Ideal.dotGeneral_apply (dims w) prec _ l r (ix2 p q)).trans (sum_eq w l r (ix2 p q))

end Idealize.ShloMosaic.DotTN

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.KIRegion0Value.lean ====
/-
  Region 0 (the per-cluster sums): the value of its output array, index by index.

  The accumulator after the points below n is given by recursion on the point.  Read at (column j, lane l), one
  point adds to it the sum, over the 1024 rows of the point's block whose id is the lane index l, of the row's
  column j: the product of the transposed block of voxel rows with the one-hot table of the ids has, at (j, l), the
  sum over rows r of x (r, j) times 1 or 0.  A half's first point starts from zero, so after the half's 977 points
  the accumulator is the sum over the half's 977 * 1024 rows.  Block n of either input is rows n * 1024 ... of its
  array; the output's block h is written back once, after the last point of half h, and the two blocks tile the
  output array.  So the array ends holding, at (h, j, l), the sum over the rows of half h whose id is l of column j.
-/
import proofs.«408049_j17463337026110_3_alg».proof.Proof.KIRegion0Defs
import proofs.«408049_j17463337026110_3_alg».proof.Proof.KSpec
import proofs.«408049_j17463337026110_3_alg».proof.Proof.LibDotTN
import proofs.«408049_j17463337026110_3_alg».proof.Proof.LibColumns
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

namespace R0V

/-! ## The body's payloads at an index -/

/-- The lane-index table at (r, l) is the word of l. -/
theorem pay2_apply (r : Fin 1024) (l : Fin 2048) : k0_pay2 (ix2 r l) = BitVec.ofNat 32 l.val := by
  unfold k0_pay2
  rw [shapeCast_self]
  exact iota_single_apply .tc S1024x2048 32 1 _ (ix2 r l)

/-- The cleared accumulator is zero everywhere. -/
theorem pay1_apply (j : Fin 5) (l : Fin 2048) : k0_pay1 (F := Ideal) (ix2 j l) = 0 := by
  unfold k0_pay1
  rw [shapeCast_self]
  exact Ideal.ofBits_zero_f32

/-- A one-bit comparison of two words, widened and converted, is 1 where they agree and 0 elsewhere. -/
theorem onehot_word (u v : BitVec 32) :
    (((BitVec.setWidth 32 (IntOp.cmpi .eq u v)).toInt : ℝ) : EReal) = if v = u then 1 else 0 := by
  unfold IntOp.cmpi
  by_cases h : u = v
  · subst h; simp
  · have hb : (u == v) = false := by simpa using h
    rw [if_neg (fun e => h e.symm)]
    simp [hb]

/-- The id column spread along the lanes reads, at (r, l), the id of row r. -/
theorem idcol_apply (x1 : Vec Ideal S1024 .i32) (r : Fin 1024) (l : Fin 2048) :
    broadcastTo S1024x2048 (shapeCast S1024x1 (shapeCast S1024 x1 shapeCasts_S1024_S1024) shapeCasts_S1024_S1024x1)
      broadcasts_S1024x1_S1024x2048 (ix2 r l) = x1 (ix1 r) :=
  (Columns.broadcastTo_a1_ab_apply _ _ r l).trans
    ((Columns.shapeCast_a_a1_apply _ _ r 0).trans (congrFun (shapeCast_self x1 _) (ix1 r)))

/-- One point's update at (column j, lane l): the accumulator plus the sum, over the block's rows whose id is the
    lane index, of the row's column j — the transposed block times the one-hot table, every factor 1 or 0. -/
theorem pay3_apply (x0 : Vec Ideal S1024x5 .f32) (x1 : Vec Ideal S1024 .i32) (a : Vec Ideal S5x2048 .f32) (j : Fin 5) (l : Fin 2048) :
    k0_pay3 x0 x1 k0_pay2 a (ix2 j l)
      = a (ix2 j l) + ∑ r : Fin 1024, if x1 (ix1 r) = BitVec.ofNat 32 l.val then x0 (ix2 r j) else 0 := by
  unfold k0_pay3
  refine (congrFun (shapeCast_self _ _) (ix2 j l)).trans ?_
  refine congrArg (a (ix2 j l) + ·) ?_
  refine (DotTN.matmul_zero_apply dot_S1024x5_S1024x2048_S5x2048_0_0_1_1_n_n_wf none _ _ j l).trans ?_
  refine Finset.sum_congr rfl fun r _ => ?_
  have hL : shapeCast S1024x5 x0 shapeCasts_S1024x5_S1024x5 (ix2 r j) = x0 (ix2 r j) :=
    congrFun (shapeCast_self x0 _) (ix2 r j)
  have hR := (congrArg₂ (fun u v : BitVec 32 => (((BitVec.setWidth 32 (IntOp.cmpi .eq u v)).toInt : ℝ) : EReal))
    (pay2_apply r l) (idcol_apply x1 r l)).trans (onehot_word _ _)
  refine (congrArg₂ (fun p q : EReal => p * q) hL hR).trans ?_
  rw [mul_ite, mul_one, mul_zero]

/-- The block written back is the accumulator under a leading unit axis. -/
theorem pay4_apply (a : Vec Ideal S5x2048 .f32) (u : Fin 1) (j : Fin 5) (l : Fin 2048) :
    k0_pay4 a (ix3 u j l) = a (ix2 j l) := by
  unfold k0_pay4
  refine (shapeCast_apply a shapeCasts_S5x2048_S1x5x2048 (ix3 u j l) (ix2 j l) ?_)
  have hu : u.val = 0 := by omega
  rw [Shape.rowMajor_val_two, Shape.rowMajor_val_three]
  show j.val * 2048 + l.val = (u.val * 5 + j.val) * 2048 + l.val
  omega

/-! ## The blocks, read where the windows put them -/

variable (V : (c : Dev nD) → (b : Ref sig .tc) → Buf (Elt Ideal) ((c : Thread nD τ).loc b))

/-- The voxel rows and the ids as the region finds them, and their blocks at a point, at their literal types. -/
abbrev xarr (c : Dev nD) : Vec Ideal S2000896x5 .f32 := V c main_v7
abbrev iarr (c : Dev nD) : Vec Ideal S2000896 .i32 := V c main_v8
abbrev xblk (c : Dev nD) (t : Fin cfg0.N) : Vec Ideal S1024x5 .f32 := iblk0 V c 0 t
abbrev iblk (c : Dev nD) (t : Fin cfg0.N) : Vec Ideal S1024 .i32 := iblk0 V c 1 t

/-- The printed index maps over the grid: both inputs' row-block index at point t is t; the output's is t / 977. -/
theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 1) = t.val :=
  (by decide +kernel : ∀ t : Fin grid0.N, _)
theorem idx_out : ∀ t : Fin cfg0.N, win0_2.index t (0 : Fin 3) = t.val / 977 ∧ win0_2.index t (1 : Fin 3) = 0
    ∧ win0_2.index t (2 : Fin 3) = 0 :=
  (by decide +kernel : ∀ t : Fin grid0.N, _)

theorem row_lt (n : ℕ) (h : n < cfg0.N) (r : Fin 1024) : n * 1024 + r.val < 2000896 := by
  have hN : cfg0.N = 1954 := N_0
  have := r.isLt
  omega

/-- Row r of the voxel block at point n is row n * 1024 + r of the array. -/
theorem xblk_apply (c : Dev nD) (n : ℕ) (h : n < cfg0.N) (r : Fin 1024) (j : Fin 5) :
    xblk V c ⟨n, h⟩ (ix2 r j) = xarr V c (ix2 ⟨n * 1024 + r.val, row_lt n h r⟩ j) := by
  show ((cfg0.win 0).blk ⟨n, h⟩).view.read (Elt Ideal) (V c (Pipeline.arrRef spec0 0)) (ix2 r j) = _
  rw [View.read_apply]
  show V c main_v7 (((cfg0.win 0).blk ⟨n, h⟩).view.emb (ix2 r j)) = V c main_v7 _
  refine congrArg (V c main_v7) ?_
  funext a
  apply Fin.ext
  match a with
  | ⟨0, _⟩ =>
    show win0_0.index ⟨n, h⟩ (0 : Fin 2) * 1024 + 1 * r.val = n * 1024 + r.val
    rw [(idx_in0 ⟨n, h⟩).1]
    show n * 1024 + 1 * r.val = n * 1024 + r.val
    omega
  | ⟨1, _⟩ =>
    show win0_0.index ⟨n, h⟩ (1 : Fin 2) * 5 + 1 * j.val = j.val
    rw [(idx_in0 ⟨n, h⟩).2]; omega

/-- Entry r of the id block at point n is entry n * 1024 + r of the array. -/
theorem iblk_apply (c : Dev nD) (n : ℕ) (h : n < cfg0.N) (r : Fin 1024) :
    iblk V c ⟨n, h⟩ (ix1 r) = iarr V c (ix1 ⟨n * 1024 + r.val, row_lt n h r⟩) := by
  show ((cfg0.win 1).blk ⟨n, h⟩).view.read (Elt Ideal) (V c (Pipeline.arrRef spec0 1)) (ix1 r) = _
  rw [View.read_apply]
  show V c main_v8 (((cfg0.win 1).blk ⟨n, h⟩).view.emb (ix1 r)) = V c main_v8 _
  refine congrArg (V c main_v8) ?_
  funext a
  apply Fin.ext
  match a with
  | ⟨0, _⟩ =>
    show win0_1.index ⟨n, h⟩ (0 : Fin 1) * 1024 + 1 * r.val = n * 1024 + r.val
    rw [idx_in1 ⟨n, h⟩]
    show n * 1024 + 1 * r.val = n * 1024 + r.val
    omega

/-! ## The accumulator as a sum over the blocks of a half -/

/-- What block n adds at (column j, lane l): the sum, over the block's rows whose id is the lane index, of the
    row's column j; nothing past the grid. -/
def blockSum (c : Dev nD) (j : Fin 5) (l : Fin 2048) (n : ℕ) : EReal :=
  if h : n < cfg0.N then
    ∑ r : Fin 1024, if iarr V c (ix1 ⟨n * 1024 + r.val, row_lt n h r⟩) = BitVec.ofNat 32 l.val
      then xarr V c (ix2 ⟨n * 1024 + r.val, row_lt n h r⟩ j) else 0
  else 0

/-- One point: the accumulator restarts from zero at the first point of a half and adds the point's block. -/
theorem acc_step (c : Dev nD) (j : Fin 5) (l : Fin 2048) (n : ℕ) (hn : n < cfg0.N) :
    accAt V c (n + 1) (ix2 j l)
      = (if n % 977 = 0 then 0 else accAt V c n (ix2 j l)) + blockSum V c j l n := by
  rw [accAt_succ V c n hn]
  refine (pay3_apply (xblk V c ⟨n, hn⟩) (iblk V c ⟨n, hn⟩) (if n % 977 = 0 then (k0_pay1 (F := Ideal)) else accAt V c n) j l).trans ?_
  refine congrArg₂ (fun p q : EReal => p + q) ?_ ?_
  · by_cases h0 : n % 977 = 0
    · rw [if_pos h0, if_pos h0]; exact pay1_apply j l
    · rw [if_neg h0, if_neg h0]
  · unfold blockSum
    rw [dif_pos hn]
    refine Finset.sum_congr rfl fun r _ => ?_
    rw [xblk_apply V c n hn r j, iblk_apply V c n hn r]

/-- After t + 1 points of half h the accumulator holds the sum of the half's first t + 1 blocks. -/
theorem acc_eq (c : Dev nD) (j : Fin 5) (l : Fin 2048) (hf : Fin 2) :
    ∀ t : ℕ, t < 977 → accAt V c (hf.val * 977 + t + 1) (ix2 j l)
      = ∑ k ∈ Finset.range (t + 1), blockSum V c j l (hf.val * 977 + k) := by
  have hN : cfg0.N = 1954 := N_0
  have hh := hf.isLt
  intro t
  induction t with
  | zero =>
    intro _
    rw [acc_step V c j l (hf.val * 977 + 0) (by omega), if_pos (by omega), zero_add, Finset.sum_range_one]
  | succ t ih =>
    intro ht
    rw [acc_step V c j l (hf.val * 977 + (t + 1)) (by omega), if_neg (by omega), Finset.sum_range_succ]
    exact congrArg (· + blockSum V c j l (hf.val * 977 + (t + 1))) (ih (by omega))

/-- After the last point of half h the accumulator holds the half's per-cluster sums. -/
theorem acc_final (c : Dev nD) (hf : Fin 2) (j : Fin 5) (l : Fin 2048) :
    accAt V c (hf.val * 977 + 976 + 1) (ix2 j l) = Cert.KSpec.segSums (xarr V c) (iarr V c) (ix3 hf j l) := by
  have hN : cfg0.N = 1954 := N_0
  have hh := hf.isLt
  rw [acc_eq V c j l hf 976 (by omega), Finset.sum_range]
  unfold Cert.KSpec.segSums
  refine Finset.sum_congr rfl fun k _ => ?_
  unfold blockSum
  rw [dif_pos (by have := k.isLt; omega)]
  rfl

/-! ## The output array from its blocks -/

/-- What the output array ends holding: the per-cluster sums of the two input arrays as the region finds them. -/
abbrev G0 (c : Dev nD) : Vec Ideal S2x5x2048 .f32 := Cert.KSpec.segSums (xarr V c) (iarr V c)

/-- The write-back at the last point of half h writes block h of the per-cluster sums: the block written is the
    accumulator after the half's 977 points, under a leading unit axis, and block h of the array is its row h. -/
theorem flushed_eq (c : Dev nD) (t : Fin cfg0.N) (hf : (cfg0.win 2).flush t = true) :
    (dat0 V c).flushed 2 t = ((cfg0.win 2).blk t).view.read (Elt Ideal) (G0 V c) := by
  have hN : cfg0.N = 1954 := N_0
  have h976 : t.val % 977 = 976 := (flush0_2 t).mp hf
  have ht : t.val < cfg0.N := t.isLt
  obtain ⟨e0, e1, e2⟩ := idx_out t
  show (cfg0.win 2).cut (cfg0.grid.coords t) ((dat0 V c).after 2 t) = _
  rw [after0_2]
  funext y
  obtain ⟨u, j, l, rfl⟩ : ∃ (u : Fin 1) (j : Fin 5) (l : Fin 2048), y = ix3 u j l :=
    ⟨y 0, y 1, y 2, eq_ix3 (n0 := 1) (n1 := 5) (n2 := 2048) y⟩
  show k0_pay4 (accAt V c (t.val + 1)) (ix3 u j l) = _
  rw [View.read_apply]
  show _ = G0 V c (((cfg0.win 2).blk t).view.emb (ix3 u j l))
  have hhalf : t.val / 977 < 2 := by omega
  have hemb : ((cfg0.win 2).blk t).view.emb (ix3 u j l) = ix3 (⟨t.val / 977, hhalf⟩ : Fin 2) j l := by
    funext a
    apply Fin.ext
    match a with
    | ⟨0, _⟩ =>
      show win0_2.index t (0 : Fin 3) * 1 + 1 * u.val = t.val / 977
      rw [e0]; omega
    | ⟨1, _⟩ =>
      show win0_2.index t (1 : Fin 3) * 5 + 1 * j.val = j.val
      rw [e1]; omega
    | ⟨2, _⟩ =>
      show win0_2.index t (2 : Fin 3) * 2048 + 1 * l.val = l.val
      rw [e2]; omega
  rw [hemb, pay4_apply]
  have hfin := acc_final V c ⟨t.val / 977, hhalf⟩ j l
  have e : (⟨t.val / 977, hhalf⟩ : Fin 2).val * 977 + 976 + 1 = t.val + 1 := by
    show t.val / 977 * 977 + 976 + 1 = t.val + 1
    omega
  rw [e] at hfin
  exact hfin

/-- An index of the output array is in point t's block iff each coordinate is in the block's range on its axis. -/
theorem mem_blk_out (t : Fin cfg0.N) (i : S2x5x2048.Idx) :
    i ∈ ((cfg0.win 2).blk t).view.set ↔ ∀ a : Fin 3, win0_2.index t a * S1x5x2048.size a ≤ (i a).val
      ∧ (i a).val < win0_2.index t a * S1x5x2048.size a + S1x5x2048.size a := by
  show i ∈ ((View.whole main_v9).slice (win0_2.rect t)).set ↔ _
  rw [View.set_slice_whole, Rect.mem_set_unit]
  exact Iff.rfl

/-- Every index (h, j, l) of the output array lies in the block written back at the last point of half h. -/
theorem cover_out (i : S2x5x2048.Idx) :
    ∃ t : Fin cfg0.N, (cfg0.win 2).flush t = true ∧ i ∈ ((cfg0.win 2).blk t).view.set := by
  have hN : cfg0.N = 1954 := N_0
  have h0 : (i 0).val < 2 := (i 0).isLt
  have h1 : (i 1).val < 5 := (i 1).isLt
  have h2 : (i 2).val < 2048 := (i 2).isLt
  obtain ⟨t, ht⟩ : ∃ t : Fin cfg0.N, t.val = (i 0).val * 977 + 976 := ⟨⟨(i 0).val * 977 + 976, by omega⟩, rfl⟩
  obtain ⟨e0, e1, e2⟩ := idx_out t
  refine ⟨t, (flush0_2 t).mpr (by omega), ?_⟩
  rw [mem_blk_out]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 5 ≤ (i 1).val ∧ (i 1).val < win0_2.index t (1 : Fin 3) * 5 + 5
    omega
  | ⟨2, _⟩ =>
    show win0_2.index t (2 : Fin 3) * 2048 ≤ (i 2).val ∧ (i 2).val < win0_2.index t (2 : Fin 3) * 2048 + 2048
    omega

end R0V

variable (V : (c : Dev nD) → (b : Ref sig .tc) → Buf (Elt Ideal) ((c : Thread nD τ).loc b))

/-- After region 0 the output array holds the per-cluster sums of the two input arrays as the region finds them. -/
theorem arr0_final (c : Dev nD) :
    ((dat0 (F := Ideal) V c).arrAt 2 cfg0.N : S2x5x2048.Idx → EReal) = Cert.KSpec.segSums (V c main_v7) (V c main_v8) :=
  (dat0 V c).arrAt_eq_of_cover 2 (R0V.G0 V c) (R0V.flushed_eq V c) R0V.cover_out

end Cert.KernelIdeal.Hand

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.KIRegion1Value.lean ====
/-
  Region 1's value over the extended reals: after the region the whole output array is, index by index, the
  specification's function of the region's seven input arrays.

  The mathematics. The body's stored payload, read at row r and column j of a block, depends on the row's two
  id words alone: the sum of their one-hot rows over the 2048 lanes, multiplied into the ten-column table,
  gives for each column the weighted sum of the table's rows; the paired columns are added back together, the
  four features divided by the count clamped below by one, and the two layers applied — each product a plain
  row-by-column product into a zero accumulator, each bias a row broadcast over the block. At grid point t the
  id blocks are rows t·512 … t·512+511 of the padded id arrays, the other five windows are their whole arrays
  at every point, and the point writes back rows t·512 … t·512+511 of the output; the 32 points' blocks cover
  the array, row e by point e / 512.
-/
import proofs.«408049_j17463337026110_3_alg».proof.Proof.KIRegion1
import proofs.«408049_j17463337026110_3_alg».proof.Proof.KSpec
import proofs.«408049_j17463337026110_3_alg».proof.Proof.LibPlainDot
import proofs.«408049_j17463337026110_3_alg».proof.Proof.LibColumns
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

namespace R1V

/-! ## The body's arithmetic in four stages -/

/-- Stage 1: per row, the sum of the two one-hot rows of the edge's ids over the 2048 lanes. -/
def ohV (x0 x1 : Vec Ideal S512 .i32) : FVec Ideal S512x2048 .bf16 :=
  addf
    (truncf .bf16 (sitofp .f32 (extui 32 (cmpi .eq (iota .tc S512x2048 32 [1] iota_S512x2048_d1_w32)
      (broadcastTo S512x2048 (shapeCast S512x1 (shapeCast S512 x0 shapeCasts_S512_S512) shapeCasts_S512_S512x1) broadcasts_S512x1_S512x2048)) natLt_1_32)) bitsLt_bf16_f32)
    (truncf .bf16 (sitofp .f32 (extui 32 (cmpi .eq (iota .tc S512x2048 32 [1] iota_S512x2048_d1_w32)
      (broadcastTo S512x2048 (shapeCast S512x1 (shapeCast S512 x1 shapeCasts_S512_S512) shapeCasts_S512_S512x1) broadcasts_S512x1_S512x2048)) natLt_1_32)) bitsLt_bf16_f32)

/-- Stage 2: the one-hot sums times the table. -/
def gV (oh : FVec Ideal S512x2048 .bf16) (x2 : Vec Ideal S2048x10 .f32) : FVec Ideal S512x10 .f32 :=
  matmul dot_S512x2048_S2048x10_S512x10_1_0_0_1_n_n none oh
    (truncf .bf16 (shapeCast S2048x10 x2 shapeCasts_S2048x10_S2048x10) bitsLt_bf16_f32) (constant S512x10 .f32 0x00000000#32)

/-- Stage 3: paired columns added, the features divided by the count clamped below by one. -/
def poolV (g : FVec Ideal S512x10 .f32) : FVec Ideal S512x4 .bf16 :=
  truncf .bf16 (divf
    (addf (extractStridedSlice S512x4 ![0, 0] g slices_S512x10_o0_0_S512x4) (extractStridedSlice S512x4 ![0, 4] g slices_S512x10_o0_4_S512x4))
    (broadcastTo S512x4 (shapeCast S512x1
      (maximumf (addf (shapeCast S512 (extractStridedSlice S512x1 ![0, 8] g slices_S512x10_o0_8_S512x1) shapeCasts_S512x1_S512)
                      (shapeCast S512 (extractStridedSlice S512x1 ![0, 9] g slices_S512x10_o0_9_S512x1) shapeCasts_S512x1_S512))
                (broadcast S512 (Scalar.ofBits .f32 0x3F800000#32)))
      shapeCasts_S512_S512x1) broadcasts_S512x1_S512x4)) bitsLt_bf16_f32

/-- Stage 4: the first layer with its bias, clamped below by zero. -/
def hidV (p : FVec Ideal S512x4 .bf16) (x3 : Vec Ideal S4x128 .f32) (x4 : Vec Ideal S128 .f32) : FVec Ideal S512x128 .bf16 :=
  truncf .bf16 (maximumf
    (addf (matmul dot_S512x4_S4x128_S512x128_1_0_0_1_n_n none p (truncf .bf16 x3 bitsLt_bf16_f32) (constant S512x128 .f32 0x00000000#32))
          (broadcastTo S512x128 (shapeCast S1x128 x4 shapeCasts_S128_S1x128) broadcasts_S1x128_S512x128))
    (broadcast S512x128 (Scalar.ofBits .f32 0x00000000#32))) bitsLt_bf16_f32

/-- The first part's value is the four stages composed. -/
theorem pay2_stages (x0 x1 : Vec Ideal S512 .i32) (x2 : Vec Ideal S2048x10 .f32) (x3 : Vec Ideal S4x128 .f32) (x4 : Vec Ideal S128 .f32) :
    k1_pay2 (F := Ideal) x0 x1 x2 x3 x4 = hidV (poolV (gV (ohV x0 x1) x2)) x3 x4 := rfl

/-- Stage 5: the second layer with its bias. -/
def outV (h : FVec Ideal S512x128 .bf16) (x5 : Vec Ideal S128x64 .f32) (x6 : Vec Ideal S64 .f32) : FVec Ideal S512x64 .f32 :=
  addf (matmul dot_S512x128_S128x64_S512x64_1_0_0_1_n_n none h (truncf .bf16 x5 bitsLt_bf16_f32) (constant S512x64 .f32 0x00000000#32))
       (broadcastTo S512x64 (shapeCast S1x64 x6 shapeCasts_S64_S1x64) broadcasts_S1x64_S512x64)

theorem pay1_stage (h : FVec Ideal S512x128 .bf16) (x5 : Vec Ideal S128x64 .f32) (x6 : Vec Ideal S64 .f32) :
    k1_pay1 (F := Ideal) h x5 x6 = outV h x5 x6 := rfl

/-! ## The row formula, as a function of the row's two id words -/

section RowFormula

variable (a b : BitVec 32) (tbl : (⟨2, ![2048, 10]⟩ : Shape).Idx → EReal)
  (W1 : (⟨2, ![4, 128]⟩ : Shape).Idx → EReal) (b1 : (⟨1, ![128]⟩ : Shape).Idx → EReal)
  (W2 : (⟨2, ![128, 64]⟩ : Shape).Idx → EReal) (b2 : (⟨1, ![64]⟩ : Shape).Idx → EReal)

/-- The weight of lane `c`: how many of the two words are the lane index. -/
def wW (c : Fin 2048) : EReal :=
  (if a = BitVec.ofNat 32 c.val then (1 : EReal) else 0) + (if b = BitVec.ofNat 32 c.val then (1 : EReal) else 0)

/-- Column `col` of the table, gathered. -/
def gW (col : Fin 10) : EReal := ∑ c : Fin 2048, wW a b c * tbl (ix2 c col)

def pW (k : Fin 4) : EReal :=
  Ideal.div (gW a b tbl ⟨k.val, by omega⟩ + gW a b tbl ⟨k.val + 4, by omega⟩)
    (max (gW a b tbl 8 + gW a b tbl 9) (Ideal.ofBits .f32 0x3F800000#32))

def hW (h : Fin 128) : EReal :=
  max ((∑ k : Fin 4, pW a b tbl k * W1 (ix2 k h)) + b1 (ix1 h)) (Ideal.ofBits .f32 0x00000000#32)

def oW (j : Fin 64) : EReal := (∑ h : Fin 128, hW a b tbl W1 b1 h * W2 (ix2 h j)) + b2 (ix1 j)

end RowFormula

/-- The specification's result at an index is the row formula at the row's two id words. -/
theorem edgeOut_eq_oW (p0 p1 : (⟨1, ![16384]⟩ : Shape).Idx → BitVec 32) (tbl : (⟨2, ![2048, 10]⟩ : Shape).Idx → EReal)
    (W1 : (⟨2, ![4, 128]⟩ : Shape).Idx → EReal) (b1 : (⟨1, ![128]⟩ : Shape).Idx → EReal)
    (W2 : (⟨2, ![128, 64]⟩ : Shape).Idx → EReal) (b2 : (⟨1, ![64]⟩ : Shape).Idx → EReal) (i : (⟨2, ![16384, 64]⟩ : Shape).Idx) :
    Cert.KSpec.edgeOut p0 p1 tbl W1 b1 W2 b2 i = oW (p0 (ix1 (i 0))) (p1 (ix1 (i 0))) tbl W1 b1 W2 b2 (i 1) := rfl

/-! ## Each stage at an index -/

/-- A one-bit comparison widened to a word and converted: one where the words agree, zero where not. -/
theorem onehot_word (u v : BitVec 32) :
    (FloatOps.sitofp (F := Ideal) .f32 ((IntOp.cmpi .eq u v).setWidth 32) : EReal) = if v = u then 1 else 0 := by
  have hb : ∀ t : Bool, ((BitVec.ofBool t).setWidth 32).toInt = if t then 1 else 0 := by decide
  show ((((BitVec.ofBool (u == v)).setWidth 32).toInt : ℝ) : EReal) = _
  rw [hb]
  by_cases h : u = v
  · subst h; simp
  · have h' : ¬ v = u := fun e => h e.symm
    simp [h, h']

theorem ohV_apply (x0 x1 : Vec Ideal S512 .i32) (r : Fin 512) (c : Fin 2048) :
    ohV x0 x1 (ix2 r c) = wW (x0 (ix1 r)) (x1 (ix1 r)) c := by
  unfold ohV wW
  show FloatOps.sitofp (F := Ideal) .f32 ((IntOp.cmpi .eq (iota .tc S512x2048 32 [1] iota_S512x2048_d1_w32 (ix2 r c))
        (broadcastTo S512x2048 (shapeCast S512x1 (shapeCast S512 x0 shapeCasts_S512_S512) shapeCasts_S512_S512x1) broadcasts_S512x1_S512x2048 (ix2 r c))).setWidth 32)
      + FloatOps.sitofp (F := Ideal) .f32 ((IntOp.cmpi .eq (iota .tc S512x2048 32 [1] iota_S512x2048_d1_w32 (ix2 r c))
        (broadcastTo S512x2048 (shapeCast S512x1 (shapeCast S512 x1 shapeCasts_S512_S512) shapeCasts_S512_S512x1) broadcasts_S512x1_S512x2048 (ix2 r c))).setWidth 32) = _
  rw [onehot_word, onehot_word, iota_single_apply, Columns.broadcastTo_a1_ab_apply, Columns.broadcastTo_a1_ab_apply,
    Columns.shapeCast_a_a1_apply, Columns.shapeCast_a_a1_apply, shapeCast_self, shapeCast_self]

/-- The kernel's three products are plain row-by-column products. -/
theorem dotA_eq : dot_S512x2048_S2048x10_S512x10_1_0_0_1_n_n = DotDims.plain 512 2048 10 := rfl
theorem dotB_eq : dot_S512x4_S4x128_S512x128_1_0_0_1_n_n = DotDims.plain 512 4 128 := rfl
theorem dotC_eq : dot_S512x128_S128x64_S512x64_1_0_0_1_n_n = DotDims.plain 512 128 64 := rfl

theorem gV_apply (oh : FVec Ideal S512x2048 .bf16) (x2 : Vec Ideal S2048x10 .f32) (r : Fin 512) (col : Fin 10) :
    gV oh x2 (ix2 r col) = ∑ c : Fin 2048, oh (ix2 r c) * x2 (ix2 c col) := by
  unfold gV
  rw [dotA_eq, shapeCast_self]
  exact PlainDot.matmul_zero_apply 512 2048 10 none oh (truncf .bf16 x2 bitsLt_bf16_f32) r col

theorem poolV_apply (g : FVec Ideal S512x10 .f32) (r : Fin 512) (k : Fin 4) :
    poolV g (ix2 r k) = Ideal.div (g (ix2 r ⟨k.val, by omega⟩) + g (ix2 r ⟨k.val + 4, by omega⟩))
      (max (g (ix2 r 8) + g (ix2 r 9)) (Ideal.ofBits .f32 0x3F800000#32)) := by
  unfold poolV
  show Ideal.div (extractStridedSlice S512x4 ![0, 0] g slices_S512x10_o0_0_S512x4 (ix2 r k) + extractStridedSlice S512x4 ![0, 4] g slices_S512x10_o0_4_S512x4 (ix2 r k))
      (broadcastTo S512x4 (shapeCast S512x1
        (maximumf (addf (shapeCast S512 (extractStridedSlice S512x1 ![0, 8] g slices_S512x10_o0_8_S512x1) shapeCasts_S512x1_S512)
                        (shapeCast S512 (extractStridedSlice S512x1 ![0, 9] g slices_S512x10_o0_9_S512x1) shapeCasts_S512x1_S512))
                  (broadcast S512 (Scalar.ofBits .f32 0x3F800000#32)))
        shapeCasts_S512_S512x1) broadcasts_S512x1_S512x4 (ix2 r k)) = _
  rw [slice2_axis1_apply 0 g slices_S512x10_o0_0_S512x4 r k ⟨k.val, by omega⟩ (by simp),
    slice2_axis1_apply 4 g slices_S512x10_o0_4_S512x4 r k ⟨k.val + 4, by omega⟩ (by simp; omega),
    Columns.broadcastTo_a1_ab_apply, Columns.shapeCast_a_a1_apply]
  show Ideal.div _ (max (shapeCast S512 (extractStridedSlice S512x1 ![0, 8] g slices_S512x10_o0_8_S512x1) shapeCasts_S512x1_S512 (ix1 r)
      + shapeCast S512 (extractStridedSlice S512x1 ![0, 9] g slices_S512x10_o0_9_S512x1) shapeCasts_S512x1_S512 (ix1 r)) (Ideal.ofBits .f32 0x3F800000#32)) = _
  rw [Columns.shapeCast_a1_a_apply, Columns.shapeCast_a1_a_apply,
    slice2_axis1_apply 8 g slices_S512x10_o0_8_S512x1 r (0 : Fin 1) (8 : Fin 10) (by simp),
    slice2_axis1_apply 9 g slices_S512x10_o0_9_S512x1 r (0 : Fin 1) (9 : Fin 10) (by simp)]

theorem hidV_apply (p : FVec Ideal S512x4 .bf16) (x3 : Vec Ideal S4x128 .f32) (x4 : Vec Ideal S128 .f32) (r : Fin 512) (h : Fin 128) :
    hidV p x3 x4 (ix2 r h) = max ((∑ k : Fin 4, p (ix2 r k) * x3 (ix2 k h)) + x4 (ix1 h)) (Ideal.ofBits .f32 0x00000000#32) := by
  unfold hidV
  show max (matmul dot_S512x4_S4x128_S512x128_1_0_0_1_n_n none p (truncf .bf16 x3 bitsLt_bf16_f32) (constant S512x128 .f32 0x00000000#32) (ix2 r h)
      + broadcastTo S512x128 (shapeCast S1x128 x4 shapeCasts_S128_S1x128) broadcasts_S1x128_S512x128 (ix2 r h)) (Ideal.ofBits .f32 0x00000000#32) = _
  rw [dotB_eq, PlainDot.matmul_zero_apply 512 4 128 none p (truncf .bf16 x3 bitsLt_bf16_f32) r h,
    broadcastTo_1b_ab_apply, shapeCast_a_1a_apply]
  rfl

theorem outV_apply (hd : FVec Ideal S512x128 .bf16) (x5 : Vec Ideal S128x64 .f32) (x6 : Vec Ideal S64 .f32) (r : Fin 512) (j : Fin 64) :
    outV hd x5 x6 (ix2 r j) = (∑ h : Fin 128, hd (ix2 r h) * x5 (ix2 h j)) + x6 (ix1 j) := by
  unfold outV
  show matmul dot_S512x128_S128x64_S512x64_1_0_0_1_n_n none hd (truncf .bf16 x5 bitsLt_bf16_f32) (constant S512x64 .f32 0x00000000#32) (ix2 r j)
      + broadcastTo S512x64 (shapeCast S1x64 x6 shapeCasts_S64_S1x64) broadcasts_S1x64_S512x64 (ix2 r j) = _
  rw [dotC_eq, PlainDot.matmul_zero_apply 512 128 64 none hd (truncf .bf16 x5 bitsLt_bf16_f32) r j,
    broadcastTo_1b_ab_apply, shapeCast_a_1a_apply]
  rfl

/-! ## The body's payload at an index -/

/-- The stored payload at row `r`, column `j` of the block is the row formula at the row's two id words. -/
theorem pay_apply (x0 x1 : Vec Ideal S512 .i32) (x2 : Vec Ideal S2048x10 .f32) (x3 : Vec Ideal S4x128 .f32) (x4 : Vec Ideal S128 .f32)
    (x5 : Vec Ideal S128x64 .f32) (x6 : Vec Ideal S64 .f32) (r : Fin 512) (j : Fin 64) :
    k1_pay1 (F := Ideal) (k1_pay2 x0 x1 x2 x3 x4) x5 x6 (ix2 r j) = oW (x0 (ix1 r)) (x1 (ix1 r)) x2 x3 x4 x5 x6 j := by
  rw [pay1_stage, pay2_stages, outV_apply]
  unfold oW hW pW gW
  simp only [hidV_apply, poolV_apply, gV_apply, ohV_apply]

/-! ## From the blocks to the array -/

/-- One grid point: when the two id blocks are rows `tv·512 …` of the id arrays, the payload at row `r` of the
    block is the specification at row `tv·512 + r` of the array. -/
theorem point_value (P0 P1 : (⟨1, ![16384]⟩ : Shape).Idx → BitVec 32) (tbl : (⟨2, ![2048, 10]⟩ : Shape).Idx → EReal)
    (W1 : (⟨2, ![4, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (tv : Nat) (ht : tv < 32) (x0 x1 : Vec Ideal S512 .i32)
    (h0 : ∀ r : Fin 512, x0 (ix1 r) = P0 (ix1 ⟨tv * 512 + r.val, by have := r.isLt; omega⟩))
    (h1 : ∀ r : Fin 512, x1 (ix1 r) = P1 (ix1 ⟨tv * 512 + r.val, by have := r.isLt; omega⟩))
    (r : Fin 512) (j : Fin 64) :
    k1_pay1 (F := Ideal) (k1_pay2 x0 x1 tbl W1 b1) W2 b2 (ix2 r j)
      = Cert.KSpec.edgeOut P0 P1 tbl W1 b1 W2 b2 (ix2 ⟨tv * 512 + r.val, by have := r.isLt; omega⟩ j) := by
  rw [pay_apply, edgeOut_eq_oW, h0, h1]

variable (V : (c : Dev nD) → (b : Ref sig .tc) → Buf (Elt Ideal) ((c : Thread nD τ).loc b))

/-- The printed index maps, decided over the 32 points: the id windows and the output move with the point, the
    other five windows stay at block zero. -/
theorem idx_facts1 : ∀ t : Fin cfg1.N,
    win1_0.index t (0 : Fin 1) = t.val ∧ win1_1.index t (0 : Fin 1) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- What the region's output array ends holding. -/
abbrev G1 (c : Dev nD) : (⟨2, ![16384, 64]⟩ : Shape).Idx → EReal :=
  Cert.KSpec.edgeOut (V c main_v34) (V c main_v35) (V c main_v33) (V c main_arg3) (V c main_arg4) (V c main_arg5) (V c main_arg6)

/-- Point `t` writes back block `t` of the specification's function of the input arrays. -/
theorem flushed1_7_eq (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7, out1_7_eq]
  obtain ⟨e0, e1, e20, e21, e30, e31, e4, e50, e51, e6, e70, e71⟩ := idx_facts1 t
  have ht : t.val < 32 := lt_of_lt_of_eq t.isLt N_1
  -- the five windows that never move hold their whole arrays
  have h2 : iblk1 V c 2 t = V c main_v33 := by
    funext y
    show V c main_v33 (((cfg1.win 2).blk t).view.emb y) = V c main_v33 y
    refine congrArg (V c main_v33) (funext fun a => Fin.ext ?_)
    match a with
    | ⟨0, _⟩ => show win1_2.index t (0 : Fin 2) * 2048 + 1 * (y 0).val = (y 0).val; omega
    | ⟨1, _⟩ => show win1_2.index t (1 : Fin 2) * 10 + 1 * (y 1).val = (y 1).val; omega
  have h3 : iblk1 V c 3 t = V c main_arg3 := by
    funext y
    show V c main_arg3 (((cfg1.win 3).blk t).view.emb y) = V c main_arg3 y
    refine congrArg (V c main_arg3) (funext fun a => Fin.ext ?_)
    match a with
    | ⟨0, _⟩ => show win1_3.index t (0 : Fin 2) * 4 + 1 * (y 0).val = (y 0).val; omega
    | ⟨1, _⟩ => show win1_3.index t (1 : Fin 2) * 128 + 1 * (y 1).val = (y 1).val; omega
  have h4 : iblk1 V c 4 t = V c main_arg4 := by
    funext y
    show V c main_arg4 (((cfg1.win 4).blk t).view.emb y) = V c main_arg4 y
    refine congrArg (V c main_arg4) (funext fun a => Fin.ext ?_)
    match a with
    | ⟨0, _⟩ => show win1_4.index t (0 : Fin 1) * 128 + 1 * (y 0).val = (y 0).val; omega
  have h5 : iblk1 V c 5 t = V c main_arg5 := by
    funext y
    show V c main_arg5 (((cfg1.win 5).blk t).view.emb y) = V c main_arg5 y
    refine congrArg (V c main_arg5) (funext fun a => Fin.ext ?_)
    match a with
    | ⟨0, _⟩ => show win1_5.index t (0 : Fin 2) * 128 + 1 * (y 0).val = (y 0).val; omega
    | ⟨1, _⟩ => show win1_5.index t (1 : Fin 2) * 64 + 1 * (y 1).val = (y 1).val; omega
  have h6 : iblk1 V c 6 t = V c main_arg6 := by
    funext y
    show V c main_arg6 (((cfg1.win 6).blk t).view.emb y) = V c main_arg6 y
    refine congrArg (V c main_arg6) (funext fun a => Fin.ext ?_)
    match a with
    | ⟨0, _⟩ => show win1_6.index t (0 : Fin 1) * 64 + 1 * (y 0).val = (y 0).val; omega
  -- the two id windows hold rows t·512 … of their arrays
  have h0 : ∀ r : Fin 512, (iblk1 V c 0 t : Vec Ideal S512 .i32) (ix1 r) = V c main_v34 (ix1 ⟨t.val * 512 + r.val, by have := r.isLt; omega⟩) := by
    intro r
    show V c main_v34 (((cfg1.win 0).blk t).view.emb (ix1 r)) = _
    refine congrArg (V c main_v34) (funext fun a => Fin.ext ?_)
    match a with
    | ⟨0, _⟩ => show win1_0.index t (0 : Fin 1) * 512 + 1 * r.val = t.val * 512 + r.val; omega
  have h1 : ∀ r : Fin 512, (iblk1 V c 1 t : Vec Ideal S512 .i32) (ix1 r) = V c main_v35 (ix1 ⟨t.val * 512 + r.val, by have := r.isLt; omega⟩) := by
    intro r
    show V c main_v35 (((cfg1.win 1).blk t).view.emb (ix1 r)) = _
    refine congrArg (V c main_v35) (funext fun a => Fin.ext ?_)
    match a with
    | ⟨0, _⟩ => show win1_1.index t (0 : Fin 1) * 512 + 1 * r.val = t.val * 512 + r.val; omega
  rw [h2, h3, h4, h5, h6]
  funext j
  obtain ⟨r, q, rfl⟩ : ∃ (r : Fin 512) (q : Fin 64), j = ix2 r q := ⟨j 0, j 1, eq_ix2 j⟩
  show k1_pay1 (F := Ideal) (k1_pay2 (iblk1 V c 0 t) (iblk1 V c 1 t) (V c main_v33) (V c main_arg3) (V c main_arg4)) (V c main_arg5) (V c main_arg6) (ix2 r q)
    = G1 V c (((cfg1.win 7).blk t).view.emb (ix2 r q))
  refine (point_value (V c main_v34) (V c main_v35) (V c main_v33) (V c main_arg3) (V c main_arg4) (V c main_arg5) (V c main_arg6)
    t.val ht (iblk1 V c 0 t) (iblk1 V c 1 t) h0 h1 r q).trans ?_
  refine congrArg (G1 V c) (funext fun a => Fin.ext ?_)
  match a with
  | ⟨0, _⟩ => show t.val * 512 + r.val = win1_7.index t (0 : Fin 2) * 512 + 1 * r.val; omega
  | ⟨1, _⟩ => show q.val = win1_7.index t (1 : Fin 2) * 64 + 1 * q.val; omega

/-- An index of the output array is in point `t`'s block iff each coordinate is in the block's range on its axis. -/
theorem mem_blk1_7 (t : Fin cfg1.N) (i : S16384x64.Idx) :
    i ∈ ((cfg1.win 7).blk t).view.set ↔ ∀ a : Fin 2, win1_7.index t a * S512x64.size a ≤ (i a).val ∧ (i a).val < win1_7.index t a * S512x64.size a + S512x64.size a := by
  show i ∈ ((View.whole main_v36).slice (win1_7.rect t)).set ↔ _
  rw [View.set_slice_whole, Rect.mem_set_unit]
  exact Iff.rfl

/-- Every index of the output array is in some point's block: row `e` in point `e / 512`'s. -/
theorem cover1_7_arr (i : S16384x64.Idx) :
    ∃ t : Fin cfg1.N, (cfg1.win 7).flush t = true ∧ i ∈ ((cfg1.win 7).blk t).view.set := by
  have hi0 : (i 0).val < 16384 := (i 0).isLt
  have hi1 : (i 1).val < 64 := (i 1).isLt
  have hN : (i 0).val / 512 < cfg1.N := lt_of_lt_of_eq (by omega : (i 0).val / 512 < 32) N_1.symm
  refine ⟨⟨(i 0).val / 512, hN⟩, flush1_7 _, ?_⟩
  obtain ⟨e0, e1, e20, e21, e30, e31, e4, e50, e51, e6, e70, e71⟩ := idx_facts1 ⟨(i 0).val / 512, hN⟩
  rw [mem_blk1_7]
  intro a
  match a with
  | ⟨0, _⟩ =>
    show win1_7.index ⟨(i 0).val / 512, hN⟩ (0 : Fin 2) * 512 ≤ (i 0).val ∧ (i 0).val < win1_7.index ⟨(i 0).val / 512, hN⟩ (0 : Fin 2) * 512 + 512
    rw [e70]; show (i 0).val / 512 * 512 ≤ (i 0).val ∧ (i 0).val < (i 0).val / 512 * 512 + 512; omega
  | ⟨1, _⟩ =>
    show win1_7.index ⟨(i 0).val / 512, hN⟩ (1 : Fin 2) * 64 ≤ (i 1).val ∧ (i 1).val < win1_7.index ⟨(i 0).val / 512, hN⟩ (1 : Fin 2) * 64 + 64
    rw [e71]; omega

end R1V

open R1V

variable (V : (c : Dev nD) → (b : Ref sig .tc) → Buf (Elt Ideal) ((c : Thread nD τ).loc b))

/-- THE ARRAY after the region: the specification's function of the seven input arrays. -/
theorem arr1_final (c : Dev nD) :
    ((dat1 (F := Ideal) V c).arrAt 7 cfg1.N : S16384x64.Idx → EReal)
      = Cert.KSpec.edgeOut (V c main_v34) (V c main_v35) (V c main_v33) (V c main_arg3) (V c main_arg4) (V c main_arg5) (V c main_arg6) :=
  (dat1 (F := Ideal) V c).arrAt_eq_of_cover 7 (G1 V c) (fun t _ => flushed1_7_eq V c t) (cover1_7_arr)

end Cert.KernelIdeal.Hand

end
-- ==== Proof.LibScatterRead.lean ====
/-
  Reading a scatter whose body returns the update ("set") at an index.

  `Host.scatter d (fun _ b => b) x idx upd` is a left fold of point updates over the update indices in row-major
  order.  At a result index that no update index lands on, the fold leaves the operand's element; at a result index
  that exactly one update index lands on, it leaves that update's element, wherever in the order it stands.
  The element type is arbitrary: the same two facts read a float array and a boolean mask.
-/
import Idealize.ShloMosaic.PureOps.ShapeOps

namespace Cert.LibScatterRead

open Idealize.ShloMosaic

variable {s si u : Shape} {w : Nat} {α : Type}

/-- One step of the fold: the point update of update number `n`. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update lands elsewhere (or nowhere) leaves the element at `i'`. -/
theorem step_miss (d : ScatterDims s si u) (idx : IVec si w) (upd : u.Idx → α) (r : s.Idx → α) (n : Fin u.numel)
    (i' : s.Idx) (h : d.resultIdx? (u.rowMajor.symm n) idx ≠ some i') : step d idx upd r n i' = r i' := by
  unfold step
  cases hr : d.resultIdx? (u.rowMajor.symm n) idx with
  | none => rfl
  | some i =>
    have hne : i' ≠ i := fun e => h (by rw [hr, e])
    simp only [if_neg hne]

/-- A step whose update lands at `i'` leaves the update's element there. -/
theorem step_hit (d : ScatterDims s si u) (idx : IVec si w) (upd : u.Idx → α) (r : s.Idx → α) (n : Fin u.numel)
    (i' : s.Idx) (h : d.resultIdx? (u.rowMajor.symm n) idx = some i') :
    step d idx upd r n i' = upd (u.rowMajor.symm n) := by
  unfold step
  rw [h]
  exact if_pos rfl

theorem foldl_miss (d : ScatterDims s si u) (idx : IVec si w) (upd : u.Idx → α) (i' : s.Idx) :
    ∀ (l : List (Fin u.numel)) (r : s.Idx → α), (∀ n ∈ l, d.resultIdx? (u.rowMajor.symm n) idx ≠ some i') →
      l.foldl (step d idx upd) r i' = r i'
  | [], _, _ => rfl
  | a :: t, r, h => by
    rw [List.foldl_cons, foldl_miss d idx upd i' t _ (fun n hn => h n (List.mem_cons_of_mem _ hn)),
      step_miss d idx upd r a i' (h a List.mem_cons_self)]

theorem foldl_hit (d : ScatterDims s si u) (idx : IVec si w) (upd : u.Idx → α) (i' : s.Idx) (n0 : Fin u.numel)
    (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (step d idx upd) r i' = upd (u.rowMajor.symm n0)
  | [], _, hm, _ => absurd hm List.not_mem_nil
  | a :: t, r, hm, hu => by
    rw [List.foldl_cons]
    by_cases ht : n0 ∈ t
    · exact foldl_hit d idx upd i' n0 h0 t _ ht (fun n hn => hu n (List.mem_cons_of_mem _ hn))
    · have ha : a = n0 := by
        rcases List.mem_cons.1 hm with e | e
        · exact e.symm
        · exact absurd e ht
      rw [foldl_miss d idx upd i' t _ (fun n hn e => ht (hu n (List.mem_cons_of_mem _ hn) e ▸ hn)), ha,
        step_hit d idx upd r n0 i' h0]

/-- At a result index no update lands on, the scatter leaves the operand's element. -/
theorem scatter_set_miss (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  rw [scatter_eq_foldl]
  exact foldl_miss d idx upd i' _ x (fun n _ => h _)

/-- At a result index exactly one update index `j` lands on, the scatter leaves that update's element. -/
theorem scatter_set_hit (d : ScatterDims s si u) (x : s.Idx → α) (idx : IVec si w) (upd : u.Idx → α) (i' : s.Idx)
    (j : u.Idx) (hj : d.resultIdx? j idx = some i') (huniq : ∀ j' : u.Idx, d.resultIdx? j' idx = some i' → j' = j) :
    Host.scatter d (fun _ b => b) x idx upd i' = upd j := by
  rw [scatter_eq_foldl]
  have h0 : d.resultIdx? (u.rowMajor.symm (u.rowMajor j)) idx = some i' := by rw [Equiv.symm_apply_apply]; exact hj
  have := foldl_hit d idx upd i' (u.rowMajor j) h0 (List.finRange u.numel) x (List.mem_finRange _)
    (fun n _ e => by
      have := huniq _ e
      rw [← this, Equiv.apply_symm_apply])
  rw [this, Equiv.symm_apply_apply]

/-- Update index `j` lands at `i'` exactly when on every axis `i'` is the start plus the window coordinate. -/
theorem resultIdx?_eq_some_iff (d : ScatterDims s si u) (j : u.Idx) (idx : IVec si w) (i' : s.Idx) :
    d.resultIdx? j idx = some i' ↔ ∀ a, ((i' a).val : Int) = d.start j idx a + d.window j a := by
  unfold ScatterDims.resultIdx?
  split
  · rename_i h
    rw [Option.some.injEq]
    constructor
    · rintro rfl a
      have := (h a).1
      simp only [Int.toNat_of_nonneg this]
    · intro hi
      funext a
      apply Fin.ext
      have := hi a
      simp only
      omega
  · rename_i h
    constructor
    · intro hh; cases hh
    · intro hi
      exfalso
      apply h
      intro a
      have := hi a
      have := (i' a).isLt
      omega

end Cert.LibScatterRead
-- ==== Proof.KIHost.lean ====
/-
  The kernel program's host glue read at an index, over the extended reals.

  Before region 0 the voxel rows are padded with zero rows to 2000896 rows and column 0 is set to one by a scatter with
  a single start index (column 0) whose update runs along the rows; the ids are padded with the word 2048.  A "set"
  scatter leaves, at a place no update lands on, the operand's element, and at a place exactly one update lands on,
  that update's element; update `j` lands at row `j` of column 0 and nowhere else.

  Between the regions the two halves of region 0's result are added and transposed to (lane, column); column 0 is the
  count `n` and columns 1 to 4 are the feature sums `s`.  Narrowing and widening are the identity over the extended
  reals, so the four pieces laid side by side are `s`, `s - s`, `n - 256 * floor (n / 256)` and `256 * floor (n / 256)`.
  A concatenation read at an index is the piece whose span of columns holds the index's column.  The two rows of the
  edge ids are cut out, flattened and padded with the word 2048 to 16384.

  After region 1 the result is its first 16000 rows.  No stretch writes an argument array.
-/
import proofs.«408049_j17463337026110_3_alg».proof.Proof.Gen.KernelIdeal.Regions
import proofs.«408049_j17463337026110_3_alg».proof.Proof.KSpec
import proofs.«408049_j17463337026110_3_alg».proof.Proof.LibScatterRead
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (outs : Outs (F := Ideal))

/-! ## Before region 0: the padded voxel rows with the ones column, and the padded ids -/

/-- The scatter's dimension numbers: one start index, read along the column axis; the update's one axis is the row axis. -/
abbrev sc0 := scatter_S2000896x5_S1_S2000896_0_1_1_0

/-- On the row axis the window starts at 0: the start index names the column axis only. -/
theorem sc_start0 (j : S2000896.Idx) (idx : IVec S1 32) : sc0.start j idx (0 : Fin 2) = 0 := by
  unfold ScatterDims.start
  rw [dif_neg (by decide)]

/-- On the column axis the window starts at the one start index, which is the word 0. -/
theorem sc_start1 (j : S2000896.Idx) : sc0.start j (broadcastInDim S1 ![] bcast_S_S1 (constantI S_ 32 0#32)) (1 : Fin 2) = 0 := by
  unfold ScatterDims.start
  rw [dif_pos (by decide), broadcastInDim_scalar_apply, constantI_apply]
  rfl

/-- The update's coordinate is the window coordinate on the row axis. -/
theorem sc_window0 (j : S2000896.Idx) : sc0.window j (0 : Fin 2) = (j 0).val := by
  unfold ScatterDims.window
  rw [dif_pos (by decide)]
  rfl

/-- The column axis is inserted: window coordinate 0. -/
theorem sc_window1 (j : S2000896.Idx) : sc0.window j (1 : Fin 2) = 0 := by
  unfold ScatterDims.window
  rw [dif_neg (by decide)]

/-- Update index `j` lands at `i` exactly when `i` is row `j` of column 0. -/
theorem sc_lands (j : S2000896.Idx) (i : S2000896x5.Idx) :
    sc0.resultIdx? j (broadcastInDim S1 ![] bcast_S_S1 (constantI S_ 32 0#32)) = some i ↔ (i 0).val = (j 0).val ∧ (i 1).val = 0 := by
  rw [Cert.LibScatterRead.resultIdx?_eq_some_iff]
  constructor
  · intro h
    have h0 := h (0 : Fin 2)
    have h1 := h (1 : Fin 2)
    rw [sc_start0, sc_window0] at h0
    rw [sc_start1, sc_window1] at h1
    constructor <;> omega
  · rintro ⟨h0, h1⟩ a
    match a with
    | ⟨0, _⟩ =>
      show (((i 0).val : Nat) : Int) = sc0.start j _ (0 : Fin 2) + ((sc0.window j (0 : Fin 2) : Nat) : Int)
      rw [sc_start0, sc_window0]; omega
    | ⟨1, _⟩ =>
      show (((i 1).val : Nat) : Int) = sc0.start j _ (1 : Fin 2) + ((sc0.window j (1 : Fin 2) : Nat) : Int)
      rw [sc_start1, sc_window1]; omega

/-- The padded voxel rows with column 0 set to one, as the composition of the host operations. -/
theorem e_v7 (c : Dev nD) : (V4 m c main_v7 : S2000896x5.Idx → EReal) =
    Host.scatter scatter_S2000896x5_S1_S2000896_0_1_1_0 (fun _ b => b)
      (pad S2000896x5 ![0, 0] ![896, 0] ![0, 0] (m ((c : Thread nD τ).loc main_arg0) : S2000000x5.Idx → EReal)
        (sitofp .f32 (constantI S_ 32 0#32) : FVec Ideal S_ .f32) pads_S2000000x5_S2000896x5_08960_000 h_S_)
      (broadcastInDim S1 ![] bcast_S_S1 (constantI S_ 32 0#32))
      (broadcastInDim S2000896 ![] bcast_S_S2000896 (constant (F := Ideal) S_ .f32 0x3F800000#32)) := by
  dsimp only [V4, V3, V2, V1, V0]
  simp only [hostOps0, hostOps0_1, hostOps0_2, hostOps0_3]
  after_results
  rfl

/-- The padded ids, as the composition of the host operations. -/
theorem e_v8 (c : Dev nD) : (V4 m c main_v8 : S2000896.Idx → BitVec 32) =
    pad S2000896 ![0] ![896] ![0] (m ((c : Thread nD τ).loc main_arg1) : S2000000.Idx → BitVec 32) (constantI S_ 32 2048#32)
      pads_S2000000_S2000896_08960 h_S_ := by
  dsimp only [V4, V3, V2, V1, V0]
  simp only [hostOps0, hostOps0_1, hostOps0_2, hostOps0_3]
  after_results
  rfl

/-- Region 0's first operand: column 0 is one everywhere, the other columns are the voxel rows followed by zero rows. -/
theorem V4_v7 (c : Dev nD) : (V4 m c main_v7 : S2000896x5.Idx → EReal) = Cert.KSpec.dataPad (m ((c : Thread nD τ).loc main_arg0)) := by
  rw [e_v7]
  funext i
  unfold Cert.KSpec.dataPad
  by_cases h1 : (i 1).val = 0
  · rw [if_pos h1]
    rw [Cert.LibScatterRead.scatter_set_hit sc0 _ _ _ i (ix1 (i 0)) ((sc_lands _ _).2 ⟨rfl, h1⟩)
      (fun j' hj' => by
        have := ((sc_lands _ _).1 hj').1
        exact (eq_ix1 j').trans (congrArg (fun z : Fin 2000896 => (ix1 z : S2000896.Idx)) (Fin.ext this.symm : j' 0 = i 0)))]
    rw [broadcastInDim_scalar_apply, constant_apply]
    exact Ideal.ofBits_one_f32
  · rw [if_neg h1]
    rw [Cert.LibScatterRead.scatter_set_miss sc0 _ _ _ i (fun j hj => h1 ((sc_lands _ _).1 hj).2)]
    by_cases h0 : (i 0).val < 2000000
    · rw [dif_pos h0]
      exact pad_apply_of_inside _ _ _ _ _ _ _ i (ix2 ⟨(i 0).val, h0⟩ (i 1)) (fun a => match a with
        | ⟨0, _⟩ => by show (i 0).val = 0 + (i 0).val * (0 + 1); omega
        | ⟨1, _⟩ => by show (i 1).val = 0 + (i 1).val * (0 + 1); omega)
    · rw [dif_neg h0]
      refine (pad_apply_of_not_inside _ _ _ _ _ _ _ i (0 : Fin 2) ?_).trans ?_
      · intro hh
        have h3 : ((i 0).val - 0) / (0 + 1) < 2000000 := hh.2.2
        simp only [Nat.sub_zero, Nat.zero_add, Nat.div_one] at h3
        exact h0 h3
      · rw [sitofp_apply, constantI_apply]
        exact sitofp_zero (φ := .f32)

/-- Region 0's second operand: the ids followed by the word 2048. -/
theorem V4_v8 (c : Dev nD) : (V4 m c main_v8 : S2000896.Idx → BitVec 32) = Cert.KSpec.cidPad (m ((c : Thread nD τ).loc main_arg1)) := by
  rw [e_v8]
  funext i
  unfold Cert.KSpec.cidPad
  by_cases h0 : (i 0).val < 2000000
  · rw [dif_pos h0]
    exact pad_apply_of_inside _ _ _ _ _ _ _ i (ix1 ⟨(i 0).val, h0⟩) (fun a => match a with
      | ⟨0, _⟩ => by show (i 0).val = 0 + (i 0).val * (0 + 1); omega)
  · rw [dif_neg h0]
    refine (pad_apply_of_not_inside _ _ _ _ _ _ _ i (0 : Fin 1) ?_).trans (constantI_apply _ _)
    intro hh
    have h3 : ((i 0).val - 0) / (0 + 1) < 2000000 := hh.2.2
    simp only [Nat.sub_zero, Nat.zero_add, Nat.div_one] at h3
    exact h0 h3

/-! ## Between the regions: the table of ten columns -/

section Table

/-- The two halves of region 0's result added: (column, lane). -/
def hsum (x : S2x5x2048.Idx → EReal) : FVec Ideal S5x2048 .f32 :=
  addf (shapeCast S5x2048 (extractStridedSlice S1x5x2048 ![0, 0, 0] x slices_S2x5x2048_S1x5x2048_0_0_0) shapeCasts_S1x5x2048_S5x2048)
    (shapeCast S5x2048 (extractStridedSlice S1x5x2048 ![1, 0, 0] x slices_S2x5x2048_S1x5x2048_1_0_0) shapeCasts_S1x5x2048_S5x2048)

/-- The sums transposed: (lane, column). -/
def lanes (x : S2x5x2048.Idx → EReal) : FVec Ideal S2048x5 .f32 :=
  transpose S2048x5 [1, 0] (hsum x) transposes_S5x2048_S2048x5_1_0

/-- Column 0: the count of each lane. -/
def cnt (x : S2x5x2048.Idx → EReal) : FVec Ideal S2048 .f32 :=
  shapeCast S2048 (extractStridedSlice S2048x1 ![0, 0] (lanes x) slices_S2048x5_S2048x1_0_0) shapeCasts_S2048x1_S2048

/-- Columns 1 to 4: the feature sums of each lane. -/
def feat (x : S2x5x2048.Idx → EReal) : FVec Ideal S2048x4 .f32 :=
  extractStridedSlice S2048x4 ![0, 1] (lanes x) slices_S2048x5_S2048x4_0_1

/-- The feature sums narrowed (over the extended reals: unchanged). -/
def featHi (x : S2x5x2048.Idx → EReal) : FVec Ideal S2048x4 .bf16 := truncf .bf16 (feat x) bitsLt_bf16_f32

/-- What the narrowing lost, narrowed (over the extended reals: the sums less themselves). -/
def featLo (x : S2x5x2048.Idx → EReal) : FVec Ideal S2048x4 .bf16 :=
  truncf .bf16 (subf (feat x) (extf .f32 (featHi x) bitsLt_bf16_f32)) bitsLt_bf16_f32

/-- The multiple of 256 below each count. -/
def cntHi (x : S2x5x2048.Idx → EReal) : FVec Ideal S2048 .f32 :=
  mulf (Host.floor (Host.divf (cnt x) (broadcastInDim S2048 ![] bcast_S_S2048 (constant (F := Ideal) S_ .f32 0x43800000#32))))
    (broadcastInDim S2048 ![] bcast_S_S2048 (constant (F := Ideal) S_ .f32 0x43800000#32))

/-- Each count less that multiple. -/
def cntLo (x : S2x5x2048.Idx → EReal) : FVec Ideal S2048 .f32 := subf (cnt x) (cntHi x)

/-- The four pieces side by side: ten columns. -/
def tbl (x : S2x5x2048.Idx → EReal) : FVec Ideal S2048x10 .f32 :=
  concatenate S2048x10 1
    [⟨S2048x4, (extf .f32 (featHi x) bitsLt_bf16_f32 : FVec Ideal S2048x4 .f32)⟩,
     ⟨S2048x4, (extf .f32 (featLo x) bitsLt_bf16_f32 : FVec Ideal S2048x4 .f32)⟩,
     ⟨S2048x1, (broadcastInDim S2048x1 ![0] bcast_S2048_S2048x1_0 (cntLo x) : FVec Ideal S2048x1 .f32)⟩,
     ⟨S2048x1, (broadcastInDim S2048x1 ![0] bcast_S2048_S2048x1_0 (cntHi x) : FVec Ideal S2048x1 .f32)⟩]
    concatenates_S2048x4_S2048x4_S2048x1_S2048x1_S2048x10_d1

variable (W : Valuation τ sig (Elt Ideal))

/-- The stretch after region 0 leaves in the table's buffer the four pieces of whatever region 0's buffer held. -/
theorem e_v33 : (StableHlo.after hostOps1 W main_v33 : S2048x10.Idx → EReal) = tbl (W main_v9 : S2x5x2048.Idx → EReal) := by
  simp only [hostOps1]
  after_results
  rfl

end Table

section TableRead

variable (x : S2x5x2048.Idx → EReal)

/-- Column `j`, lane `l` of the added halves. -/
theorem hsum_apply (j : Fin 5) (l : Fin 2048) : hsum x (ix2 j l) = x (ix3 0 j l) + x (ix3 1 j l) := by
  unfold hsum
  rw [addf_apply, shapeCast_1ab_ab_apply, shapeCast_1ab_ab_apply]
  rw [extractStridedSlice_apply ![0, 0, 0] x slices_S2x5x2048_S1x5x2048_0_0_0 (ix3 (0 : Fin 1) j l) (ix3 (0 : Fin 2) j l) (fun a => match a with
      | ⟨0, _⟩ => rfl
      | ⟨1, _⟩ => by show j.val = 0 + j.val; omega
      | ⟨2, _⟩ => by show l.val = 0 + l.val; omega)]
  rw [extractStridedSlice_apply ![1, 0, 0] x slices_S2x5x2048_S1x5x2048_1_0_0 (ix3 (0 : Fin 1) j l) (ix3 (1 : Fin 2) j l) (fun a => match a with
      | ⟨0, _⟩ => rfl
      | ⟨1, _⟩ => by show j.val = 0 + j.val; omega
      | ⟨2, _⟩ => by show l.val = 0 + l.val; omega)]

/-- Lane `l`, column `j`: the two halves' sums added. -/
theorem lanes_both (l : Fin 2048) (j : Fin 5) : lanes x (ix2 l j) = Cert.KSpec.both x l j := by
  unfold lanes
  rw [transpose_ix2_apply, hsum_apply]
  rfl

/-- The count of lane `l` is column 0 of the added halves. -/
theorem cnt_both (l : Fin 2048) : cnt x (ix1 l) = Cert.KSpec.both x l 0 := by
  unfold cnt
  rw [shapeCast_apply _ shapeCasts_S2048x1_S2048 (ix1 l) (ix2 l (0 : Fin 1)) (by
    rw [Shape.rowMajor_val_two, Shape.rowMajor_val_one]; show l.val * 1 + 0 = l.val; omega)]
  rw [extractStridedSlice_apply ![0, 0] _ slices_S2048x5_S2048x1_0_0 (ix2 l (0 : Fin 1)) (ix2 l (0 : Fin 5)) (fun a => match a with
      | ⟨0, _⟩ => by show l.val = 0 + l.val; omega
      | ⟨1, _⟩ => rfl)]
  exact lanes_both x l 0

/-- Feature `k` of lane `l` is column `k + 1` of the added halves. -/
theorem feat_both (l : Fin 2048) (k : Fin 4) (k' : Fin 5) (hk : k'.val = 1 + k.val) : feat x (ix2 l k) = Cert.KSpec.both x l k' := by
  unfold feat
  rw [slice2_axis1_apply 1 _ _ l k k' hk]
  exact lanes_both x l k'

/-- The multiple of 256 below lane `l`'s count. -/
theorem cntHi_apply (l : Fin 2048) : cntHi x (ix1 l) = Cert.KSpec.countHi (Cert.KSpec.both x l 0) := by
  unfold cntHi Cert.KSpec.countHi
  rw [mulf_apply]
  show Ideal.liftRound Int.floor (Ideal.div (cnt x (ix1 l))
      (broadcastInDim S2048 ![] bcast_S_S2048 (constant (F := Ideal) S_ .f32 0x43800000#32) (ix1 l)))
    * (broadcastInDim S2048 ![] bcast_S_S2048 (constant (F := Ideal) S_ .f32 0x43800000#32) (ix1 l)) = _
  rw [broadcastInDim_scalar_apply, constant_apply, cnt_both]

/-- Lane `l`'s count less that multiple. -/
theorem cntLo_apply (l : Fin 2048) : cntLo x (ix1 l) = Cert.KSpec.both x l 0 - Cert.KSpec.countHi (Cert.KSpec.both x l 0) := by
  unfold cntLo
  rw [subf_apply, cnt_both, cntHi_apply]

/-- A lane's vector as a one-column matrix reads the vector at the lane. -/
theorem col_apply (v : FVec Ideal S2048 .f32) (l : Fin 2048) (z : Fin 1) :
    broadcastInDim S2048x1 ![0] bcast_S2048_S2048x1_0 v (ix2 l z) = v (ix1 l) :=
  broadcastInDim_apply _ _ v _ (ix1 l) (fun a => match a with | ⟨0, _⟩ => rfl)

/-- Four pieces of widths 4, 4, 1, 1 side by side, read at an index: the piece whose columns hold the index's column. -/
theorem cat4_A (A B : S2048x4.Idx → EReal) (C D : S2048x1.Idx → EReal) (i : S2048x10.Idx) (h : (i 1).val < 4) :
    concatenate S2048x10 1 [⟨S2048x4, A⟩, ⟨S2048x4, B⟩, ⟨S2048x1, C⟩, ⟨S2048x1, D⟩]
      concatenates_S2048x4_S2048x4_S2048x1_S2048x1_S2048x10_d1 i = A (ix2 (i 0) ⟨(i 1).val, h⟩) :=
  concatenate_apply_piece (1 : Fin 2) [⟨S2048x4, A⟩, ⟨S2048x4, B⟩, ⟨S2048x1, C⟩, ⟨S2048x1, D⟩] _ i 0 (by show 0 < 4; omega)
    S2048x4 A rfl rfl 0 rfl (ix2 (i 0) ⟨(i 1).val, h⟩)
    (fun b hb => match b with
      | ⟨0, _⟩ => rfl
      | ⟨1, _⟩ => absurd rfl hb)
    (by show 0 + (i 1).val = (i 1).val; omega)

/-- Columns 4 to 7 read the second piece. -/
theorem cat4_B (A B : S2048x4.Idx → EReal) (C D : S2048x1.Idx → EReal) (i : S2048x10.Idx) (h4 : 4 ≤ (i 1).val) (h : (i 1).val < 8) :
    concatenate S2048x10 1 [⟨S2048x4, A⟩, ⟨S2048x4, B⟩, ⟨S2048x1, C⟩, ⟨S2048x1, D⟩]
      concatenates_S2048x4_S2048x4_S2048x1_S2048x1_S2048x10_d1 i = B (ix2 (i 0) ⟨(i 1).val - 4, by omega⟩) :=
  concatenate_apply_piece (1 : Fin 2) [⟨S2048x4, A⟩, ⟨S2048x4, B⟩, ⟨S2048x1, C⟩, ⟨S2048x1, D⟩] _ i 1 (by show 1 < 4; omega)
    S2048x4 B rfl rfl 4 rfl (ix2 (i 0) ⟨(i 1).val - 4, by omega⟩)
    (fun b hb => match b with
      | ⟨0, _⟩ => rfl
      | ⟨1, _⟩ => absurd rfl hb)
    (by show 4 + ((i 1).val - 4) = (i 1).val; omega)

/-- Column 8 reads the third piece. -/
theorem cat4_C (A B : S2048x4.Idx → EReal) (C D : S2048x1.Idx → EReal) (i : S2048x10.Idx) (h : (i 1).val = 8) :
    concatenate S2048x10 1 [⟨S2048x4, A⟩, ⟨S2048x4, B⟩, ⟨S2048x1, C⟩, ⟨S2048x1, D⟩]
      concatenates_S2048x4_S2048x4_S2048x1_S2048x1_S2048x10_d1 i = C (ix2 (i 0) (0 : Fin 1)) :=
  concatenate_apply_piece (1 : Fin 2) [⟨S2048x4, A⟩, ⟨S2048x4, B⟩, ⟨S2048x1, C⟩, ⟨S2048x1, D⟩] _ i 2 (by show 2 < 4; omega)
    S2048x1 C rfl rfl 8 rfl (ix2 (i 0) (0 : Fin 1))
    (fun b hb => match b with
      | ⟨0, _⟩ => rfl
      | ⟨1, _⟩ => absurd rfl hb)
    (by show 8 + 0 = (i 1).val; omega)

/-- Column 9 reads the fourth piece. -/
theorem cat4_D (A B : S2048x4.Idx → EReal) (C D : S2048x1.Idx → EReal) (i : S2048x10.Idx) (h : (i 1).val = 9) :
    concatenate S2048x10 1 [⟨S2048x4, A⟩, ⟨S2048x4, B⟩, ⟨S2048x1, C⟩, ⟨S2048x1, D⟩]
      concatenates_S2048x4_S2048x4_S2048x1_S2048x1_S2048x10_d1 i = D (ix2 (i 0) (0 : Fin 1)) :=
  concatenate_apply_piece (1 : Fin 2) [⟨S2048x4, A⟩, ⟨S2048x4, B⟩, ⟨S2048x1, C⟩, ⟨S2048x1, D⟩] _ i 3 (by show 3 < 4; omega)
    S2048x1 D rfl rfl 9 rfl (ix2 (i 0) (0 : Fin 1))
    (fun b hb => match b with
      | ⟨0, _⟩ => rfl
      | ⟨1, _⟩ => absurd rfl hb)
    (by show 9 + 0 = (i 1).val; omega)

/-- Columns 0 to 3: the feature sums. -/
theorem tbl_apply_A (i : S2048x10.Idx) (h : (i 1).val < 4) :
    tbl x i = Cert.KSpec.both x (i 0) ⟨(i 1).val + 1, by omega⟩ := by
  unfold tbl
  refine (cat4_A _ _ _ _ i h).trans ?_
  · rw [extf_apply]; unfold featHi; rw [truncf_apply]
    exact feat_both x (i 0) ⟨(i 1).val, h⟩ ⟨(i 1).val + 1, by omega⟩ (by show (i 1).val + 1 = 1 + (i 1).val; omega)

/-- Columns 4 to 7: the feature sums less themselves. -/
theorem tbl_apply_B (i : S2048x10.Idx) (h4 : 4 ≤ (i 1).val) (h : (i 1).val < 8) :
    tbl x i = Cert.KSpec.both x (i 0) ⟨(i 1).val - 3, by omega⟩ - Cert.KSpec.both x (i 0) ⟨(i 1).val - 3, by omega⟩ := by
  unfold tbl
  refine (cat4_B _ _ _ _ i h4 h).trans ?_
  · rw [extf_apply]; unfold featLo; rw [truncf_apply, subf_apply, extf_apply]; unfold featHi; rw [truncf_apply]
    rw [feat_both x (i 0) ⟨(i 1).val - 4, by omega⟩ ⟨(i 1).val - 3, by omega⟩ (by show (i 1).val - 3 = 1 + ((i 1).val - 4); omega)]

/-- Column 8: the count less its multiple of 256. -/
theorem tbl_apply_C (i : S2048x10.Idx) (h : (i 1).val = 8) :
    tbl x i = Cert.KSpec.both x (i 0) 0 - Cert.KSpec.countHi (Cert.KSpec.both x (i 0) 0) := by
  unfold tbl
  refine (cat4_C _ _ _ _ i h).trans ?_
  · exact (col_apply (cntLo x) (i 0) 0).trans (cntLo_apply x (i 0))

/-- Column 9: the count's multiple of 256. -/
theorem tbl_apply_D (i : S2048x10.Idx) (h : (i 1).val = 9) :
    tbl x i = Cert.KSpec.countHi (Cert.KSpec.both x (i 0) 0) := by
  unfold tbl
  refine (cat4_D _ _ _ _ i h).trans ?_
  · exact (col_apply (cntHi x) (i 0) 0).trans (cntHi_apply x (i 0))

/-- The four pieces side by side are the table of ten columns. -/
theorem tbl_eq : tbl x = Cert.KSpec.table10 x := by
  funext i
  unfold Cert.KSpec.table10
  dsimp only
  by_cases hA : (i 1).val < 4
  · rw [dif_pos hA]; exact tbl_apply_A x i hA
  · rw [dif_neg hA]
    by_cases hB : (i 1).val < 8
    · rw [dif_pos hB]; exact tbl_apply_B x i (by omega) hB
    · rw [dif_neg hB]
      by_cases hC : (i 1).val = 8
      · rw [if_pos hC]; exact tbl_apply_C x i hC
      · rw [if_neg hC]; exact tbl_apply_D x i (by have h9 : (i 1).val < 10 := (i 1).isLt; omega)

end TableRead

/-! ## The table, the padded edge ids and the weights at region 1's entry; the result cut to 16000 rows -/

/-- Region 1's table operand: the ten columns of region 0's result, whatever that is. -/
theorem V9_v33 (c : Dev nD) : (V9 m outs c main_v33 : S2048x10.Idx → EReal) = Cert.KSpec.table10 (outs 5 main_v9 c) := by
  have h6 : V9 m outs c main_v33 = V6 m outs c main_v33 :=
    (V9_of m outs c main_v33 (by decide)).trans <| (V8_of m outs c main_v33 (by decide)).trans (V7_of m outs c main_v33 (by decide))
  have h5 : (V5 m outs c main_v9 : S2x5x2048.Idx → EReal) = outs 5 main_v9 c := Function.update_self _ _ _
  rw [h6]
  show (StableHlo.after hostOps1 (V5 m outs c) main_v33 : S2048x10.Idx → EReal) = _
  rw [e_v33, h5, tbl_eq]

section EdgeIds

variable (W : Valuation τ sig (Elt Ideal))

/-- Row 0 of the edge ids cut out and flattened, as the composition of the first stretch's operations. -/
theorem e_v1 (c : Dev nD) : (V1 m c main_v1 : S16000.Idx → BitVec 32) =
    shapeCast S16000 (extractStridedSlice S1x16000 ![0, 0] (m ((c : Thread nD τ).loc main_arg2) : S2x16000.Idx → BitVec 32) slices_S2x16000_S1x16000_0_0)
      shapeCasts_S1x16000_S16000 := by
  dsimp only [V1, V0]
  simp only [hostOps0]
  after_results
  rfl

/-- Row 1 of the edge ids cut out and flattened, likewise. -/
theorem e_v3 (c : Dev nD) : (V1 m c main_v3 : S16000.Idx → BitVec 32) =
    shapeCast S16000 (extractStridedSlice S1x16000 ![1, 0] (m ((c : Thread nD τ).loc main_arg2) : S2x16000.Idx → BitVec 32) slices_S2x16000_S1x16000_1_0)
      shapeCasts_S1x16000_S16000 := by
  dsimp only [V1, V0]
  simp only [hostOps0]
  after_results
  rfl

/-- The pad value of the first id row: the word 2048. -/
theorem e_c4 : (StableHlo.after hostOps1 W main_c_4 : S_.Idx → BitVec 32) = constantI S_ 32 2048#32 := by
  simp only [hostOps1]
  after_results

/-- The first id row padded, over whatever the stretch finds in its operands. -/
theorem e_v34 : (StableHlo.after hostOps1_1 W main_v34 : S16384.Idx → BitVec 32) =
    pad S16384 ![0] ![384] ![0] (W main_v1 : S16000.Idx → BitVec 32) (W main_c_4 : S_.Idx → BitVec 32) pads_S16000_S16384_03840 h_S_ := by
  simp only [hostOps1_1]
  after_results
  rfl

/-- The pad value of the second id row: the word 2048. -/
theorem e_c5 : (StableHlo.after hostOps1_2 W main_c_5 : S_.Idx → BitVec 32) = constantI S_ 32 2048#32 := by
  simp only [hostOps1_2]
  after_results

/-- The second id row padded, over whatever the stretch finds in its operands. -/
theorem e_v35 : (StableHlo.after hostOps1_3 W main_v35 : S16384.Idx → BitVec 32) =
    pad S16384 ![0] ![384] ![0] (W main_v3 : S16000.Idx → BitVec 32) (W main_c_5 : S_.Idx → BitVec 32) pads_S16000_S16384_03840 h_S_ := by
  simp only [hostOps1_3]
  after_results
  rfl

/-- A row of 16000 ids padded with the word 2048 to 16384, read at an index. -/
theorem pad_ids_apply (v : S16000.Idx → BitVec 32) (i : S16384.Idx) :
    pad S16384 ![0] ![384] ![0] v (constantI S_ 32 2048#32) pads_S16000_S16384_03840 h_S_ i
      = if h : (i 0).val < 16000 then v (ix1 ⟨(i 0).val, h⟩) else 2048#32 := by
  by_cases h0 : (i 0).val < 16000
  · rw [dif_pos h0]
    exact pad_apply_of_inside _ _ _ _ _ _ _ i (ix1 ⟨(i 0).val, h0⟩) (fun a => match a with
      | ⟨0, _⟩ => by show (i 0).val = 0 + (i 0).val * (0 + 1); omega)
  · rw [dif_neg h0]
    refine (pad_apply_of_not_inside _ _ _ _ _ _ _ i (0 : Fin 1) ?_).trans (constantI_apply _ _)
    intro hh
    have h3 : ((i 0).val - 0) / (0 + 1) < 16000 := hh.2.2
    simp only [Nat.sub_zero, Nat.zero_add, Nat.div_one] at h3
    exact h0 h3

/-- Row `a` of the edge ids cut out and flattened, read at an index. -/
theorem row_apply (e : S2x16000.Idx → BitVec 32) (a : Fin 2) (k : Fin 16000) (h : S2x16000.Slices ![a.val, 0] S1x16000) :
    shapeCast S16000 (extractStridedSlice S1x16000 ![a.val, 0] e h) shapeCasts_S1x16000_S16000 (ix1 k) = e (ix2 a k) := by
  rw [shapeCast_1a_a_apply]
  exact extractStridedSlice_apply _ e h _ _ (fun b => match b with
    | ⟨0, _⟩ => by show a.val = a.val + 0; omega
    | ⟨1, _⟩ => by show k.val = 0 + k.val; omega)

end EdgeIds

/-- Region 1's first id operand: row 0 of the edge ids followed by the word 2048. -/
theorem V9_v34 (c : Dev nD) : (V9 m outs c main_v34 : S16384.Idx → BitVec 32) = Cert.KSpec.edgePad (m ((c : Thread nD τ).loc main_arg2)) 0 := by
  have h7 : V9 m outs c main_v34 = V7 m outs c main_v34 :=
    (V9_of m outs c main_v34 (by decide)).trans (V8_of m outs c main_v34 (by decide))
  have h1 : V6 m outs c main_v1 = V1 m c main_v1 :=
    (V6_of m outs c main_v1 (by decide)).trans <| (V5_of m outs c main_v1 (by decide)).trans <| (V4_of m c main_v1 (by decide)).trans <|
      (V3_of m c main_v1 (by decide)).trans (V2_of m c main_v1 (by decide))
  rw [h7]
  show (StableHlo.after hostOps1_1 (V6 m outs c) main_v34 : S16384.Idx → BitVec 32) = _
  rw [e_v34, h1, e_v1]
  have hc : (V6 m outs c main_c_4 : S_.Idx → BitVec 32) = constantI S_ 32 2048#32 := e_c4 (V5 m outs c)
  rw [hc]
  funext i
  rw [pad_ids_apply]
  unfold Cert.KSpec.edgePad
  by_cases h0 : (i 0).val < 16000
  · rw [dif_pos h0, dif_pos h0]
    exact row_apply _ (0 : Fin 2) ⟨(i 0).val, h0⟩ slices_S2x16000_S1x16000_0_0
  · rw [dif_neg h0, dif_neg h0]

/-- Region 1's second id operand: row 1 of the edge ids followed by the word 2048. -/
theorem V9_v35 (c : Dev nD) : (V9 m outs c main_v35 : S16384.Idx → BitVec 32) = Cert.KSpec.edgePad (m ((c : Thread nD τ).loc main_arg2)) 1 := by
  have h3 : V8 m outs c main_v3 = V1 m c main_v3 :=
    (V8_of m outs c main_v3 (by decide)).trans <| (V7_of m outs c main_v3 (by decide)).trans <|
    (V6_of m outs c main_v3 (by decide)).trans <| (V5_of m outs c main_v3 (by decide)).trans <| (V4_of m c main_v3 (by decide)).trans <|
      (V3_of m c main_v3 (by decide)).trans (V2_of m c main_v3 (by decide))
  show (StableHlo.after hostOps1_3 (V8 m outs c) main_v35 : S16384.Idx → BitVec 32) = _
  rw [e_v35, h3, e_v3]
  have hc : (V8 m outs c main_c_5 : S_.Idx → BitVec 32) = constantI S_ 32 2048#32 := e_c5 (V7 m outs c)
  rw [hc]
  funext i
  rw [pad_ids_apply]
  unfold Cert.KSpec.edgePad
  by_cases h0 : (i 0).val < 16000
  · rw [dif_pos h0, dif_pos h0]
    exact row_apply _ (1 : Fin 2) ⟨(i 0).val, h0⟩ slices_S2x16000_S1x16000_1_0
  · rw [dif_neg h0, dif_neg h0]

/-- No stretch before region 1 writes a weight argument, and region 0 may not change one. -/
theorem V9_arg3 (c : Dev nD) : V9 m outs c main_arg3 = m ((c : Thread nD τ).loc main_arg3) :=
  (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m c main_arg3 (by decide)).trans <| (V3_of m c main_arg3 (by decide)).trans <| (V2_of m c main_arg3 (by decide)).trans <| (V1_of m c main_arg3 (by decide)).trans rfl
theorem V9_arg4 (c : Dev nD) : V9 m outs c main_arg4 = m ((c : Thread nD τ).loc main_arg4) :=
  (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m c main_arg4 (by decide)).trans <| (V3_of m c main_arg4 (by decide)).trans <| (V2_of m c main_arg4 (by decide)).trans <| (V1_of m c main_arg4 (by decide)).trans rfl
theorem V9_arg5 (c : Dev nD) : V9 m outs c main_arg5 = m ((c : Thread nD τ).loc main_arg5) :=
  (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m c main_arg5 (by decide)).trans <| (V3_of m c main_arg5 (by decide)).trans <| (V2_of m c main_arg5 (by decide)).trans <| (V1_of m c main_arg5 (by decide)).trans rfl
theorem V9_arg6 (c : Dev nD) : V9 m outs c main_arg6 = m ((c : Thread nD τ).loc main_arg6) :=
  (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m c main_arg6 (by decide)).trans <| (V3_of m c main_arg6 (by decide)).trans <| (V2_of m c main_arg6 (by decide)).trans <| (V1_of m c main_arg6 (by decide)).trans rfl

/-- The last stretch cuts whatever its operand holds to the first 16000 rows. -/
theorem e_v37 (W : Valuation τ sig (Elt Ideal)) : (StableHlo.after hostOps2 W main_v37 : S16000x64.Idx → EReal) =
    extractStridedSlice S16000x64 ![0, 0] (W main_v36 : S16384x64.Idx → EReal) slices_S16384x64_S16000x64_0_0 := by
  simp only [hostOps2]
  after_results

/-- The program's result: the first 16000 rows of region 1's result, whatever that is. -/
theorem V11_v37 (c : Dev nD) : (V11 m outs c main_v37 : S16000x64.Idx → EReal) =
    fun i => (outs 10 main_v36 c : S16384x64.Idx → EReal) (ix2 ⟨(i 0).val, by have h : (i 0).val < 16000 := (i 0).isLt; omega⟩ (i 1)) := by
  have h10 : (V10 m outs c main_v36 : S16384x64.Idx → EReal) = outs 10 main_v36 c := Function.update_self _ _ _
  show (StableHlo.after hostOps2 (V10 m outs c) main_v37 : S16000x64.Idx → EReal) = _
  rw [e_v37, h10]
  funext i
  exact extractStridedSlice_apply _ _ _ i _ (fun a => match a with
    | ⟨0, _⟩ => by show (i 0).val = 0 + (i 0).val; omega
    | ⟨1, _⟩ => by show (i 1).val = 0 + (i 1).val; omega)

end Cert.KernelIdeal.Hand

end
-- ==== Proof.KIPre.lean ====
/-
  THE PRECONDITION, READ BACK AT THE EXTENDED REALS. The printed predicate is a conjunction of seven one-bit words, each the
  conjunction (a reduction by `and` from 1 over every axis) of an elementwise comparison: for each of the five real-valued
  arrays, |x| < +∞ at every entry; for the [2, 16000] table of edge ids, 0 ≤ e and e < 2000 at every entry, both signed.
  The predicate being 1 therefore says: every entry of every real-valued array is a real number (neither +∞ nor -∞, the
  latter also standing for "not a number"), and every edge id is an integer in [0, 2000). Only the first array's finiteness
  and the edge table's range are stated here.
-/
import proofs.«408049_j17463337026110_3_alg».proof.Pre_finite_inputs
import proofs.«408049_j17463337026110_3_alg».proof.Proof.Gen.Pre_finite_inputs
import Idealize.ShloMosaic.Lib.ReduceAll
import Idealize.ShloMosaic.Lib.StableHlo.Predicate
import Idealize.ShloMosaic.PureOps.Ideal
import Idealize.ShloMosaic.Lib.ValueIdx

noncomputable section

namespace Cert.KernelIdeal.Hand

open Idealize.ShloMosaic

/-- The rank-0 shape has exactly one index (the empty tuple). -/
instance : Subsingleton Cert.Pre_finite_inputs.S_.Idx := ⟨fun a b => funext fun d => d.elim0⟩

/-- |x| < +∞ on the extended reals, with |x| = max x (-x): x is neither +∞ (then |x| = +∞) nor -∞ (then -x = +∞, so
    |x| = +∞ again); the pattern 0x7F800000 denotes +∞. -/
theorem real_of_abs_lt_top (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  induction x using EReal.rec with
  | bot => simp [Ideal.cmp] at h
  | coe r => exact ⟨EReal.coe_ne_top r, EReal.coe_ne_bot r⟩
  | top => simp [Ideal.cmp] at h

/-- The two signed comparisons of a 32-bit word against the constants 0 and 2000 are the two inequalities on its signed
    value: the constants' signed values are 0 and 2000. -/
theorem range_of_cmp (w : BitVec 32) (h0 : IntOp.cmpi .sge w 0#32 = 1#1) (h1 : IntOp.cmpi .slt w 2000#32 = 1#1) :
    0 ≤ w.toInt ∧ w.toInt < 2000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (2000#32 : BitVec 32).toInt = 2000 := by decide
  rw [e0] at h0; rw [e1] at h1
  exact ⟨h0, h1⟩

/-- The predicate holds (its one word is 1): every entry of the first array is a real number and every edge id lies in
    [0, 2000). The word is the `and` of seven words, so each is 1; a reduction by `and` over every axis that is 1 had a 1
    at every entry; and the entry's 1 is the elementwise comparison read above (a scalar broadcast to an array is that
    scalar at every entry). -/
theorem pre_decode [Cert.Pre_finite_inputs.Facts] (x0 : FVec Ideal Cert.Pre_finite_inputs.S2000000x5 .f32) (x1 : IVec Cert.Pre_finite_inputs.S2000000 32) (x2 : IVec Cert.Pre_finite_inputs.S2x16000 32)
    (x3 : FVec Ideal Cert.Pre_finite_inputs.S4x128 .f32) (x4 : FVec Ideal Cert.Pre_finite_inputs.S128 .f32) (x5 : FVec Ideal Cert.Pre_finite_inputs.S128x64 .f32) (x6 : FVec Ideal Cert.Pre_finite_inputs.S64 .f32)
    (h : Cert.Pre_finite_inputs.fn (F := Ideal) x0 x1 x2 x3 x4 x5 x6 = fun _ => 1#1) :
    (∀ i, x0 i ≠ ⊤ ∧ x0 i ≠ ⊥) ∧ (∀ i, 0 ≤ (x2 i).toInt ∧ (x2 i).toInt < 2000) := by
  have h0 := congrFun h ValueIdx.ix0
  dsimp only [Cert.Pre_finite_inputs.fn, Cert.Pre_finite_inputs.fn_part1, andi] at h0
  simp only [IntOp.andi_eq_one] at h0
  obtain ⟨⟨⟨⟨⟨⟨hx0, _⟩, _⟩, _⟩, _⟩, hge⟩, hlt⟩ := h0
  refine ⟨fun i => ?_, fun i => ?_⟩
  · have e := Host.reduce_andi_all _ _ _ _ _ hx0 i
    exact real_of_abs_lt_top (x0 i) e
  · have e0 := Host.reduce_andi_all _ _ _ _ _ hge i
    have e1 := Host.reduce_andi_all _ _ _ _ _ hlt i
    exact range_of_cmp (x2 i) e0 e1

end Cert.KernelIdeal.Hand
-- ==== Proof.Spec.lean ====
/-
  The mathematics both programs compute, as one function of the seven argument arrays.

  Voxel n carries a cluster id cid n and a row data n of five numbers, of which columns 1..4 are features.
  For a cluster c: clusterSum c k is the sum of column k over the voxels whose id is c, and clusterCount c the
  number of those voxels (as a sum of ones).  Edge e joins the clusters named by the two rows of the edge
  table; its pooled feature k is the sum of the two clusters' sums divided by the larger of 1 and the sum of
  their counts.  Two affine layers follow, the first clipped below at zero.
-/
import Idealize.ShloMosaic.PureOps.Ideal
import Idealize.ShloMosaic.Lib.ValueIdx

noncomputable section

namespace Cert.Spec

open Idealize.ShloMosaic Idealize.ShloMosaic.ValueIdx

variable (data : (⟨2, ![2000000, 5]⟩ : Shape).Idx → EReal) (cid : (⟨1, ![2000000]⟩ : Shape).Idx → BitVec 32)
  (eidx : (⟨2, ![2, 16000]⟩ : Shape).Idx → BitVec 32)
  (W1 : (⟨2, ![4, 128]⟩ : Shape).Idx → EReal) (b1 : (⟨1, ![128]⟩ : Shape).Idx → EReal)
  (W2 : (⟨2, ![128, 64]⟩ : Shape).Idx → EReal) (b2 : (⟨1, ![64]⟩ : Shape).Idx → EReal)

/-- The sum of column `k` of the voxel rows whose cluster id is the word `c`. -/
def clusterSum (c : BitVec 32) (k : Fin 5) : EReal :=
  ∑ n : Fin 2000000, if cid (ix1 n) = c then data (ix2 n k) else 0

/-- The number of voxels whose cluster id is the word `c`, as a sum of ones. -/
def clusterCount (c : BitVec 32) : EReal :=
  ∑ n : Fin 2000000, if cid (ix1 n) = c then (1 : EReal) else 0

/-- Feature `k` (columns 1..4 of the voxel rows) of edge `e`: the mean over the union, with repetition, of its
    two clusters, an empty union read as one voxel. -/
def pooled (e : Fin 16000) (k : Fin 4) : EReal :=
  Ideal.div (clusterSum data cid (eidx (ix2 0 e)) k.succ + clusterSum data cid (eidx (ix2 1 e)) k.succ)
    (max (clusterCount cid (eidx (ix2 0 e)) + clusterCount cid (eidx (ix2 1 e))) 1)

/-- The first layer at edge `e`, unit `h`, clipped below at zero. -/
def hidden (e : Fin 16000) (h : Fin 128) : EReal :=
  max ((∑ k : Fin 4, pooled data cid eidx e k * W1 (ix2 k h)) + b1 (ix1 h)) 0

/-- The result: the second layer. -/
def G : (⟨2, ![16000, 64]⟩ : Shape).Idx → EReal := fun i =>
  (∑ h : Fin 128, hidden data cid eidx W1 b1 (i 0) h * W2 (ix2 h (i 1))) + b2 (ix1 (i 1))

end Cert.Spec

end
-- ==== Proof.KMath.lean ====
/-
  The kernel's pipeline computes the specification: pure mathematics over the extended reals and 32-bit words.

  The argument, in the order of the sections below.
  * (half, block, row) triples number the 2000896 padded rows exactly once, so the two halves of the first stage added
    are one sum over the padded rows; a padded row carries the id 2048, which is no lane index below 2048, so only the
    true voxel rows remain: at lane c, column 0 is the cluster's count and column j its sum of column j.
  * Under the hypothesis that every voxel entry is finite these sums are finite (a finite sum of reals is a real), and
    so is the multiple of 256 below a count.
  * An edge id in [0, 2000) is the word of exactly one lane index, so the sum over lanes of the edge's weights times a
    table column is the sum of the two ids' table entries (the weights are 0 or 1, where multiplication distributes).
  * For finite values s + (s - s) = s and (n - hi) + hi = n, so the gathered columns add back to the two clusters' sums
    and counts; the quotient, the clipped first layer and the second layer are then the specification's term by term.
-/
import proofs.«408049_j17463337026110_3_alg».proof.Proof.Spec
import proofs.«408049_j17463337026110_3_alg».proof.Proof.KSpec
import Idealize.ShloMosaic.PureOps.Ideal
import Idealize.ShloMosaic.PureOps.Ideal.Laws
import Idealize.ShloMosaic.Lib.ValueIdx
import Mathlib.Data.EReal.Operations
import Mathlib.Algebra.BigOperators.Fin

noncomputable section

namespace Cert.KMath

open Idealize.ShloMosaic Idealize.ShloMosaic.ValueIdx

/-! ## Reindexing -/

/-- (half, block, row) triples are exactly the padded row numbers. -/
def rowEquiv : (Fin 2 × Fin 977) × Fin 1024 ≃ Fin 2000896 where
  toFun x := Cert.KSpec.row x.1.1 x.1.2 x.2
  invFun m := ((⟨m.val / 1000448, by have := m.isLt; omega⟩, ⟨m.val / 1024 % 977, Nat.mod_lt _ (by norm_num)⟩),
    ⟨m.val % 1024, Nat.mod_lt _ (by norm_num)⟩)
  left_inv := by
    rintro ⟨⟨h, t⟩, r⟩
    have := h.isLt; have := t.isLt; have := r.isLt
    simp only [Cert.KSpec.row]
    refine Prod.ext (Prod.ext (Fin.ext ?_) (Fin.ext ?_)) (Fin.ext ?_) <;> simp only <;> omega
  right_inv := by
    intro m
    have := m.isLt
    simp only [Cert.KSpec.row]
    refine Fin.ext ?_
    simp only
    omega

/-- A sum over halves, blocks and rows of a function of the padded row number is the sum over all padded rows. -/
theorem sum_rows {M : Type*} [AddCommMonoid M] (F : Fin 2000896 → M) :
    ∑ h : Fin 2, ∑ t : Fin 977, ∑ r : Fin 1024, F (Cert.KSpec.row h t r) = ∑ m : Fin 2000896, F m := by
  rw [← Equiv.sum_comp rowEquiv F, Fintype.sum_prod_type, Fintype.sum_prod_type]
  rfl

/-- A sum over a longer range of a function vanishing past the shorter range is the sum over the shorter range. -/
theorem sum_castLE {M : Type*} [AddCommMonoid M] {n m : ℕ} (h : n ≤ m) (f : Fin m → M)
    (hz : ∀ i : Fin m, n ≤ i.val → f i = 0) :
    ∑ i : Fin m, f i = ∑ i : Fin n, f (Fin.castLE h i) := by
  have e : ∑ i : Fin n, f (Fin.castLE h i) = ∑ x ∈ Finset.univ.map (Fin.castLEEmb h), f x :=
    (Finset.sum_map Finset.univ (Fin.castLEEmb h) f).symm
  rw [e]
  symm
  refine Finset.sum_subset (Finset.subset_univ _) fun x _ hx => hz x ?_
  by_contra hlt
  refine hx (Finset.mem_map.mpr ⟨⟨x.val, by omega⟩, Finset.mem_univ _, Fin.ext rfl⟩)

/-! ## Region 0's sums are the cluster sums -/

section Sums

variable (data : (⟨2, ![2000000, 5]⟩ : Shape).Idx → EReal) (cid : (⟨1, ![2000000]⟩ : Shape).Idx → BitVec 32)

/-- The word 2048 is the index of no lane below 2048. -/
theorem pad_ne_lane (c : Fin 2048) : (2048#32 : BitVec 32) ≠ BitVec.ofNat 32 c.val := by
  intro h
  have h' := congrArg BitVec.toNat h
  simp only [BitVec.toNat_ofNat] at h'
  have := c.isLt
  omega

/-- The two halves of region 0's result added, at lane c and column j: the sum over the true voxel rows with id c of
    the row's column j, column 0 read as one. -/
theorem both_segSums (c : Fin 2048) (j : Fin 5) :
    Cert.KSpec.both (Cert.KSpec.segSums (Cert.KSpec.dataPad data) (Cert.KSpec.cidPad cid)) c j
      = ∑ n : Fin 2000000, if cid (ix1 n) = BitVec.ofNat 32 c.val then (if j.val = 0 then (1 : EReal) else data (ix2 n j)) else 0 := by
  let F : Fin 2000896 → EReal := fun m =>
    if Cert.KSpec.cidPad cid (ix1 m) = BitVec.ofNat 32 c.val then Cert.KSpec.dataPad data (ix2 m j) else 0
  have hb : Cert.KSpec.both (Cert.KSpec.segSums (Cert.KSpec.dataPad data) (Cert.KSpec.cidPad cid)) c j
      = ∑ h : Fin 2, ∑ t : Fin 977, ∑ r : Fin 1024, F (Cert.KSpec.row h t r) := by
    rw [Fin.sum_univ_two]; rfl
  rw [hb, sum_rows F, sum_castLE (by norm_num : 2000000 ≤ 2000896) F ?_]
  · refine Finset.sum_congr rfl fun n _ => ?_
    have hn : n.val < 2000000 := n.isLt
    have h1 : Cert.KSpec.cidPad cid (ix1 (Fin.castLE (by norm_num : 2000000 ≤ 2000896) n)) = cid (ix1 n) := by
      unfold Cert.KSpec.cidPad; exact dif_pos hn
    have h2 : Cert.KSpec.dataPad data (ix2 (Fin.castLE (by norm_num : 2000000 ≤ 2000896) n) j)
        = if j.val = 0 then (1 : EReal) else data (ix2 n j) := by
      unfold Cert.KSpec.dataPad
      show (if j.val = 0 then (1 : EReal) else if h : n.val < 2000000 then data (ix2 ⟨n.val, h⟩ j) else 0) = _
      rw [dif_pos hn]
    show (if Cert.KSpec.cidPad cid (ix1 (Fin.castLE _ n)) = _ then Cert.KSpec.dataPad data (ix2 (Fin.castLE _ n) j) else 0) = _
    rw [h1, h2]
  · intro i hi
    have h1 : Cert.KSpec.cidPad cid (ix1 i) = 2048#32 := by
      unfold Cert.KSpec.cidPad; exact dif_neg (Nat.not_lt.mpr hi)
    show (if Cert.KSpec.cidPad cid (ix1 i) = _ then _ else 0) = (0 : EReal)
    rw [h1, if_neg (pad_ne_lane c)]

/-- Column 0: the count of the cluster named by lane c. -/
theorem both_segSums_zero (c : Fin 2048) :
    Cert.KSpec.both (Cert.KSpec.segSums (Cert.KSpec.dataPad data) (Cert.KSpec.cidPad cid)) c 0
      = Cert.Spec.clusterCount cid (BitVec.ofNat 32 c.val) := by
  rw [both_segSums]; rfl

/-- Columns 1..4: the feature sums of the cluster named by lane c. -/
theorem both_segSums_succ (c : Fin 2048) (k : Fin 4) :
    Cert.KSpec.both (Cert.KSpec.segSums (Cert.KSpec.dataPad data) (Cert.KSpec.cidPad cid)) c ⟨k.val + 1, by omega⟩
      = Cert.Spec.clusterSum data cid (BitVec.ofNat 32 c.val) k.succ := by
  rw [both_segSums]
  unfold Cert.Spec.clusterSum
  refine Finset.sum_congr rfl fun n _ => ?_
  rw [if_neg (Nat.succ_ne_zero k.val)]
  rfl

end Sums

/-! ## Finite values -/

/-- A finite extended real: the image of a real number. -/
def IsFin (x : EReal) : Prop := ∃ r : ℝ, x = (r : EReal)

theorem isFin_of_ne {x : EReal} (h : x ≠ ⊤ ∧ x ≠ ⊥) : IsFin x := ⟨x.toReal, (EReal.coe_toReal h.1 h.2).symm⟩

theorem isFin_zero : IsFin 0 := ⟨0, EReal.coe_zero.symm⟩

theorem isFin_one : IsFin 1 := ⟨1, EReal.coe_one.symm⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

/-- A finite sum of finite extended reals is finite. -/
theorem isFin_sum {ι : Type*} (s : Finset ι) (f : ι → EReal) (h : ∀ i ∈ s, IsFin (f i)) : IsFin (∑ i ∈ s, f i) := by
  classical
  induction s using Finset.induction_on with
  | empty => rw [Finset.sum_empty]; exact isFin_zero
  | insert a s ha ih =>
    rw [Finset.sum_insert ha]
    exact (h a (Finset.mem_insert_self a s)).add (ih fun i hi => h i (Finset.mem_insert_of_mem hi))

/-- The pattern 0x43800000 is the real 256. -/
theorem ofBits_256 : Ideal.ofBits .f32 0x43800000#32 = ((256 : ℝ) : EReal) := by
  simp [Ideal.ofBits, Ideal.ieee]
  norm_cast; norm_num

/-- The pattern 0x3F800000 is one. -/
theorem ofBits_one : Ideal.ofBits .f32 0x3F800000#32 = (1 : EReal) := by
  simp [Ideal.ofBits, Ideal.ieee]
  norm_cast; norm_num

/-- The multiple of 256 below a finite count is finite. -/
theorem isFin_countHi {n : EReal} (h : IsFin n) : IsFin (Cert.KSpec.countHi n) := by
  obtain ⟨r, rfl⟩ := h
  unfold Cert.KSpec.countHi
  rw [ofBits_256, Ideal.div_coe (by norm_num : (256 : ℝ) ≠ 0), ← EReal.coe_mul, Ideal.liftRound_coe, ← EReal.coe_mul]
  exact ⟨_, rfl⟩

/-- Two finite sums laid out as themselves and their vanishing remainders add back to themselves. -/
theorem add_remainders {a b : EReal} (ha : IsFin a) (hb : IsFin b) : (a + b) + ((a - a) + (b - b)) = a + b := by
  obtain ⟨x, rfl⟩ := ha; obtain ⟨y, rfl⟩ := hb
  rw [← EReal.coe_sub, ← EReal.coe_sub, sub_self, sub_self, EReal.coe_zero, add_zero, add_zero]

/-- Two finite counts split into low and high parts add back to their sum. -/
theorem add_lo_hi {n0 n1 h0 h1 : EReal} (a0 : IsFin n0) (a1 : IsFin n1) (b0 : IsFin h0) (b1 : IsFin h1) :
    ((n0 - h0) + (n1 - h1)) + (h0 + h1) = n0 + n1 := by
  obtain ⟨x0, rfl⟩ := a0; obtain ⟨x1, rfl⟩ := a1; obtain ⟨y0, rfl⟩ := b0; obtain ⟨y1, rfl⟩ := b1
  rw [← EReal.coe_sub, ← EReal.coe_sub, ← EReal.coe_add, ← EReal.coe_add, ← EReal.coe_add, ← EReal.coe_add]
  congr 1
  ring

section FinSums

variable (data : (⟨2, ![2000000, 5]⟩ : Shape).Idx → EReal) (cid : (⟨1, ![2000000]⟩ : Shape).Idx → BitVec 32)

theorem isFin_clusterSum (hfin : ∀ i, data i ≠ ⊤ ∧ data i ≠ ⊥) (c : BitVec 32) (k : Fin 5) :
    IsFin (Cert.Spec.clusterSum data cid c k) := by
  unfold Cert.Spec.clusterSum
  refine isFin_sum _ _ fun n _ => ?_
  split_ifs
  · exact isFin_of_ne (hfin _)
  · exact isFin_zero

theorem isFin_clusterCount (c : BitVec 32) : IsFin (Cert.Spec.clusterCount cid c) := by
  unfold Cert.Spec.clusterCount
  refine isFin_sum _ _ fun n _ => ?_
  split_ifs
  · exact isFin_one
  · exact isFin_zero

end FinSums

/-! ## Lane words -/

/-- Lane indices below 2048 are told apart by their 32-bit words. -/
theorem ofNat_lane_inj (a b : Fin 2048) : BitVec.ofNat 32 a.val = BitVec.ofNat 32 b.val ↔ a = b := by
  constructor
  · intro h
    have h' := congrArg BitVec.toNat h
    simp only [BitVec.toNat_ofNat] at h'
    have := a.isLt; have := b.isLt
    exact Fin.ext (by omega)
  · rintro rfl; rfl

/-- A word that, read as a signed number, lies in [0, 2000) is the word of a lane index. -/
theorem lane_of_range (w : BitVec 32) (h : 0 ≤ w.toInt ∧ w.toInt < 2000) : ∃ k : Fin 2048, w = BitVec.ofNat 32 k.val := by
  have hw := w.isLt
  rw [BitVec.toInt_eq_toNat_cond] at h
  refine ⟨⟨w.toNat, ?_⟩, ?_⟩
  · split_ifs at h <;> omega
  · simp

/-! ## The gather -/

section Gather

variable (p0 p1 : (⟨1, ![16384]⟩ : Shape).Idx → BitVec 32) (tbl : (⟨2, ![2048, 10]⟩ : Shape).Idx → EReal)

/-- The one-hot rows of an edge's two ids, summed and multiplied into the table, pick the two ids' table rows and add
    them. -/
theorem gathered_eq (e : Fin 16384) (k0 k1 : Fin 2048) (h0 : p0 (ix1 e) = BitVec.ofNat 32 k0.val)
    (h1 : p1 (ix1 e) = BitVec.ofNat 32 k1.val) (col : Fin 10) :
    Cert.KSpec.gathered p0 p1 tbl e col = tbl (ix2 k0 col) + tbl (ix2 k1 col) := by
  unfold Cert.KSpec.gathered Cert.KSpec.weight
  rw [h0, h1]
  have key : ∀ c : Fin 2048,
      ((if BitVec.ofNat 32 k0.val = BitVec.ofNat 32 c.val then (1 : EReal) else 0)
        + (if BitVec.ofNat 32 k1.val = BitVec.ofNat 32 c.val then (1 : EReal) else 0)) * tbl (ix2 c col)
      = (if k0 = c then tbl (ix2 c col) else 0) + (if k1 = c then tbl (ix2 c col) else 0) := by
    intro c
    rw [EReal.right_distrib_of_nonneg (by split_ifs <;> simp) (by split_ifs <;> simp)]
    simp only [ofNat_lane_inj, ite_mul, one_mul, zero_mul]
  rw [Finset.sum_congr rfl fun c _ => key c, Finset.sum_add_distrib, Finset.sum_ite_eq, Finset.sum_ite_eq]
  simp only [Finset.mem_univ, if_true]

end Gather

/-! ## The table's columns -/

section Table

variable (s : (⟨3, ![2, 5, 2048]⟩ : Shape).Idx → EReal)

theorem table10_feat (c : Fin 2048) (k : Fin 4) :
    Cert.KSpec.table10 s (ix2 c ⟨k.val, by omega⟩) = Cert.KSpec.both s c ⟨k.val + 1, by omega⟩ := by
  have hk := k.isLt
  simp only [Cert.KSpec.table10]
  rw [dif_pos hk]

theorem table10_rem (c : Fin 2048) (k : Fin 4) :
    Cert.KSpec.table10 s (ix2 c ⟨k.val + 4, by omega⟩)
      = Cert.KSpec.both s c ⟨k.val + 1, by omega⟩ - Cert.KSpec.both s c ⟨k.val + 1, by omega⟩ := by
  have hk := k.isLt
  simp only [Cert.KSpec.table10]
  rw [dif_neg (by omega), dif_pos (by omega)]
  have e : (⟨k.val + 4 - 3, by omega⟩ : Fin 5) = ⟨k.val + 1, by omega⟩ := Fin.ext (by simp only; omega)
  rw [e]

theorem table10_lo (c : Fin 2048) :
    Cert.KSpec.table10 s (ix2 c 8) = Cert.KSpec.both s c 0 - Cert.KSpec.countHi (Cert.KSpec.both s c 0) := by
  simp only [Cert.KSpec.table10]
  rfl

theorem table10_hi (c : Fin 2048) :
    Cert.KSpec.table10 s (ix2 c 9) = Cert.KSpec.countHi (Cert.KSpec.both s c 0) := by
  simp only [Cert.KSpec.table10]
  rfl

end Table

/-! ## The edge pipeline is the specification -/

section Main

variable (data : (⟨2, ![2000000, 5]⟩ : Shape).Idx → EReal) (cid : (⟨1, ![2000000]⟩ : Shape).Idx → BitVec 32)
  (eidx : (⟨2, ![2, 16000]⟩ : Shape).Idx → BitVec 32)
  (W1 : (⟨2, ![4, 128]⟩ : Shape).Idx → EReal) (b1 : (⟨1, ![128]⟩ : Shape).Idx → EReal)
  (W2 : (⟨2, ![128, 64]⟩ : Shape).Idx → EReal) (b2 : (⟨1, ![64]⟩ : Shape).Idx → EReal)

/-- A true edge's padded id row holds the edge's own id. -/
theorem edgePad_eq (a : Fin 2) (e : Fin 16000) :
    Cert.KSpec.edgePad eidx a (ix1 ⟨e.val, by have := e.isLt; omega⟩) = eidx (ix2 a e) := by
  unfold Cert.KSpec.edgePad
  exact dif_pos e.isLt

/-- At a true edge the kernel's pooled feature is the specification's: the gathered sums and their remainders add back
    to the two clusters' sums, the gathered low and high parts to the two clusters' counts. -/
theorem pooledK_eq (hfin : ∀ i, data i ≠ ⊤ ∧ data i ≠ ⊥)
    (hrange : ∀ i, 0 ≤ (eidx i).toInt ∧ (eidx i).toInt < 2000) (e : Fin 16000) (k : Fin 4) :
    Cert.KSpec.pooledK (Cert.KSpec.edgePad eidx 0) (Cert.KSpec.edgePad eidx 1)
      (Cert.KSpec.table10 (Cert.KSpec.segSums (Cert.KSpec.dataPad data) (Cert.KSpec.cidPad cid)))
      ⟨e.val, by have := e.isLt; omega⟩ k = Cert.Spec.pooled data cid eidx e k := by
  obtain ⟨k0, hk0⟩ := lane_of_range (eidx (ix2 0 e)) (hrange _)
  obtain ⟨k1, hk1⟩ := lane_of_range (eidx (ix2 1 e)) (hrange _)
  have hp0 := (edgePad_eq eidx 0 e).trans hk0
  have hp1 := (edgePad_eq eidx 1 e).trans hk1
  unfold Cert.KSpec.pooledK Cert.Spec.pooled
  rw [gathered_eq _ _ _ _ k0 k1 hp0 hp1, gathered_eq _ _ _ _ k0 k1 hp0 hp1, gathered_eq _ _ _ _ k0 k1 hp0 hp1,
    gathered_eq _ _ _ _ k0 k1 hp0 hp1]
  rw [table10_feat, table10_feat, table10_rem, table10_rem, table10_lo, table10_lo, table10_hi, table10_hi]
  rw [both_segSums_succ, both_segSums_succ, both_segSums_zero, both_segSums_zero, ← hk0, ← hk1]
  rw [add_remainders (isFin_clusterSum data cid hfin _ _) (isFin_clusterSum data cid hfin _ _),
    add_lo_hi (isFin_clusterCount cid _) (isFin_clusterCount cid _) (isFin_countHi (isFin_clusterCount cid _))
      (isFin_countHi (isFin_clusterCount cid _)), ofBits_one]

/-- So the first layer agrees. -/
theorem hiddenK_eq (hfin : ∀ i, data i ≠ ⊤ ∧ data i ≠ ⊥)
    (hrange : ∀ i, 0 ≤ (eidx i).toInt ∧ (eidx i).toInt < 2000) (e : Fin 16000) (h : Fin 128) :
    Cert.KSpec.hiddenK (Cert.KSpec.edgePad eidx 0) (Cert.KSpec.edgePad eidx 1)
      (Cert.KSpec.table10 (Cert.KSpec.segSums (Cert.KSpec.dataPad data) (Cert.KSpec.cidPad cid))) W1 b1
      ⟨e.val, by have := e.isLt; omega⟩ h = Cert.Spec.hidden data cid eidx W1 b1 e h := by
  unfold Cert.KSpec.hiddenK Cert.Spec.hidden
  rw [Ideal.ofBits_zero_f32]
  refine congrArg (fun x => max (x + b1 (ix1 h)) 0) (Finset.sum_congr rfl fun k _ => ?_)
  rw [pooledK_eq data cid eidx hfin hrange e k]

/-- The kernel's pipeline computes the specification. -/
theorem kout_eq_G (hfin : ∀ i, data i ≠ ⊤ ∧ data i ≠ ⊥)
    (hrange : ∀ i, 0 ≤ (eidx i).toInt ∧ (eidx i).toInt < 2000) :
    Cert.KSpec.KOut data cid eidx W1 b1 W2 b2 = Cert.Spec.G data cid eidx W1 b1 W2 b2 := by
  funext i
  obtain ⟨e, c, rfl⟩ : ∃ (e : Fin 16000) (c : Fin 64), i = ix2 e c := ⟨i 0, i 1, eq_ix2 i⟩
  show (∑ h : Fin 128, Cert.KSpec.hiddenK (Cert.KSpec.edgePad eidx 0) (Cert.KSpec.edgePad eidx 1)
        (Cert.KSpec.table10 (Cert.KSpec.segSums (Cert.KSpec.dataPad data) (Cert.KSpec.cidPad cid))) W1 b1
        ⟨e.val, by have := e.isLt; omega⟩ h * W2 (ix2 h c)) + b2 (ix1 c)
      = (∑ h : Fin 128, Cert.Spec.hidden data cid eidx W1 b1 e h * W2 (ix2 h c)) + b2 (ix1 c)
  refine congrArg (· + b2 (ix1 c)) (Finset.sum_congr rfl fun h _ => ?_)
  rw [hiddenK_eq data cid eidx W1 b1 hfin hrange e h]

end Main

end Cert.KMath

end
-- ==== Proof.KIValue.lean ====
/-
  The kernel program's result as the specification.

  The run is the frame's, with the result array read off the last valuation.  That array is the leading
  16000 rows of what region 1 left, which is the per-edge function of the padded edge ids, the table and the
  layer weights; the table is laid out from what region 0 left, the per-half sums of the padded voxel rows; the
  composite is the pure pipeline `KSpec.KOut` of the seven argument arrays, which under the precondition (finite
  voxel rows, edge ids in range) is the specification `Spec.G`.
-/
import proofs.«408049_j17463337026110_3_alg».proof.Proof.KIFrame
import proofs.«408049_j17463337026110_3_alg».proof.Proof.KIFrameCondVal
import proofs.«408049_j17463337026110_3_alg».proof.Proof.KIRegion0Value
import proofs.«408049_j17463337026110_3_alg».proof.Proof.KIRegion1Value
import proofs.«408049_j17463337026110_3_alg».proof.Proof.KIHost
import proofs.«408049_j17463337026110_3_alg».proof.Proof.KIPre
import proofs.«408049_j17463337026110_3_alg».proof.Proof.KMath
import proofs.«408049_j17463337026110_3_alg».proof.Defs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

section Run

variable {F : FTy → Type} [FloatOps F]
variable (m : (ℓ : Loc nD τ sig) → Buf (Elt F) ℓ)

/-- The run with the result: every weakly fair execution ends, nothing faulting, the result array at the last
    valuation's contents and the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v37) = V11 m (outs m) c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Cert.KernelIdeal.GenP.frame_cond_val m emb₁ () Variants.none L0 lv0 (fun _ _ => rfl) ρ (outs m) (pdats m) (fun _ => 0) (fun _ => BI.emp)
    (initOf (Pipeline.cells cfgs cellOf_inj) (Pipeline.launchToks cfgs cellOf_inj)) (hu₀ (F := F))
    (fun _ c => Rst c) (hE0 ρ) (fun c => by iintro ⟨-, H⟩; iexact H)
    (reg0 m) (fun c => .rfl) (fun c => .rfl) (reg1 m) (fun c => .rfl) (fun c => .rfl)

end Run

section Value

variable (m : (ℓ : Loc nD τ sig) → Buf (Elt Ideal) ℓ)

/-- What region 0 leaves: the per-half sums of the padded voxel rows. -/
theorem arr9_eq (c : Dev nD) :
    (arr9 m c : S2x5x2048.Idx → EReal)
      = Cert.KSpec.segSums (Cert.KSpec.dataPad (m ((c : Thread nD τ).loc main_arg0))) (Cert.KSpec.cidPad (m ((c : Thread nD τ).loc main_arg1))) := by
  unfold arr9
  rw [arr0_final (E0 m) c]
  show Cert.KSpec.segSums (V4 m c main_v7) (V4 m c main_v8) = _
  rw [V4_v7 m c, V4_v8 m c]

/-- What region 1 leaves: the per-edge function of the padded ids, the table and the weights. -/
theorem arr36_eq (c : Dev nD) :
    (arr36 m c : S16384x64.Idx → EReal)
      = Cert.KSpec.edgeOut (Cert.KSpec.edgePad (m ((c : Thread nD τ).loc main_arg2)) 0) (Cert.KSpec.edgePad (m ((c : Thread nD τ).loc main_arg2)) 1)
          (Cert.KSpec.table10 (Cert.KSpec.segSums (Cert.KSpec.dataPad (m ((c : Thread nD τ).loc main_arg0))) (Cert.KSpec.cidPad (m ((c : Thread nD τ).loc main_arg1)))))
          (m ((c : Thread nD τ).loc main_arg3)) (m ((c : Thread nD τ).loc main_arg4)) (m ((c : Thread nD τ).loc main_arg5)) (m ((c : Thread nD τ).loc main_arg6)) := by
  unfold arr36
  rw [arr1_final (E1 m) c]
  show Cert.KSpec.edgeOut (V9 m (outsA m) c main_v34) (V9 m (outsA m) c main_v35) (V9 m (outsA m) c main_v33)
      (V9 m (outsA m) c main_arg3) (V9 m (outsA m) c main_arg4) (V9 m (outsA m) c main_arg5) (V9 m (outsA m) c main_arg6) = _
  rw [V9_v34 m (outsA m) c, V9_v35 m (outsA m) c, V9_v33 m (outsA m) c, V9_arg3 m (outsA m) c, V9_arg4 m (outsA m) c,
    V9_arg5 m (outsA m) c, V9_arg6 m (outsA m) c, outsA_v9 m c, arr9_eq m c]

/-- The result array at the end of the run is the pure pipeline of the arguments. -/
theorem result_eq_KOut (c : Dev nD) :
    (V11 m (outs m) c main_v37 : S16000x64.Idx → EReal)
      = Cert.KSpec.KOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [V11_v37 m (outs m) c, outs_v36 m c, arr36_eq m c]
  rfl

/-- Under the precondition the result array at the end of the run is the specification. -/
theorem result_eq_G [hP : Cert.Pre_finite_inputs.Facts] (hpre : Cert.Pre_KernelIdeal m) (c : Dev nD) :
    (V11 m (outs m) c main_v37 : S16000x64.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  obtain ⟨hfin, hrange⟩ := pre_decode _ _ _ _ _ _ _ (hpre c)
  rw [result_eq_KOut m c]
  exact Cert.KMath.kout_eq_G _ _ _ _ _ _ _ hfin hrange

end Value

end Cert.KernelIdeal.Hand

end
-- ==== Proof.LibScatterRows.lean ====
/-
  A scatter that adds whole rows, read at an index.

  The operand has rows i < N of C columns; the scatter indices are a column of n start rows; update row e is added to
  the operand's row at the e-th start index read as a signed integer, column by column, and dropped when that row does
  not exist.  So entry (i, k) of the result is the operand's entry plus the sum, over the update rows e whose start
  index is i, of the update's entry (e, k).  Stated for the exact float sum and for the integer fold.
-/
import Idealize.ShloMosaic.Lib.ValueIdx
import Idealize.ShloMosaic.PureOps.Ideal
import Idealize.ShloMosaic.PureOps.Contract
import Mathlib.Data.BitVec
import proofs.«408049_j17463337026110_3_alg».proof.Proof.LibScatterRead

noncomputable section

namespace Cert.ScatterRows

open Idealize.ShloMosaic Idealize.ShloMosaic.ValueIdx

variable {N C n w : Nat}

/-- Update entry (e, k) lands on operand entry (i, k') exactly when the e-th start index, read signed, is i and the
    columns agree.  The hypotheses are the printed dimension numbers, each by `rfl`. -/
theorem resultIdx?_rows2 (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (k : Fin C) (i : Fin N) (k' : Fin C) :
    d.resultIdx? (ix2 e k) idx = some (ix2 i k') ↔ (idx (ix2 e (0 : Fin 1))).toInt = (i.val : ℤ) ∧ k = k' := by
  rw [Cert.LibScatterRead.resultIdx?_eq_some_iff]
  -- the operand's kept axis is its second; the update's scatter axis is its first
  have hsk : d.sKept = [1] := by
    show (List.finRange 2).filter (· ∉ d.insertedWindowDims) = _
    rw [hiw]; rfl
  have hus : d.uScatter = [0] := by
    show (List.finRange 2).filter (· ∉ d.updateWindowDims) = _
    rw [huw]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  -- the start index read for update row e is the column's entry at e
  have hsi : d.siIdx (ix2 e k) ⟨List.idxOf (0 : Fin 2) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 2, X ∈ d.uScatter → ((ix2 e k : (⟨2, ![n, C]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 2) d.scatterDimsToOperandDims = 0
      rw [hsd]; simp
  -- the row axis: start-indexed and inserted; the column axis: not start-indexed, the window's own coordinate
  have hs0 : d.start (ix2 e k) idx 0 = (idx (ix2 e (0 : Fin 1))).toInt := by
    unfold ScatterDims.start
    rw [dif_pos hm0, hsi]
  have hs1 : d.start (ix2 e k) idx 1 = 0 := by
    unfold ScatterDims.start
    rw [dif_neg hm1]
  have hw0 : d.window (ix2 e k) 0 = 0 := by
    unfold ScatterDims.window
    rw [dif_neg hk0]
  have hw1 : d.window (ix2 e k) 1 = k.val := by
    unfold ScatterDims.window
    rw [dif_pos hk1]
    have e' : ∀ X : Fin 2, X ∈ d.updateWindowDims → ((ix2 e k : (⟨2, ![n, C]⟩ : Shape).Idx) X).val = k.val := fun X hX => by
      rw [huw] at hX
      obtain rfl := List.mem_singleton.mp hX
      rfl
    exact e' _ (List.getElem_mem _)
  have hi0 : (((ix2 i k' : (⟨2, ![N, C]⟩ : Shape).Idx) 0).val : Int) = (i.val : Int) := rfl
  have hi1 : (((ix2 i k' : (⟨2, ![N, C]⟩ : Shape).Idx) 1).val : Int) = (k'.val : Int) := rfl
  constructor
  · intro h
    have h0 := h 0
    have h1 := h 1
    rw [hs0, hw0, hi0] at h0
    rw [hs1, hw1, hi1] at h1
    refine ⟨by omega, Fin.ext (by omega)⟩
  · rintro ⟨h0, rfl⟩ a
    match a with
    | ⟨0, _⟩ =>
      show (((ix2 i k : (⟨2, ![N, C]⟩ : Shape).Idx) 0).val : Int) = d.start (ix2 e k) idx 0 + d.window (ix2 e k) 0
      rw [hs0, hw0, hi0, h0]; simp
    | ⟨1, _⟩ =>
      show (((ix2 i k : (⟨2, ![N, C]⟩ : Shape).Idx) 1).val : Int) = d.start (ix2 e k) idx 1 + d.window (ix2 e k) 1
      rw [hs1, hw1, hi1]; simp

/-- The update indices that land on operand entry (i, k) are the (e, k) whose start index is i, so a sum over them
    is a sum over those rows e. -/
theorem sum_landing_rows2 {M : Type} [AddCommMonoid M] (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (upd : (⟨2, ![n, C]⟩ : Shape).Idx → M)
    (i : Fin N) (k : Fin C) :
    ∑ j ∈ Finset.univ.filter (fun j => d.resultIdx? j idx = some (ix2 i k)), upd j
      = ∑ e ∈ Finset.univ.filter (fun e : Fin n => (idx (ix2 e (0 : Fin 1))).toInt = (i.val : ℤ)),
          upd (ix2 e k) := by
  symm
  refine Finset.sum_bij (fun e _ => ix2 e k) ?_ ?_ ?_ ?_
  · intro e he
    rw [Finset.mem_filter] at he ⊢
    exact ⟨Finset.mem_univ _, (resultIdx?_rows2 d huw hiw hsd hivd idx e k i k).2 ⟨he.2, rfl⟩⟩
  · intro e1 _ e2 _ h
    exact congrFun h 0
  · intro j hj
    rw [Finset.mem_filter] at hj
    have hj2 := hj.2
    rw [eq_ix2 j] at hj2
    obtain ⟨h0, h1⟩ := (resultIdx?_rows2 d huw hiw hsd hivd idx (j 0) (j 1) i k).1 hj2
    refine ⟨j 0, ?_, ?_⟩
    · exact Finset.mem_filter.2 ⟨Finset.mem_univ _, h0⟩
    · rw [← h1]; exact (eq_ix2 j).symm
  · intro e _; rfl

/-- A scatter whose body adds, in a commutative monoid, read at one result index: the operand's element plus the sum
    of the update elements that land there.  The fold visits the update indices in row-major order, each exactly
    once, and the order does not matter to the sum. -/
theorem scatter_add_eq {M : Type} [AddCommMonoid M] {s si u : Shape} (d : ScatterDims s si u) (x : s.Idx → M)
    (idx : IVec si w) (upd : u.Idx → M) (i' : s.Idx) :
    Host.scatter d (fun a b => a + b) x idx upd i'
      = x i' + ∑ j ∈ Finset.univ.filter (fun j => d.resultIdx? j idx = some i'), upd j := by
  have hfold : ∀ (l : List (Fin u.numel)) (r : s.Idx → M),
      l.foldl (fun r n =>
          match d.resultIdx? (u.rowMajor.symm n) idx with
          | some i => fun i' => if i' = i then r i + upd (u.rowMajor.symm n) else r i'
          | none => r) r i'
        = r i' + (l.map fun n =>
            if d.resultIdx? (u.rowMajor.symm n) idx = some i' then upd (u.rowMajor.symm n) else 0).sum := by
    intro l
    induction l with
    | nil => intro r; simp
    | cons a t ih =>
      intro r
      rw [List.foldl_cons, ih, List.map_cons, List.sum_cons]
      cases hr : d.resultIdx? (u.rowMajor.symm a) idx with
      | none => simp
      | some i =>
        by_cases hi : i = i'
        · subst hi; simp [add_assoc]
        · have hi' : i' ≠ i := fun e => hi e.symm
          simp [hi, hi']
  refine (hfold (List.finRange u.numel) x).trans ?_
  rw [← Fin.sum_univ_def, Finset.sum_filter]
  congr 1
  exact Equiv.sum_comp u.rowMajor.symm (fun j => if d.resultIdx? j idx = some i' then upd j else 0)

/-- The exact float scatter-add of rows at entry (i, k). -/
theorem scatterAdd_rows2 {φ : FTy} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (i : Fin N) (k : Fin C) :
    Host.scatterAdd d x idx upd (ix2 i k)
      = x (ix2 i k) + ∑ e ∈ Finset.univ.filter (fun e : Fin n => (idx (ix2 e (0 : Fin 1))).toInt = (i.val : ℤ)),
          upd (ix2 e k) := by
  show Ideal.hostScatterAdd d x idx upd (ix2 i k) = _
  unfold Ideal.hostScatterAdd
  rw [sum_landing_rows2 d huw hiw hsd hivd idx upd i k]

/-- The integer scatter-add of rows (the fold of wrapping additions in row-major order) at entry (i, k). -/
theorem scatter_addi_rows2 {v : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : IVec ⟨2, ![N, C]⟩ v) (idx : IVec ⟨2, ![n, 1]⟩ w)
    (upd : IVec ⟨2, ![n, C]⟩ v) (i : Fin N) (k : Fin C) :
    Host.scatter d IntOp.addi x idx upd (ix2 i k)
      = x (ix2 i k) + ∑ e ∈ Finset.univ.filter (fun e : Fin n => (idx (ix2 e (0 : Fin 1))).toInt = (i.val : ℤ)),
          upd (ix2 e k) := by
  show Host.scatter d (fun a b => a + b) x idx upd (ix2 i k) = _
  rw [scatter_add_eq, sum_landing_rows2 d huw hiw hsd hivd idx upd i k]

/-- Counting in 32-bit words does not wrap below 2^31: the sum of s.card ones over zero, read signed, is s.card. -/
theorem toInt_count (hn : n < 2 ^ 31) (s : Finset (Fin n)) :
    (0#32 + ∑ _e ∈ s, (1#32 : BitVec 32)).toInt = (s.card : ℤ) := by
  have hc : s.card ≤ n := by
    have := Finset.card_le_univ s
    rwa [Fintype.card_fin] at this
  have hsum : (0#32 + ∑ _e ∈ s, (1#32 : BitVec 32)) = BitVec.ofNat 32 s.card := by
    rw [Finset.sum_const, nsmul_eq_mul, BitVec.natCast_eq_ofNat]
    simp
  rw [hsum, BitVec.toInt_eq_toNat_of_lt, BitVec.toNat_ofNat, Nat.mod_eq_of_lt (by omega)]
  rw [BitVec.toNat_ofNat, Nat.mod_eq_of_lt (by omega)]
  omega

end Cert.ScatterRows

end
-- ==== Proof.LibGatherRows.lean ====
/-
  A `stablehlo.gather` that takes whole rows: what `x[idx]` lowers to when `x` has two or three axes and `idx` is a
  list of positions on the first.  The start indices are the list as an [n × 1] column; the operand's first axis is
  collapsed and start-indexed, its other axes are offset axes taken whole.  Result row `j` is the operand's row at
  the `j`-th start index read as a signed integer and clamped into the rows that exist (StableHLO's clamp): a negative
  index reads row 0, one past the end reads the last row.
-/
import Idealize.ShloMosaic.Lib.ValueIdx

noncomputable section

namespace Cert.GatherRows

open Idealize.ShloMosaic Idealize.ShloMosaic.ValueIdx

/-- Rows of a matrix: `[N, C]` at `[n, 1]` start indices gives `[n, C]`; entry `(j, k)` is the operand's at
    (clamped start index `j`, `k`).  The hypotheses are the printed dimension numbers, each by `rfl`. -/
theorem gather_rows2 {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  unfold Host.gather
  congr 1
  funext a
  refine Fin.ext ?_
  have hb : ∀ a : Fin 2, a ∉ d.operandBatchingDims := fun a => by rw [hob]; exact List.not_mem_nil
  -- the result's one batch axis is its first
  have hbd : d.batchDims = [0] := by
    show (List.finRange 2).filter (· ∉ d.offsetDims) = _
    rw [hoff]; rfl
  match a with
  | ⟨0, _⟩ =>
    -- the row axis: collapsed and start-indexed, so no offset or batching part, a slice of one row, and the start
    -- index clamped into the rows; the start index read is the column's entry at the result's row
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j k) idx 0 + d.batchCoord (ix2 j k) 0 + d.offCoord (ix2 j k) 0 = _
    rw [GatherDims.batchCoord_eq_zero _ _ _ (hb 0), GatherDims.offCoord_eq_zero _ _ _ hk]
    simp only [Nat.add_zero]
    unfold GatherDims.start
    rw [dif_pos hm]
    have e : ∀ X : Fin 2, X ∈ d.batchDims → ((ix2 j k : (⟨2, ![n, C]⟩ : Shape).Idx) X).val = j.val := fun X hX => by
      rw [hbd] at hX
      obtain rfl := List.mem_singleton.mp hX
      rfl
    have hsi : d.siIdx (ix2 j k) ⟨List.idxOf (0 : Fin 2) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 2) d.startIndexMap = 0
        rw [hsim]; simp
    rw [hsi, hsl]
    rfl
  | ⟨1, _⟩ =>
    -- the column axis: an offset axis taken whole, so the start is 0 and the coordinate is the result's own
    have hk : (1 : Fin 2) ∈ d.sKept := by rw [GatherDims.mem_sKept, hcoll, hob]; simp
    have hm : (1 : Fin 2) ∉ d.startIndexMap := by rw [hsim]; simp
    show d.start (ix2 j k) idx 1 + d.batchCoord (ix2 j k) 1 + d.offCoord (ix2 j k) 1 = k.val
    rw [GatherDims.batchCoord_eq_zero _ _ _ (hb 1)]
    unfold GatherDims.start GatherDims.offCoord
    rw [dif_neg hm, dif_pos hk]
    simp only [Nat.add_zero, Nat.zero_add]
    have e : ∀ X : Fin 2, X ∈ d.offsetDims → ((ix2 j k : (⟨2, ![n, C]⟩ : Shape).Idx) X).val = k.val := fun X hX => by
      rw [hoff] at hX
      obtain rfl := List.mem_singleton.mp hX
      rfl
    exact e _ (List.getElem_mem _)

/-- Rows of a stack of matrices: `[N, L, C]` at `[n, 1]` start indices gives `[n, L, C]`; entry `(j, l, k)` is the
    operand's at (clamped start index `j`, `l`, `k`). -/
theorem gather_rows3 {α : Type} {N L C n w : Nat} (hN : 0 < N)
    (d : GatherDims ⟨3, ![N, L, C]⟩ ⟨2, ![n, 1]⟩ ⟨3, ![n, L, C]⟩)
    (hoff : d.offsetDims = [1, 2]) (hcoll : d.collapsedSliceDims = [0]) (hob : d.operandBatchingDims = [])
    (hsim : d.startIndexMap = [0]) (hivd : d.indexVectorDim = 1)
    (x : (⟨3, ![N, L, C]⟩ : Shape).Idx → α) (idx : IVec ⟨2, ![n, 1]⟩ w) (j : Fin n) (l : Fin L) (k : Fin C) :
    Host.gather d x idx (ix3 j l k)
      = x (ix3 ⟨min (idx (ix2 j (0 : Fin 1))).toInt.toNat (N - 1), by omega⟩ l k) := by
  unfold Host.gather
  congr 1
  funext a
  refine Fin.ext ?_
  have hb : ∀ a : Fin 3, a ∉ d.operandBatchingDims := fun a => by rw [hob]; exact List.not_mem_nil
  -- the result's one batch axis is its first; the operand's kept axes are its second and third
  have hbd : d.batchDims = [0] := by
    show (List.finRange 3).filter (· ∉ d.offsetDims) = _
    rw [hoff]; rfl
  have hsk : d.sKept = [1, 2] := by
    show (List.finRange 3).filter (· ∉ d.collapsedSliceDims ++ d.operandBatchingDims) = _
    rw [hcoll, hob]; rfl
  -- an operand axis that is kept and not start-indexed reads the result's coordinate on the offset axis in its position
  have hoffax : ∀ (a : Fin 3) (p : Nat) (hp : p < d.offsetDims.length), a ∈ d.sKept → a ∉ d.startIndexMap →
      d.sKept.idxOf a = p →
      d.start (ix3 j l k) idx a + d.batchCoord (ix3 j l k) a + d.offCoord (ix3 j l k) a
        = ((ix3 j l k : (⟨3, ![n, L, C]⟩ : Shape).Idx) (d.offsetDims[p]'hp)).val := by
    intro a p hp hk hm hidx
    subst hidx
    rw [GatherDims.batchCoord_eq_zero _ _ _ (hb a)]
    unfold GatherDims.start GatherDims.offCoord
    rw [dif_neg hm, dif_pos hk]
    simp only [Nat.add_zero, Nat.zero_add]
  match a with
  | ⟨0, _⟩ =>
    -- the row axis: collapsed and start-indexed, so no offset or batching part, a slice of one row, and the start
    -- index clamped into the rows; the start index read is the column's entry at the result's row
    have hk : (0 : Fin 3) ∉ d.sKept := by rw [GatherDims.mem_sKept, hcoll]; simp
    have hm : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j l k) idx 0 + d.batchCoord (ix3 j l k) 0 + d.offCoord (ix3 j l k) 0 = _
    rw [GatherDims.batchCoord_eq_zero _ _ _ (hb 0), GatherDims.offCoord_eq_zero _ _ _ hk]
    simp only [Nat.add_zero]
    unfold GatherDims.start
    rw [dif_pos hm]
    have e : ∀ X : Fin 3, X ∈ d.batchDims → ((ix3 j l k : (⟨3, ![n, L, C]⟩ : Shape).Idx) X).val = j.val := fun X hX => by
      rw [hbd] at hX
      obtain rfl := List.mem_singleton.mp hX
      rfl
    have hsi : d.siIdx (ix3 j l k) ⟨List.idxOf (0 : Fin 3) d.startIndexMap, List.idxOf_lt_length_iff.2 hm⟩
        = ix2 j (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        exact e _ (List.getElem_mem _)
      | ⟨1, _⟩ =>
        unfold GatherDims.siIdx
        rw [dif_pos (by rw [hivd])]
        show List.idxOf (0 : Fin 3) d.startIndexMap = 0
        rw [hsim]; simp
    rw [hsi, hsl]
    rfl
  | ⟨1, _⟩ =>
    -- the second axis: the first of the two offset axes
    have hk : (1 : Fin 3) ∈ d.sKept := by rw [hsk]; simp
    have hm : (1 : Fin 3) ∉ d.startIndexMap := by rw [hsim]; simp
    have hp : 0 < d.offsetDims.length := by rw [hoff]; simp
    have h1 : d.offsetDims[0]'hp = 1 := by rw [List.getElem_of_eq hoff]; rfl
    show d.start (ix3 j l k) idx 1 + d.batchCoord (ix3 j l k) 1 + d.offCoord (ix3 j l k) 1 = l.val
    rw [hoffax 1 0 hp hk hm (by rw [hsk]; rfl), h1]
    rfl
  | ⟨2, _⟩ =>
    -- the third axis: the second of the two offset axes
    have hk : (2 : Fin 3) ∈ d.sKept := by rw [hsk]; simp
    have hm : (2 : Fin 3) ∉ d.startIndexMap := by rw [hsim]; simp
    have hp : 1 < d.offsetDims.length := by rw [hoff]; simp
    have h2 : d.offsetDims[1]'hp = 2 := by rw [List.getElem_of_eq hoff]; rfl
    show d.start (ix3 j l k) idx 2 + d.batchCoord (ix3 j l k) 2 + d.offCoord (ix3 j l k) 2 = k.val
    rw [hoffax 2 1 hp hk hm (by rw [hsk]; rfl), h2]
    rfl

end Cert.GatherRows

end
-- ==== Proof.RefValue.lean ====
/-
  The reference computes the specification.

  The reference is read one operation at a time at an index.  Four facts carry the content: a wrapped edge id
  that is nonnegative is the id itself; a scatter-add of voxel rows (or of ones) into cluster rows, read at a
  cluster, is the sum over the voxels whose id is that cluster's number; a gather at an id inside the table
  reads the table at that id; and every other operation is elementwise, a layout change, or a matrix product
  read as a finite sum.
-/
import proofs.«408049_j17463337026110_3_alg».proof.Proof.Gen.ReferenceIdeal.Read
import proofs.«408049_j17463337026110_3_alg».proof.Proof.Spec
import proofs.«408049_j17463337026110_3_alg».proof.Proof.LibScatterRows
import proofs.«408049_j17463337026110_3_alg».proof.Proof.LibGatherRows
import Idealize.ShloMosaic.Lib.StableHlo.Predicate
import Idealize.ShloMosaic.Lib.ValueIdx
import Idealize.ShloMosaic.PureOps.Ideal.Laws
import Idealize.ShloMosaic.Lib.IdealHost

noncomputable section

namespace Cert.ReferenceIdeal.RefValue

open Cert.ReferenceIdeal Cert.ReferenceIdeal.Read Idealize.ShloMosaic Idealize.ShloMosaic.ValueIdx

/-! ## The edge ids -/

/-- Row 0 of the edge table as a vector: entry e is the table's entry (0, e). -/
theorem v9_at (x2 : (⟨S2x16000, .i32⟩ : BufTy).Contents (Elt Ideal)) (e : Fin 16000) :
    val_main_v9 (F := Ideal) x2 (ix1 e) = x2 (ix2 0 e) := by
  rw [val_main_v9_apply, val_main_v8_apply]
  congr 1
  funext a
  match a with
  | ⟨0, _⟩ => exact Fin.ext rfl
  | ⟨1, _⟩ => exact Fin.ext (Nat.mod_eq_of_lt e.isLt)

/-- Row 1 of the edge table as a vector: entry e is the table's entry (1, e). -/
theorem v11_at (x2 : (⟨S2x16000, .i32⟩ : BufTy).Contents (Elt Ideal)) (e : Fin 16000) :
    val_main_v11 (F := Ideal) x2 (ix1 e) = x2 (ix2 1 e) := by
  rw [val_main_v11_apply, val_main_v10_apply]
  congr 1
  funext a
  match a with
  | ⟨0, _⟩ => exact Fin.ext rfl
  | ⟨1, _⟩ => exact Fin.ext (Nat.mod_eq_of_lt e.isLt)

/-- Wrapping a negative index by the table's length leaves a nonnegative word alone. -/
theorem wrap_nonneg (w : BitVec 32) (h : 0 ≤ w.toInt) :
    Scalar.select (IntOp.cmpi .slt w 0#32) (IntOp.addi w 2000#32) w = w := by
  have hc : IntOp.cmpi .slt w 0#32 = 0#1 := by
    unfold IntOp.cmpi
    have : w.slt 0#32 = false := by
      simp only [BitVec.slt, BitVec.toInt_zero, decide_eq_false_iff_not, not_lt]
      exact h
    rw [this]; rfl
  rw [hc, select_zero]

/-! ## A scatter-add of single entries -/

variable {N n w : Nat}

/-- Update e of a vector of updates lands on entry i of a vector operand exactly when the e-th start index, read
    signed, is i.  The hypotheses are the printed dimension numbers, each by rfl. -/
theorem resultIdx?_rows1 (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (e : Fin n) (i : Fin N) :
    d.resultIdx? (ix1 e) idx = some (ix1 i) ↔ (idx (ix2 e (0 : Fin 1))).toInt = (i.val : ℤ) := by
  rw [Cert.LibScatterRead.resultIdx?_eq_some_iff]
  -- the operand's one axis is inserted, so no axis is kept; the update's one axis is its scatter axis
  have hsk : d.sKept = [] := by
    show (List.finRange 1).filter (· ∉ d.insertedWindowDims) = _
    rw [hiw]; rfl
  have hus : d.uScatter = [0] := by
    show (List.finRange 1).filter (· ∉ d.updateWindowDims) = _
    rw [huw]; rfl
  have hm0 : (0 : Fin 1) ∈ d.scatterDimsToOperandDims := by rw [hsd]; exact List.mem_singleton.mpr rfl
  have hk0 : (0 : Fin 1) ∉ d.sKept := by rw [hsk]; exact List.not_mem_nil
  have hsi : d.siIdx (ix1 e) ⟨List.idxOf (0 : Fin 1) d.scatterDimsToOperandDims, List.idxOf_lt_length_iff.2 hm0⟩
      = ix2 e (0 : Fin 1) := by
    funext b
    refine Fin.ext ?_
    match b with
    | ⟨0, _⟩ =>
      unfold ScatterDims.siIdx
      rw [dif_neg (by rw [hivd]; exact Nat.zero_ne_one)]
      unfold ScatterDims.siCoord
      simp only [Fin.val_cast]
      have e' : ∀ X : Fin 1, X ∈ d.uScatter → ((ix1 e : (⟨1, ![n]⟩ : Shape).Idx) X).val = e.val := fun X hX => by
        rw [hus] at hX
        obtain rfl := List.mem_singleton.mp hX
        rfl
      exact e' _ (List.getElem_mem _)
    | ⟨1, _⟩ =>
      unfold ScatterDims.siIdx
      rw [dif_pos (by rw [hivd])]
      show List.idxOf (0 : Fin 1) d.scatterDimsToOperandDims = 0
      rw [hsd]; simp
  have hs0 : d.start (ix1 e) idx 0 = (idx (ix2 e (0 : Fin 1))).toInt := by
    unfold ScatterDims.start
    rw [dif_pos hm0, hsi]
  have hw0 : d.window (ix1 e) 0 = 0 := by
    unfold ScatterDims.window
    rw [dif_neg hk0]
  have hi0 : (((ix1 i : (⟨1, ![N]⟩ : Shape).Idx) 0).val : Int) = (i.val : Int) := rfl
  constructor
  · intro h
    have h0 := h 0
    rw [hs0, hw0, hi0] at h0
    omega
  · intro h0 a
    have ha : a = 0 := Subsingleton.elim _ _
    subst ha
    rw [hs0, hw0, hi0, h0]; simp

/-- The exact float scatter-add of single entries into a vector, at entry i: the operand's entry plus the sum of the
    updates whose start index is i. -/
theorem scatterAdd_rows1 {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (x : FVec Ideal ⟨1, ![N]⟩ φ) (idx : IVec ⟨2, ![n, 1]⟩ w)
    (upd : FVec Ideal ⟨1, ![n]⟩ φ) (i : Fin N) :
    Host.scatterAdd d x idx upd (ix1 i)
      = x (ix1 i) + ∑ e ∈ Finset.univ.filter (fun e : Fin n => (idx (ix2 e (0 : Fin 1))).toInt = (i.val : ℤ)),
          upd (ix1 e) := by
  show Ideal.hostScatterAdd d x idx upd (ix1 i) = _
  unfold Ideal.hostScatterAdd
  congr 1
  symm
  refine Finset.sum_bij (fun e _ => ix1 e) ?_ ?_ ?_ ?_
  · intro e he
    rw [Finset.mem_filter] at he ⊢
    exact ⟨Finset.mem_univ _, (resultIdx?_rows1 d huw hiw hsd hivd idx e i).2 he.2⟩
  · intro e1 _ e2 _ h
    exact congrFun h 0
  · intro j hj
    rw [Finset.mem_filter] at hj
    have hj2 := hj.2
    rw [eq_ix1 j] at hj2
    refine ⟨j 0, ?_, (eq_ix1 j).symm⟩
    exact Finset.mem_filter.2 ⟨Finset.mem_univ _, (resultIdx?_rows1 d huw hiw hsd hivd idx (j 0) i).1 hj2⟩
  · intro e _; rfl

/-! ## The two segment sums read at a cluster -/

/-- The f32 zero word is the number zero, the f32 one word the number one. -/
theorem zero_word : (FloatOps.ofBits .f32 0x00000000#32 : Ideal .f32) = 0 := Ideal.ofBits_zero_f32
theorem one_word : (FloatOps.ofBits .f32 0x3F800000#32 : Ideal .f32) = 1 := Ideal.ofBits_one_f32

/-- Entry (c, k) of the scattered feature sums: the sum of feature column k over the voxels whose id, read signed,
    is c. -/
theorem v3_at (x0 : (⟨S2000000x5, .f32⟩ : BufTy).Contents (Elt Ideal)) (x1 : (⟨S2000000, .i32⟩ : BufTy).Contents (Elt Ideal))
    (c : Fin 2000) (k : Fin 4) :
    val_main_v3 (F := Ideal) x0 x1 (ix2 c k)
      = ∑ n : Fin 2000000, if (x1 (ix1 n)).toInt = (c.val : ℤ) then x0 (ix2 n k.succ) else 0 := by
  unfold val_main_v3
  rw [Cert.ScatterRows.scatterAdd_rows2 _ rfl rfl rfl rfl, val_main_v1_apply, val_main_cst_apply, zero_word, zero_add,
    Finset.sum_filter]
  refine Finset.sum_congr rfl fun n _ => ?_
  rw [val_main_v2_apply, val_main_v0_apply]
  have e1 : idx_main_v2 (ix2 n (0 : Fin 1)) = ix1 n := by
    funext a; match a with | ⟨0, _⟩ => rfl
  have e2 : idx_main_v0 (ix2 n k) = ix2 n k.succ := by
    funext a
    match a with
    | ⟨0, _⟩ => rfl
    | ⟨1, _⟩ => exact Fin.ext (Nat.add_comm 1 k.val)
  rw [e1, e2]

/-- Entry c of the scattered counts: the number of voxels whose id, read signed, is c, as a sum of ones. -/
theorem v7_at (x1 : (⟨S2000000, .i32⟩ : BufTy).Contents (Elt Ideal)) (c : Fin 2000) :
    val_main_v7 (F := Ideal) x1 (ix1 c)
      = ∑ n : Fin 2000000, if (x1 (ix1 n)).toInt = (c.val : ℤ) then (1 : EReal) else 0 := by
  unfold val_main_v7
  rw [scatterAdd_rows1 _ rfl rfl rfl rfl, val_main_v5_apply, val_main_cst_1_apply, zero_word, zero_add,
    Finset.sum_filter]
  refine Finset.sum_congr rfl fun n _ => ?_
  rw [val_main_v6_apply, val_main_v4_apply, val_main_cst_0_apply, one_word]
  have e1 : idx_main_v6 (ix2 n (0 : Fin 1)) = ix1 n := by
    funext a; match a with | ⟨0, _⟩ => rfl
  rw [e1]

/-! ## The wrapped ids, as the columns the gathers read -/

section ids

variable (x2 : (⟨S2x16000, .i32⟩ : BufTy).Contents (Elt Ideal))
  (hrange : ∀ i : S2x16000.Idx, 0 ≤ (x2 i).toInt ∧ (x2 i).toInt < 2000)
include hrange

/-- The column of wrapped first ids at (e, 0) is edge e's first id (the sums' gather). -/
theorem v17_at (e : Fin 16000) : val_main_v17 (F := Ideal) x2 (ix2 e (0 : Fin 1)) = x2 (ix2 0 e) := by
  rw [val_main_v17_apply]
  have e1 : idx_main_v17 (ix2 e (0 : Fin 1)) = ix1 e := by
    funext a; match a with | ⟨0, _⟩ => rfl
  rw [e1, val_main_v16_apply, val_main_v13_apply, val_main_v15_apply, val_main_v12_apply, val_main_c_apply,
    val_main_v14_apply, val_main_c_2_apply, v9_at]
  exact wrap_nonneg _ (hrange (ix2 0 e)).1

/-- The column of wrapped second ids at (e, 0) is edge e's second id (the sums' gather). -/
theorem v24_at (e : Fin 16000) : val_main_v24 (F := Ideal) x2 (ix2 e (0 : Fin 1)) = x2 (ix2 1 e) := by
  rw [val_main_v24_apply]
  have e1 : idx_main_v24 (ix2 e (0 : Fin 1)) = ix1 e := by
    funext a; match a with | ⟨0, _⟩ => rfl
  rw [e1, val_main_v23_apply, val_main_v20_apply, val_main_v22_apply, val_main_v19_apply, val_main_c_3_apply,
    val_main_v21_apply, val_main_c_4_apply, v11_at]
  exact wrap_nonneg _ (hrange (ix2 1 e)).1

/-- The column of wrapped first ids at (e, 0) is edge e's first id (the counts' gather). -/
theorem v32_at (e : Fin 16000) : val_main_v32 (F := Ideal) x2 (ix2 e (0 : Fin 1)) = x2 (ix2 0 e) := by
  rw [val_main_v32_apply]
  have e1 : idx_main_v32 (ix2 e (0 : Fin 1)) = ix1 e := by
    funext a; match a with | ⟨0, _⟩ => rfl
  rw [e1, val_main_v31_apply, val_main_v28_apply, val_main_v30_apply, val_main_v27_apply, val_main_c_5_apply,
    val_main_v29_apply, val_main_c_6_apply, v9_at]
  exact wrap_nonneg _ (hrange (ix2 0 e)).1

/-- The column of wrapped second ids at (e, 0) is edge e's second id (the counts' gather). -/
theorem v39_at (e : Fin 16000) : val_main_v39 (F := Ideal) x2 (ix2 e (0 : Fin 1)) = x2 (ix2 1 e) := by
  rw [val_main_v39_apply]
  have e1 : idx_main_v39 (ix2 e (0 : Fin 1)) = ix1 e := by
    funext a; match a with | ⟨0, _⟩ => rfl
  rw [e1, val_main_v38_apply, val_main_v35_apply, val_main_v37_apply, val_main_v34_apply, val_main_c_7_apply,
    val_main_v36_apply, val_main_c_8_apply, v11_at]
  exact wrap_nonneg _ (hrange (ix2 1 e)).1

end ids

/-! ## The gathers read at an edge -/

/-- A word read signed is the number of a nonnegative word c exactly when it is c. -/
theorem toInt_eq_iff (a c : BitVec 32) (hc : 0 ≤ c.toInt) : a.toInt = ((c.toInt.toNat : ℕ) : ℤ) ↔ a = c := by
  rw [Int.toNat_of_nonneg hc]
  exact BitVec.toInt_inj

/-- The row of feature sums whose number is the nonnegative word c is the cluster sum of c. -/
theorem v3_row (x0 : (⟨S2000000x5, .f32⟩ : BufTy).Contents (Elt Ideal)) (x1 : (⟨S2000000, .i32⟩ : BufTy).Contents (Elt Ideal))
    (c : BitVec 32) (hc : 0 ≤ c.toInt) (r : Fin 2000) (hr : r.val = c.toInt.toNat) (k : Fin 4) :
    val_main_v3 (F := Ideal) x0 x1 (ix2 r k) = Cert.Spec.clusterSum x0 x1 c k.succ := by
  rw [v3_at]
  unfold Cert.Spec.clusterSum
  refine Finset.sum_congr rfl fun n _ => ?_
  have hiff : (x1 (ix1 n)).toInt = (r.val : ℤ) ↔ x1 (ix1 n) = c := by rw [hr]; exact toInt_eq_iff _ _ hc
  by_cases h : x1 (ix1 n) = c
  · rw [if_pos h, if_pos (hiff.2 h)]
  · rw [if_neg h, if_neg (fun h' => h (hiff.1 h'))]

/-- The count whose number is the nonnegative word c is the cluster count of c. -/
theorem v7_row (x1 : (⟨S2000000, .i32⟩ : BufTy).Contents (Elt Ideal))
    (c : BitVec 32) (hc : 0 ≤ c.toInt) (r : Fin 2000) (hr : r.val = c.toInt.toNat) :
    val_main_v7 (F := Ideal) x1 (ix1 r) = Cert.Spec.clusterCount x1 c := by
  rw [v7_at]
  unfold Cert.Spec.clusterCount
  refine Finset.sum_congr rfl fun n _ => ?_
  have hiff : (x1 (ix1 n)).toInt = (r.val : ℤ) ↔ x1 (ix1 n) = c := by rw [hr]; exact toInt_eq_iff _ _ hc
  by_cases h : x1 (ix1 n) = c
  · rw [if_pos h, if_pos (hiff.2 h)]
  · rw [if_neg h, if_neg (fun h' => h (hiff.1 h'))]

section gathers

variable (x0 : (⟨S2000000x5, .f32⟩ : BufTy).Contents (Elt Ideal)) (x1 : (⟨S2000000, .i32⟩ : BufTy).Contents (Elt Ideal))
  (x2 : (⟨S2x16000, .i32⟩ : BufTy).Contents (Elt Ideal))
  (hrange : ∀ i : S2x16000.Idx, 0 ≤ (x2 i).toInt ∧ (x2 i).toInt < 2000)
include hrange

/-- The gathered sums of the first cluster of edge e. -/
theorem v18_at (e : Fin 16000) (k : Fin 4) :
    val_main_v18 (F := Ideal) x0 x1 x2 (ix2 e k) = Cert.Spec.clusterSum x0 x1 (x2 (ix2 0 e)) k.succ := by
  unfold val_main_v18
  have hw := hrange (ix2 0 e)
  refine (Cert.GatherRows.gather_rows2 (by decide) _ rfl rfl rfl rfl rfl _ _ e k).trans ?_
  refine v3_row x0 x1 _ hw.1 _ ?_ k
  show min _ _ = _
  rw [v17_at x2 hrange e]
  omega

/-- The gathered sums of the second cluster of edge e. -/
theorem v25_at (e : Fin 16000) (k : Fin 4) :
    val_main_v25 (F := Ideal) x0 x1 x2 (ix2 e k) = Cert.Spec.clusterSum x0 x1 (x2 (ix2 1 e)) k.succ := by
  unfold val_main_v25
  have hw := hrange (ix2 1 e)
  refine (Cert.GatherRows.gather_rows2 (by decide) _ rfl rfl rfl rfl rfl _ _ e k).trans ?_
  refine v3_row x0 x1 _ hw.1 _ ?_ k
  show min _ _ = _
  rw [v24_at x2 hrange e]
  omega

omit x0 in
/-- The gathered count of the first cluster of edge e. -/
theorem v33_at (e : Fin 16000) :
    val_main_v33 (F := Ideal) x1 x2 (ix1 e) = Cert.Spec.clusterCount x1 (x2 (ix2 0 e)) := by
  unfold val_main_v33
  have hw := hrange (ix2 0 e)
  have hp : (ix1 e : S16000.Idx) = Shape.Idx.ofFin e := by
    funext a; match a with | ⟨0, _⟩ => exact Fin.ext rfl
  have hq : StableHlo.Predicate.ixP e = ix2 e (0 : Fin 1) := by
    funext a; match a with | ⟨0, _⟩ => rfl | ⟨1, _⟩ => rfl
  rw [hp]
  refine (StableHlo.Predicate.gather_take _ rfl rfl rfl rfl _ _ e (by decide)).trans ?_
  have hr : ∀ r : Fin 2000, (Shape.Idx.ofFin r : S2000.Idx) = ix1 r := fun r => by
    funext a; match a with | ⟨0, _⟩ => exact Fin.ext rfl
  rw [hr]
  refine v7_row x1 _ hw.1 _ ?_
  show min _ _ = _
  rw [hq, v32_at x2 hrange e]
  omega

omit x0 in
/-- The gathered count of the second cluster of edge e. -/
theorem v40_at (e : Fin 16000) :
    val_main_v40 (F := Ideal) x1 x2 (ix1 e) = Cert.Spec.clusterCount x1 (x2 (ix2 1 e)) := by
  unfold val_main_v40
  have hw := hrange (ix2 1 e)
  have hp : (ix1 e : S16000.Idx) = Shape.Idx.ofFin e := by
    funext a; match a with | ⟨0, _⟩ => exact Fin.ext rfl
  have hq : StableHlo.Predicate.ixP e = ix2 e (0 : Fin 1) := by
    funext a; match a with | ⟨0, _⟩ => rfl | ⟨1, _⟩ => rfl
  rw [hp]
  refine (StableHlo.Predicate.gather_take _ rfl rfl rfl rfl _ _ e (by decide)).trans ?_
  have hr : ∀ r : Fin 2000, (Shape.Idx.ofFin r : S2000.Idx) = ix1 r := fun r => by
    funext a; match a with | ⟨0, _⟩ => exact Fin.ext rfl
  rw [hr]
  refine v7_row x1 _ hw.1 _ ?_
  show min _ _ = _
  rw [hq, v39_at x2 hrange e]
  omega

end gathers

/-! ## The pooled features and the two layers -/

section layers

variable (x0 : (⟨S2000000x5, .f32⟩ : BufTy).Contents (Elt Ideal)) (x1 : (⟨S2000000, .i32⟩ : BufTy).Contents (Elt Ideal))
  (x2 : (⟨S2x16000, .i32⟩ : BufTy).Contents (Elt Ideal))
  (x3 : (⟨S4x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))
  (hrange : ∀ i : S2x16000.Idx, 0 ≤ (x2 i).toInt ∧ (x2 i).toInt < 2000)
include hrange

omit x3 x4 x5 x6 in
/-- The quotient stage at (e, k): the two clusters' sums over the larger of one and the two counts' sum. -/
theorem v46_at (e : Fin 16000) (k : Fin 4) :
    val_main_v46 (F := Ideal) x0 x1 x2 (ix2 e k) = Cert.Spec.pooled x0 x1 x2 e k := by
  rw [val_main_v46_apply, val_main_v26_apply, val_main_v45_apply]
  have e1 : idx_main_v45 (ix2 e k) = ix2 e (0 : Fin 1) := by
    funext a; match a with | ⟨0, _⟩ => rfl | ⟨1, _⟩ => rfl
  rw [e1, val_main_v44_apply]
  have e2 : idx_main_v44 (ix2 e (0 : Fin 1)) = ix1 e := by
    funext a; match a with | ⟨0, _⟩ => rfl
  rw [e2, val_main_v43_apply, val_main_v41_apply, val_main_v42_apply, val_main_cst_9_apply, one_word,
    v18_at x0 x1 x2 hrange, v25_at x0 x1 x2 hrange, v33_at x1 x2 hrange, v40_at x1 x2 hrange]
  rfl

omit x5 x6 in
/-- The first layer at (e, h): the affine map of the pooled features, clipped below at zero. -/
theorem v51_at (e : Fin 16000) (h : Fin 128) :
    val_main_v51 (F := Ideal) x0 x1 x2 x3 x4 (ix2 e h) = Cert.Spec.hidden x0 x1 x2 x3 x4 e h := by
  rw [val_main_v51_apply, val_main_v50_apply, val_main_v47_apply, val_main_v49_apply, val_main_v48_apply,
    val_main_call0_v0_apply, val_main_call0_cst_apply, zero_word]
  have e1 : idx_main_v48 (idx_main_v49 (ix2 e h)) = ix1 h := by
    funext a; match a with | ⟨0, _⟩ => rfl
  rw [e1]
  have hs : ∀ k : Fin 4, val_main_v46 (F := Ideal) x0 x1 x2 (lidx_main_v47 (ix2 e h) k) * x3 (ridx_main_v47 (ix2 e h) k)
      = Cert.Spec.pooled x0 x1 x2 e k * x3 (ix2 k h) := fun k => by
    have l : lidx_main_v47 (ix2 e h) k = ix2 e k := by
      funext a; match a with | ⟨0, _⟩ => rfl | ⟨1, _⟩ => rfl
    have r : ridx_main_v47 (ix2 e h) k = ix2 k h := by
      funext a; match a with | ⟨0, _⟩ => rfl | ⟨1, _⟩ => rfl
    rw [l, r, v46_at x0 x1 x2 hrange]
  rw [Finset.sum_congr rfl fun k _ => hs k]
  rfl

/-- The reference's result is the specification's. -/
theorem ref_eq :
    Cert.ReferenceIdeal.Read.val_main_v55 (F := Ideal) x0 x1 x2 x3 x4 x5 x6 = Cert.Spec.G x0 x1 x2 x3 x4 x5 x6 := by
  funext i
  obtain ⟨e, j, rfl⟩ : ∃ e j, i = ix2 e j := ⟨i 0, i 1, eq_ix2 i⟩
  rw [val_main_v55_apply, val_main_v52_apply, val_main_v54_apply, val_main_v53_apply]
  have e1 : idx_main_v53 (idx_main_v54 (ix2 e j)) = ix1 j := by
    funext a; match a with | ⟨0, _⟩ => rfl
  rw [e1]
  have hs : ∀ h : Fin 128, val_main_v51 (F := Ideal) x0 x1 x2 x3 x4 (lidx_main_v52 (ix2 e j) h) * x5 (ridx_main_v52 (ix2 e j) h)
      = Cert.Spec.hidden x0 x1 x2 x3 x4 e h * x5 (ix2 h j) := fun h => by
    have l : lidx_main_v52 (ix2 e j) h = ix2 e h := by
      funext a; match a with | ⟨0, _⟩ => rfl | ⟨1, _⟩ => rfl
    have r : ridx_main_v52 (ix2 e j) h = ix2 h j := by
      funext a; match a with | ⟨0, _⟩ => rfl | ⟨1, _⟩ => rfl
    rw [l, r, v51_at x0 x1 x2 x3 x4 hrange]
  rw [Finset.sum_congr rfl fun h _ => hs h]
  rfl

end layers

end Cert.ReferenceIdeal.RefValue

end
-- ==== Proof.lean ====
/-
  The certificate: the kernel (a one-hot matrix product accumulated over the voxel blocks for the per-cluster
  sums and counts, a second one-hot product gathering each edge's two clusters out of a ten-column table, the
  mean, two affine layers) against the reference (segment sums, two gathers, the mean, the same two layers).

  Over the extended reals both are one function of the argument arrays, `Spec.G`, where the voxel rows are finite
  and every edge id lies in [0, 2000): a changed float format is the identity; a one-hot product is the sum over
  the rows whose id is the lane; the padded rows carry the id 2048, which is no lane; the table's split columns
  s, s - s and n - 256 floor (n / 256), 256 floor (n / 256) add back to s and n because they are finite; and an id
  in range is neither wrapped nor clamped by the reference's gathers and is a lane of the kernel's table.
  The frames: the reference's is its run with the result dropped; each kernel program's is the conditional
  frame over its two regions' records; nothing was rewritten by the idealization, so `preserves` is trivial.
-/
import proofs.«408049_j17463337026110_3_alg».proof.Defs
import proofs.«408049_j17463337026110_3_alg».proof.Proof.Gen.Kernel
import proofs.«408049_j17463337026110_3_alg».proof.Proof.Gen.KernelIdeal
import proofs.«408049_j17463337026110_3_alg».proof.Proof.Gen.ReferenceIdeal
import proofs.«408049_j17463337026110_3_alg».proof.Proof.Gen.Pre_finite_inputs
import proofs.«408049_j17463337026110_3_alg».proof.Proof.Gen.ReferenceIdeal.Run
import proofs.«408049_j17463337026110_3_alg».proof.Proof.Gen.ReferenceIdeal.Read
import proofs.«408049_j17463337026110_3_alg».proof.Proof.KFrame
import proofs.«408049_j17463337026110_3_alg».proof.Proof.KIFrame
import proofs.«408049_j17463337026110_3_alg».proof.Proof.KIValue
import proofs.«408049_j17463337026110_3_alg».proof.Proof.RefValue

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of the (agreeing) arguments in their result arrays. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.result_eq_G m hpre c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨_, hrange⟩ := Cert.KernelIdeal.Hand.pre_decode _ _ _ _ _ _ _ (hpre c)
    obtain ⟨h0, h1, h2, h3, h4, h5, h6⟩ := hagree c
    rw [Cert.ReferenceIdeal.Read.val_main_v55_eq, h0, h1, h2, h3, h4, h5, h6]
    exact Cert.ReferenceIdeal.RefValue.ref_eq _ _ _ _ _ _ _ hrange

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
